-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x4096 : Shape := ⟨2, ![1024, 4096]⟩
abbrev S4096x5120 : Shape := ⟨2, ![4096, 5120]⟩
abbrev S4096 : Shape := ⟨1, ![4096]⟩
abbrev S4096x4096 : Shape := ⟨2, ![4096, 4096]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x5120 : S_.BroadcastsInDim S4096x5120 (![] : Fin 0 → Fin S4096x5120.rank)
  reducesTo_S4096x5120_S_d0_1 : S4096x5120.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part3 {F : FTy → Type} [FloatOps F] (main_arg11 : FVec F S4096x4096 .f32) (main_arg12 : FVec F S4096 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  main_v63

def fn_part2 {F : FTy → Type} [FloatOps F] (main_arg7 : FVec F S4096x5120 .f32) (main_arg8 : FVec F S4096 .f32) (main_arg9 : FVec F S4096x5120 .f32) (main_arg10 : FVec F S4096 .f32) (main_arg11 : FVec F S4096x4096 .f32) (main_arg12 : FVec F S4096 .f32) (main_v33 : IVec S_ 1) : IVec S_ 1 :=
  let main_v34 : FVec F S4096x5120 .f32 := Host.absf main_arg7
  let main_cst_12 : FVec F S_ .f32 := constant S_ .f32 0x7F800000#32
  let main_v35 : FVec F S4096x5120 .f32 := broadcastInDim S4096x5120 ![] bcast_S_S4096x5120 main_cst_12
  let main_v36 : IVec S4096x5120 1 := cmpf .olt main_v34 main_v35
  let main_c_13 : IVec S_ 1 := constantI S_ 1 1#1
  let main_v37 : IVec S_ 1 := (fun x v => Host.reduce IntOp.andi x v reducesTo_S4096x5120_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x5120 .f32 := Host.absf main_arg9
  let main_cst_16 : FVec F S_ .f32 := constant S_ .f32 0x7F800000#32
  let main_v45 : FVec F S4096x5120 .f32 := broadcastInDim S4096x5120 ![] bcast_S_S4096x5120 main_cst_16
  let main_v46 : IVec S4096x5120 1 := cmpf .olt main_v44 main_v45
  let main_c_17 : IVec S_ 1 := constantI S_ 1 1#1
  let main_v47 : IVec S_ 1 := (fun x v => Host.reduce IntOp.andi x v reducesTo_S4096x5120_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S4096 .f32) (main_arg5 : FVec F S4096x5120 .f32) (main_arg6 : FVec F S4096 .f32) (main_arg7 : FVec F S4096x5120 .f32) (main_arg8 : FVec F S4096 .f32) (main_arg9 : FVec F S4096x5120 .f32) (main_arg10 : FVec F S4096 .f32) (main_arg11 : FVec F S4096x4096 .f32) (main_arg12 : FVec F S4096 .f32) (main_v13 : IVec S_ 1) (main_v16 : IVec S4096x5120 1) : IVec S_ 1 :=
  let main_c_5 : IVec S_ 1 := constantI S_ 1 1#1
  let main_v17 : IVec S_ 1 := (fun x v => Host.reduce IntOp.andi x v reducesTo_S4096x5120_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x5120 .f32 := Host.absf main_arg5
  let main_cst_8 : FVec F S_ .f32 := constant S_ .f32 0x7F800000#32
  let main_v25 : FVec F S4096x5120 .f32 := broadcastInDim S4096x5120 ![] bcast_S_S4096x5120 main_cst_8
  let main_v26 : IVec S4096x5120 1 := cmpf .olt main_v24 main_v25
  let main_c_9 : IVec S_ 1 := constantI S_ 1 1#1
  let main_v27 : IVec S_ 1 := (fun x v => Host.reduce IntOp.andi x v reducesTo_S4096x5120_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1024x1024 .f32) (main_arg1 : FVec F S1024x4096 .f32) (main_arg2 : FVec F S1024x4096 .f32) (main_arg3 : FVec F S4096x5120 .f32) (main_arg4 : FVec F S4096 .f32) (main_arg5 : FVec F S4096x5120 .f32) (main_arg6 : FVec F S4096 .f32) (main_arg7 : FVec F S4096x5120 .f32) (main_arg8 : FVec F S4096 .f32) (main_arg9 : FVec F S4096x5120 .f32) (main_arg10 : FVec F S4096 .f32) (main_arg11 : FVec F S4096x4096 .f32) (main_arg12 : FVec F S4096 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x5120 .f32 := Host.absf main_arg3
  let main_cst_4 : FVec F S_ .f32 := constant S_ .f32 0x7F800000#32
  let main_v15 : FVec F S4096x5120 .f32 := broadcastInDim S4096x5120 ![] bcast_S_S4096x5120 main_cst_4
  let main_v16 : IVec S4096x5120 1 := cmpf .olt main_v14 main_v15
  fn_part1 (F := F) main_arg4 main_arg5 main_arg6 main_arg7 main_arg8 main_arg9 main_arg10 main_arg11 main_arg12 main_v13 main_v16
-- ==== Kernel.lean ====
abbrev S1024x1024 : Shape := ⟨2, ![1024, 1024]⟩
abbrev S1024x4096 : Shape := ⟨2, ![1024, 4096]⟩
abbrev S4096x5120 : Shape := ⟨2, ![4096, 5120]⟩
abbrev S4096 : Shape := ⟨1, ![4096]⟩
abbrev S4096x4096 : Shape := ⟨2, ![4096, 4096]⟩
abbrev S1024x5120 : Shape := ⟨2, ![1024, 5120]⟩
abbrev S1x4096 : Shape := ⟨2, ![1, 4096]⟩
abbrev S256x1024 : Shape := ⟨2, ![256, 1024]⟩
abbrev S512x1024 : Shape := ⟨2, ![512, 1024]⟩
abbrev S1x512 : Shape := ⟨2, ![1, 512]⟩
abbrev S256x512 : Shape := ⟨2, ![256, 512]⟩
abbrev S128x512 : Shape := ⟨2, ![128, 512]⟩
abbrev S4096x512 : Shape := ⟨2, ![4096, 512]⟩
abbrev S128x4096 : Shape := ⟨2, ![128, 4096]⟩
abbrev S128 : Shape := ⟨1, ![128]⟩
abbrev S128x1 : Shape := ⟨2, ![128, 1]⟩

abbrev nBuf : Space → Nat
  | .hbm => 23
  | .vmem => 38
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S1024x4096, .f32⟩
  | .hbm, ⟨3, _⟩ => ⟨S4096x5120, .f32⟩
  | .hbm, ⟨4, _⟩ => ⟨S4096, .f32⟩
  | .hbm, ⟨5, _⟩ => ⟨S4096x5120, .f32⟩
  | .hbm, ⟨6, _⟩ => ⟨S4096, .f32⟩
  | .hbm, ⟨7, _⟩ => ⟨S4096x5120, .f32⟩
  | .hbm, ⟨8, _⟩ => ⟨S4096, .f32⟩
  | .hbm, ⟨9, _⟩ => ⟨S4096x5120, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S1024x5120, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S1024x4096, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S128x512, .f32⟩
  | .local _ .vmem, ⟨31, _⟩ => ⟨S128x512, .f32⟩
  | .local _ .vmem, ⟨32, _⟩ => ⟨S4096x512, .f32⟩
  | .local _ .vmem, ⟨33, _⟩ => ⟨S4096x512, .f32⟩
  | .local _ .vmem, ⟨34, _⟩ => ⟨S1x4096, .f32⟩
  | .local _ .vmem, ⟨35, _⟩ => ⟨S128x4096, .f32⟩
  | .local _ .vmem, ⟨36, _⟩ => ⟨S128x4096, .f32⟩
  | .local _ .vmem, ⟨37, _⟩ => ⟨S128x4096, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg3_0 : Ref sig .tc := ⟨.vmem, 35, rfl⟩
abbrev cc1_stg3_1 : Ref sig .tc := ⟨.vmem, 36, rfl⟩
abbrev cc1_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem3_0 : DmaSem sig := 31
abbrev cc1_sem3_1 : DmaSem sig := 32

abbrev nD : Nat := 1
abbrev τ : Topo := Topo.v7x

variable {F : FTy → Type} [FloatOps F]

abbrev grid0 : Pipeline.Grid := ⟨3, ![4, 8, 5], ![false, false, false]⟩

def k0_cond2 (i : grid0.Coords) : BitVec 1 :=
  let arg2 : BitVec 32 := BitVec.ofNat 32 (i 2).val
  let c4_i32 : BitVec 32 := 4#32
  let v38 : BitVec 1 := Scalar.cmpi .eq arg2 c4_i32
  let v39 : BitVec 32 := Scalar.extui v38
  let c0_i32_29 : BitVec 32 := 0#32
  let v40 : BitVec 1 := Scalar.cmpi .ne v39 c0_i32_29
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S1024x1024_S1024x4096_S1024x5120_d1 : Shape.Concatenates [S1024x1024, S1024x4096] S1024x5120 1
  shapeCasts_S4096_S1x4096 : S4096.ShapeCasts S1x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S4096x512_S4096x512_0_0 : ∀ a, (![0, 0] : Fin 2 → Nat) a + S4096x512.size a ≤ S4096x512.size a
  h_S4096x512 : 0 < S4096x512.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  reduces_S128x4096_S128 : S128x4096.Reduces [1] S128
  shapeCasts_S128_S128x1 : S128.ShapeCasts S128x1
  broadcasts_S128x1_S128x4096 : S128x1.Broadcasts S128x4096
  dot_S256x1024_S512x1024_S256x512_1_1_0_0_n_n_wf : DotDims.WF S256x1024 S512x1024 S256x512 [1] [1] [0] [0] [] []
  dot_S128x512_S4096x512_S128x4096_1_1_0_0_n_n_wf : DotDims.WF S128x512 S4096x512 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x5120.size a
  hwx0_0 : ∀ i : grid0.Coords, EltTy.bits .f32 = 32 ∨ (Rect.block (s := S1024x5120) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x5120.size a
  hwx0_1 : ∀ i : grid0.Coords, EltTy.bits .f32 = 32 ∨ (Rect.block (s := S4096x5120) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x5120.size a
  hwx0_2 : ∀ i : grid0.Coords, EltTy.bits .f32 = 32 ∨ (Rect.block (s := S4096x5120) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x5120.size a
  hwx0_3 : ∀ i : grid0.Coords, EltTy.bits .f32 = 32 ∨ (Rect.block (s := S4096x5120) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x5120.size a
  hwx0_4 : ∀ i : grid0.Coords, EltTy.bits .f32 = 32 ∨ (Rect.block (s := S4096x5120) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x4096.size a
  hwx0_8 : ∀ i : grid0.Coords, EltTy.bits .f32 = 32 ∨ (Rect.block (s := S1x4096) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S1024x4096.size a
  hwx0_9 : ∀ i : grid0.Coords, EltTy.bits .f32 = 32 ∨ (Rect.block (s := S1024x4096) S256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S1024x4096.size a
  hwx0_10 : ∀ i : grid0.Coords, EltTy.bits .f32 = 32 ∨ (Rect.block (s := S1024x4096) S256x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S1024x4096.size a
  hwx0_11 : ∀ i : grid0.Coords, EltTy.bits .f32 = 32 ∨ (Rect.block (s := S1024x4096) S256x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x512.size a ≤ S1024x4096.size a
  hwx0_12 : ∀ i : grid0.Coords, EltTy.bits .f32 = 32 ∨ (Rect.block (s := S1024x4096) S256x512.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S1024x4096.size a
  hwx1_0 : ∀ i : grid1.Coords, EltTy.bits .f32 = 32 ∨ (Rect.block (s := S1024x4096) S128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x4096.size a
  hwx1_1 : ∀ i : grid1.Coords, EltTy.bits .f32 = 32 ∨ (Rect.block (s := S4096x4096) S4096x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S1024x4096.size a
  hwx1_3 : ∀ i : grid1.Coords, EltTy.bits .f32 = 32 ∨ (Rect.block (s := S1024x4096) S128x4096.size (cc1_transform_3 i) (hinb1_3 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S256x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S256x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S256x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_2) S256x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | 12 => fun i => !(k0_cond2 i == 1#1) | ⟨_ + 13, h⟩ => absurd h (Nat.not_lt.2 (Nat.le_add_left _ _))

abbrev win1_0 : Pipeline.Window sig grid1 :=
  Pipeline.Window.ofSpec (Memref.whole main_v6_1) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1024x1024 : Shape := ⟨2, ![1024, 1024]⟩
abbrev S1024x4096 : Shape := ⟨2, ![1024, 4096]⟩
abbrev S4096x5120 : Shape := ⟨2, ![4096, 5120]⟩
abbrev S4096 : Shape := ⟨1, ![4096]⟩
abbrev S4096x4096 : Shape := ⟨2, ![4096, 4096]⟩
abbrev S1024x5120 : Shape := ⟨2, ![1024, 5120]⟩
abbrev S16384x5120 : Shape := ⟨2, ![16384, 5120]⟩
abbrev S16384 : Shape := ⟨1, ![16384]⟩
abbrev S5120x16384 : Shape := ⟨2, ![5120, 16384]⟩
abbrev S1024x16384 : Shape := ⟨2, ![1024, 16384]⟩
abbrev S1x16384 : Shape := ⟨2, ![1, 16384]⟩
abbrev S_ : Shape := ⟨0, ![]⟩
abbrev S1x4096 : Shape := ⟨2, ![1, 4096]⟩
abbrev S1024 : Shape := ⟨1, ![1024]⟩
abbrev S1024x1 : Shape := ⟨2, ![1024, 1]⟩

abbrev nBuf : Space → Nat
  | .hbm => 75
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S1024x4096, .f32⟩
  | .hbm, ⟨3, _⟩ => ⟨S4096x5120, .f32⟩
  | .hbm, ⟨4, _⟩ => ⟨S4096, .f32⟩
  | .hbm, ⟨5, _⟩ => ⟨S4096x5120, .f32⟩
  | .hbm, ⟨6, _⟩ => ⟨S4096, .f32⟩
  | .hbm, ⟨7, _⟩ => ⟨S4096x5120, .f32⟩
  | .hbm, ⟨8, _⟩ => ⟨S4096, .f32⟩
  | .hbm, ⟨9, _⟩ => ⟨S4096x5120, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S1024x5120, .f32⟩
  | .hbm, ⟨14, _⟩ => ⟨S16384x5120, .f32⟩
  | .hbm, ⟨15, _⟩ => ⟨S16384, .f32⟩
  | .hbm, ⟨16, _⟩ => ⟨S5120x16384, .f32⟩
  | .hbm, ⟨17, _⟩ => ⟨S1024x16384, .f32⟩
  | .hbm, ⟨18, _⟩ => ⟨S1x16384, .f32⟩
  | .hbm, ⟨19, _⟩ => ⟨S1024x16384, .f32⟩
  | .hbm, ⟨20, _⟩ => ⟨S1024x16384, .f32⟩
  | .hbm, ⟨21, _⟩ => ⟨S1024x4096, .f32⟩
  | .hbm, ⟨22, _⟩ => ⟨S1024x4096, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S_, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S1024x4096, .f32⟩
  | .hbm, ⟨35, _⟩ => ⟨S_, .f32⟩
  | .hbm, ⟨36, _⟩ => ⟨S1024x4096, .f32⟩
  | .hbm, ⟨37, _⟩ => ⟨S1024x4096, .f32⟩
  | .hbm, ⟨38, _⟩ => ⟨S_, .f32⟩
  | .hbm, ⟨39, _⟩ => ⟨S1024x4096, .f32⟩
  | .hbm, ⟨40, _⟩ => ⟨S1024x4096, .f32⟩
  | .hbm, ⟨41, _⟩ => ⟨S1024x4096, .f32⟩
  | .hbm, ⟨42, _⟩ => ⟨S1024x4096, .f32⟩
  | .hbm, ⟨43, _⟩ => ⟨S1024x4096, .f32⟩
  | .hbm, ⟨44, _⟩ => ⟨S1024x4096, .f32⟩
  | .hbm, ⟨45, _⟩ => ⟨S1024x4096, .f32⟩
  | .hbm, ⟨46, _⟩ => ⟨S1024x4096, .f32⟩
  | .hbm, ⟨47, _⟩ => ⟨S_, .f32⟩
  | .hbm, ⟨48, _⟩ => ⟨S1024x4096, .f32⟩
  | .hbm, ⟨49, _⟩ => ⟨S1024x4096, .f32⟩
  | .hbm, ⟨50, _⟩ => ⟨S_, .f32⟩
  | .hbm, ⟨51, _⟩ => ⟨S1024x4096, .f32⟩
  | .hbm, ⟨52, _⟩ => ⟨S1024x4096, .f32⟩
  | .hbm, ⟨53, _⟩ => ⟨S1024x4096, .f32⟩
  | .hbm, ⟨54, _⟩ => ⟨S1024x4096, .f32⟩
  | .hbm, ⟨55, _⟩ => ⟨S4096x4096, .f32⟩
  | .hbm, ⟨56, _⟩ => ⟨S1024x4096, .f32⟩
  | .hbm, ⟨57, _⟩ => ⟨S1x4096, .f32⟩
  | .hbm, ⟨58, _⟩ => ⟨S1024x4096, .f32⟩
  | .hbm, ⟨59, _⟩ => ⟨S1024x4096, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024x1, .f32⟩
  | .hbm, ⟨66, _⟩ => ⟨S1024x4096, .f32⟩
  | .hbm, ⟨67, _⟩ => ⟨S1024x4096, .f32⟩
  | .hbm, ⟨68, _⟩ => ⟨S1024x4096, .f32⟩
  | .hbm, ⟨69, _⟩ => ⟨S_, .f32⟩
  | .hbm, ⟨70, _⟩ => ⟨S1024, .f32⟩
  | .hbm, ⟨71, _⟩ => ⟨S1024x1, .f32⟩
  | .hbm, ⟨72, _⟩ => ⟨S1024x1, .f32⟩
  | .hbm, ⟨73, _⟩ => ⟨S1024x4096, .f32⟩
  | .hbm, ⟨74, _⟩ => ⟨S1024x4096, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_cst : Ref sig .tc := ⟨.hbm, 60, rfl⟩
abbrev main_call0_v0 : Ref sig .tc := ⟨.hbm, 61, rfl⟩
abbrev main_call0_cst_0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_cst_1 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_v41 : Ref sig .tc := ⟨.hbm, 74, rfl⟩

abbrev nD : Nat := 1
abbrev τ : Topo := Topo.v7x

variable {F : FTy → Type} [FloatOps F]

class Facts₀ : Prop where
  concatenates_S1024x1024_S1024x4096_S1024x5120_d1 : Shape.Concatenates [S1024x1024, S1024x4096] S1024x5120 1
  concatenates_S4096x5120_S4096x5120_S4096x5120_S4096x5120_S16384x5120_d0 : Shape.Concatenates [S4096x5120, S4096x5120, S4096x5120, S4096x5120] S16384x5120 0
  concatenates_S4096_S4096_S4096_S4096_S16384_d0 : Shape.Concatenates [S4096, S4096, S4096, S4096] S16384 0
  transposes_S16384x5120_S5120x16384_1_0 : S16384x5120.Transposes [1, 0] S5120x16384
  bcast_S16384_S1x16384_1 : S16384.BroadcastsInDim S1x16384 (![1] : Fin 1 → Fin S1x16384.rank)
  bcast_S1x16384_S1024x16384_0_1 : S1x16384.BroadcastsInDim S1024x16384 (![0, 1] : Fin 2 → Fin S1024x16384.rank)
  slices_S1024x16384_S1024x4096_0_0 : S1024x16384.Slices ![0, 0] S1024x4096
  slices_S1024x16384_S1024x4096_0_4096 : S1024x16384.Slices ![0, 4096] S1024x4096
  slices_S1024x16384_S1024x4096_0_8192 : S1024x16384.Slices ![0, 8192] S1024x4096
  slices_S1024x16384_S1024x4096_0_12288 : S1024x16384.Slices ![0, 12288] S1024x4096
  bcast_S_S1024x4096 : S_.BroadcastsInDim S1024x4096 (![] : Fin 0 → Fin S1024x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  reducesTo_S1024x4096_S1024_d1 : S1024x4096.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)
  dot_S1024x5120_S5120x16384_S1024x16384_1_0_0_1_n_n_wf : DotDims.WF S1024x5120 S5120x16384 S1024x16384 [1] [0] [0] [1] [] []
  dot_S1024x4096_S4096x4096_S1024x4096_1_0_0_1_n_n_wf : DotDims.WF S1024x4096 S4096x4096 S1024x4096 [1] [0] [0] [1] [] []

variable [Facts₀]

def dot_S1024x5120_S5120x16384_S1024x16384_1_0_0_1_n_n : DotDims S1024x5120 S5120x16384 S1024x16384 where
  lhsContracting := [1]
  rhsContracting := [0]
  lhsNonContracting := [0]
  rhsNonContracting := [1]
  lhsBatch := []
  rhsBatch := []
  wf := dot_S1024x5120_S5120x16384_S1024x16384_1_0_0_1_n_n_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.K.R0Base.lean ====
import proofs.«145808_j60842506715793_1_alg».proof.Proof.Gen.Kernel.Launch
import proofs.«145808_j60842506715793_1_alg».proof.Proof.Gen.Kernel.Skeleton
import proofs.«145808_j60842506715793_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The gate kernel's region: what its three cases share

The first pallas_call walks a 4 x 8 x 5 grid. The last coordinate k = t % 5 is the reduction step of the four
gate products: at k = 0 the four accumulators are reset to zero, at every k each gains one partial product,
and at k = 4 the gates are formed and the three results stored. Everything below is stated at the buffer
contents V the region is entered with.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is not
    fetched its block index has not moved since the point before. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it is not
    fetched its block index has not moved since the point before. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not: where it is not
    fetched its block index has not moved since the point before. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not: where it is not
    fetched its block index has not moved since the point before. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not: where it is not
    fetched its block index has not moved since the point before. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The two conditions on the reduction step -/

/-- "This is the first reduction step": the test guarding the reset of the accumulators, from the grid coordinates. -/
abbrev cond0_0 (i : grid0.Coords) : Prop := (Scalar.cmpi .ne (Scalar.extui (Scalar.cmpi .eq (BitVec.ofNat 32 (i 2).val) 0#32)) 0#32) = 1#1
/-- It holds exactly where t % 5 = 0. -/
theorem hcond0_0 : ∀ t : Fin cfg0.N, cond0_0 (grid0.coords t) ↔ t.val % 5 = 0 :=
  (by decide +kernel : ∀ t : Fin grid0.N, cond0_0 (grid0.coords t) ↔ t.val % 5 = 0)

/-- "This is the last reduction step": the test guarding the gates and the three stores. -/
abbrev cond0_1 (i : grid0.Coords) : Prop := k0_cond2 i = 1#1
/-- It holds exactly where t % 5 = 4. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

/-- Window 0 is an input: never idle. -/
theorem liveAt0_0 : ∀ t : Fin cfg0.N, cfg0.idle 0 (grid0.coords t) = false := by decide +kernel
/-- Window 1 is an input: never idle. -/
theorem liveAt0_1 : ∀ t : Fin cfg0.N, cfg0.idle 1 (grid0.coords t) = false := by decide +kernel
/-- Window 2 is an input: never idle. -/
theorem liveAt0_2 : ∀ t : Fin cfg0.N, cfg0.idle 2 (grid0.coords t) = false := by decide +kernel
/-- Window 3 is an input: never idle. -/
theorem liveAt0_3 : ∀ t : Fin cfg0.N, cfg0.idle 3 (grid0.coords t) = false := by decide +kernel
/-- Window 4 is an input: never idle. -/
theorem liveAt0_4 : ∀ t : Fin cfg0.N, cfg0.idle 4 (grid0.coords t) = false := by decide +kernel
/-- Window 5 is an input: never idle. -/
theorem liveAt0_5 : ∀ t : Fin cfg0.N, cfg0.idle 5 (grid0.coords t) = false := by decide +kernel
/-- Window 6 is an input: never idle. -/
theorem liveAt0_6 : ∀ t : Fin cfg0.N, cfg0.idle 6 (grid0.coords t) = false := by decide +kernel
/-- Window 7 is an input: never idle. -/
theorem liveAt0_7 : ∀ t : Fin cfg0.N, cfg0.idle 7 (grid0.coords t) = false := by decide +kernel
/-- Window 8 is an input: never idle. -/
theorem liveAt0_8 : ∀ t : Fin cfg0.N, cfg0.idle 8 (grid0.coords t) = false := by decide +kernel
/-- Window 9 is an input: never idle. -/
theorem liveAt0_9 : ∀ t : Fin cfg0.N, cfg0.idle 9 (grid0.coords t) = false := by decide +kernel
/-- At a first step that is not a last one, result window 10 is idle: nothing is stored into it, -/
theorem idleAt0_10_A : ∀ t : Fin cfg0.N, cond0_0 (grid0.coords t) → ¬cond0_1 (grid0.coords t) → cfg0.idle 10 (grid0.coords t) = true := by decide +kernel
/-- and its block is not written back there. -/
theorem noFlush0_10_A : ∀ t : Fin cfg0.N, cond0_0 (grid0.coords t) → ¬cond0_1 (grid0.coords t) → (cfg0.win 10).flush t = false := by decide +kernel
/-- At a middle step result window 10 is idle, -/
theorem idleAt0_10_B : ∀ t : Fin cfg0.N, ¬cond0_0 (grid0.coords t) → ¬cond0_1 (grid0.coords t) → cfg0.idle 10 (grid0.coords t) = true := by decide +kernel
/-- and not written back. -/
theorem noFlush0_10_B : ∀ t : Fin cfg0.N, ¬cond0_0 (grid0.coords t) → ¬cond0_1 (grid0.coords t) → (cfg0.win 10).flush t = false := by decide +kernel
/-- At a last step result window 10 is live: the step stores into it. -/
theorem liveAt0_10_C : ∀ t : Fin cfg0.N, ¬cond0_0 (grid0.coords t) → cond0_1 (grid0.coords t) → cfg0.idle 10 (grid0.coords t) = false := by decide +kernel
/-- At a first step that is not a last one, result window 11 is idle: nothing is stored into it, -/
theorem idleAt0_11_A : ∀ t : Fin cfg0.N, cond0_0 (grid0.coords t) → ¬cond0_1 (grid0.coords t) → cfg0.idle 11 (grid0.coords t) = true := by decide +kernel
/-- and its block is not written back there. -/
theorem noFlush0_11_A : ∀ t : Fin cfg0.N, cond0_0 (grid0.coords t) → ¬cond0_1 (grid0.coords t) → (cfg0.win 11).flush t = false := by decide +kernel
/-- At a middle step result window 11 is idle, -/
theorem idleAt0_11_B : ∀ t : Fin cfg0.N, ¬cond0_0 (grid0.coords t) → ¬cond0_1 (grid0.coords t) → cfg0.idle 11 (grid0.coords t) = true := by decide +kernel
/-- and not written back. -/
theorem noFlush0_11_B : ∀ t : Fin cfg0.N, ¬cond0_0 (grid0.coords t) → ¬cond0_1 (grid0.coords t) → (cfg0.win 11).flush t = false := by decide +kernel
/-- At a last step result window 11 is live: the step stores into it. -/
theorem liveAt0_11_C : ∀ t : Fin cfg0.N, ¬cond0_0 (grid0.coords t) → cond0_1 (grid0.coords t) → cfg0.idle 11 (grid0.coords t) = false := by decide +kernel
/-- At a first step that is not a last one, result window 12 is idle: nothing is stored into it, -/
theorem idleAt0_12_A : ∀ t : Fin cfg0.N, cond0_0 (grid0.coords t) → ¬cond0_1 (grid0.coords t) → cfg0.idle 12 (grid0.coords t) = true := by decide +kernel
/-- and its block is not written back there. -/
theorem noFlush0_12_A : ∀ t : Fin cfg0.N, cond0_0 (grid0.coords t) → ¬cond0_1 (grid0.coords t) → (cfg0.win 12).flush t = false := by decide +kernel
/-- At a middle step result window 12 is idle, -/
theorem idleAt0_12_B : ∀ t : Fin cfg0.N, ¬cond0_0 (grid0.coords t) → ¬cond0_1 (grid0.coords t) → cfg0.idle 12 (grid0.coords t) = true := by decide +kernel
/-- and not written back. -/
theorem noFlush0_12_B : ∀ t : Fin cfg0.N, ¬cond0_0 (grid0.coords t) → ¬cond0_1 (grid0.coords t) → (cfg0.win 12).flush t = false := by decide +kernel
/-- At a last step result window 12 is live: the step stores into it. -/
theorem liveAt0_12_C : ∀ t : Fin cfg0.N, ¬cond0_0 (grid0.coords t) → cond0_1 (grid0.coords t) → cfg0.idle 12 (grid0.coords t) = false := by decide +kernel

/-! ## The memrefs the body is called with -/

/-- One staging buffer of each result window, through which its contents are stated (which one does not matter). -/
abbrev VO0_10 : View sig .tc .vmem S256x512 .f32 := (Memref.whole cc0_stg10_0 : Memref sig .tc .vmem S256x512 .f32).view
abbrev VO0_11 : View sig .tc .vmem S256x512 .f32 := (Memref.whole cc0_stg11_0 : Memref sig .tc .vmem S256x512 .f32).view
abbrev VO0_12 : View sig .tc .vmem S256x512 .f32 := (Memref.whole cc0_stg12_0 : Memref sig .tc .vmem S256x512 .f32).view

/-- Window 0's current staging memref at point t, and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
/-- Window 1's current staging memref at point t, and its wholeness. -/
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
/-- Window 2's current staging memref at point t, and its wholeness. -/
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
/-- Window 3's current staging memref at point t, and its wholeness. -/
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
/-- Window 4's current staging memref at point t, and its wholeness. -/
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
/-- Window 5's current staging memref at point t, and its wholeness. -/
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
/-- Window 6's current staging memref at point t, and its wholeness. -/
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
/-- Window 7's current staging memref at point t, and its wholeness. -/
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
/-- Window 8's current staging memref at point t, and its wholeness. -/
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
/-- Window 9's current staging memref at point t, and its wholeness. -/
abbrev ms0_9 (t : Fin cfg0.N) : Memref sig .tc .vmem S256x512 .f32 := win0_9.stage (cfg0.slots t 9)
abbrev hs0_9 (t : Fin cfg0.N) : (ms0_9 t).IsWhole := hstage0_9 ((cfg0.slots t 9).cast nbuf0_9)
/-- Window 10's current staging memref at point t, and its wholeness. -/
abbrev ms0_10 (t : Fin cfg0.N) : Memref sig .tc .vmem S256x512 .f32 := win0_10.stage (cfg0.slots t 10)
abbrev hs0_10 (t : Fin cfg0.N) : (ms0_10 t).IsWhole := hstage0_10 ((cfg0.slots t 10).cast nbuf0_10)
/-- Window 11's current staging memref at point t, and its wholeness. -/
abbrev ms0_11 (t : Fin cfg0.N) : Memref sig .tc .vmem S256x512 .f32 := win0_11.stage (cfg0.slots t 11)
abbrev hs0_11 (t : Fin cfg0.N) : (ms0_11 t).IsWhole := hstage0_11 ((cfg0.slots t 11).cast nbuf0_11)
/-- Window 12's current staging memref at point t, and its wholeness. -/
abbrev ms0_12 (t : Fin cfg0.N) : Memref sig .tc .vmem S256x512 .f32 := win0_12.stage (cfg0.slots t 12)
abbrev hs0_12 (t : Fin cfg0.N) : (ms0_12 t).IsWhole := hstage0_12 ((cfg0.slots t 12).cast nbuf0_12)

/-- The four accumulators: whole scoped buffers of the kernel's own, passed beside the windows. -/
abbrev scM0_0 : Memref sig .tc .vmem S256x512 .f32 := Memref.whole cc0_scratch0
abbrev scM0_1 : Memref sig .tc .vmem S256x512 .f32 := Memref.whole cc0_scratch1
abbrev scM0_2 : Memref sig .tc .vmem S256x512 .f32 := Memref.whole cc0_scratch2
abbrev scM0_3 : Memref sig .tc .vmem S256x512 .f32 := Memref.whole cc0_scratch3
/-- The same as views: what an accumulator holds is stated through its view. -/
abbrev VS0_0 : View sig .tc .vmem S256x512 .f32 := scM0_0.view
abbrev VS0_1 : View sig .tc .vmem S256x512 .f32 := scM0_1.view
abbrev VS0_2 : View sig .tc .vmem S256x512 .f32 := scM0_2.view
abbrev VS0_3 : View sig .tc .vmem S256x512 .f32 := scM0_3.view

/-- The core's scoped buffers that belong to neither this call's windows nor its accumulators (the second call's
    staging buffers and accumulator, among others), each at some contents: this region never opens them. -/
abbrev otherScoped0 (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3]

/-- The scoped rest of this call split at its four accumulators. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))
          ∗ otherScoped0 c) :=
  Pipeline.scopedRest_split_of_list spec0 c [cc0_scratch0, cc0_scratch1, cc0_scratch2, cc0_scratch3] (by decide) (by decide)

/-- The region's invariant with the four accumulators as memrefs owned at some contents: what the body is handed
    at the very first point, and what the region gives back at its end. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ otherScoped0 c) ∗ (∃ r, prngReg c r)) := by
  unfold Pipeline.ΦA; rw [scopedRest0_split]; simp only [scM0_0, scM0_1, scM0_2, scM0_3, owns_whole]; try rfl

end Cert.Kernel.Fr

end
-- ==== Proof.K.R0RunA.lean ====
import proofs.«145808_j60842506715793_1_alg».proof.Proof.K.R0Base

/-!
# The gate kernel's body at a first reduction step
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST REDUCTION STEP (k = 0, not the last). On whole staging memrefs, the ten inputs at their contents, the
    three result buffers at contents handed back untouched (nothing is stored into them), the four accumulators at
    anything (each is overwritten with zeros before it is read for the sum), the body runs to the continuation
    holding the inputs as they were and each accumulator with its stores written: the zero fill, then zero plus
    this step's partial product. The stores are found by running the body, and are the witness. -/
noncomputable def kernelRun0_A (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) :
    Σ' (LS0 : List (View.Piece (Elt F) S256x512 .f32)) (LS1 : List (View.Piece (Elt F) S256x512 .f32)) (LS2 : List (View.Piece (Elt F) S256x512 .f32)), { LS3 : List (View.Piece (Elt F) S256x512 .f32) //
      ∀ (xi10 xi11 xi12 : Vec F S256x512 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare xi10
            ∗ owns (c : Thread nD τ) arg14 fullShare xi11
            ∗ owns (c : Thread nD τ) arg15 fullShare xi12
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (iprop(owns (c : Thread nD τ) arg3 fullShare x0
              ∗ owns (c : Thread nD τ) arg4 fullShare x1
              ∗ owns (c : Thread nD τ) arg5 fullShare x2
              ∗ owns (c : Thread nD τ) arg6 fullShare x3
              ∗ owns (c : Thread nD τ) arg7 fullShare x4
              ∗ owns (c : Thread nD τ) arg8 fullShare x5
              ∗ owns (c : Thread nD τ) arg9 fullShare x6
              ∗ owns (c : Thread nD τ) arg10 fullShare x7
              ∗ owns (c : Thread nD τ) arg11 fullShare x8
              ∗ owns (c : Thread nD τ) arg12 fullShare x9
              ∗ owns (c : Thread nD τ) arg13 fullShare xi10
              ∗ owns (c : Thread nD τ) arg14 fullShare xi11
              ∗ owns (c : Thread nD τ) arg15 fullShare xi12
              ∗ (∃ f, arg16.view.loc (c : Thread nD τ) ↦[arg16.view.set]{fullShare} arg16.view.writes (Elt F) f LS0)
              ∗ (∃ f, arg17.view.loc (c : Thread nD τ) ↦[arg17.view.set]{fullShare} arg17.view.writes (Elt F) f LS1)
              ∗ (∃ f, arg18.view.loc (c : Thread nD τ) ↦[arg18.view.set]{fullShare} arg18.view.writes (Elt F) f LS2)
              ∗ (∃ f, arg19.view.loc (c : Thread nD τ) ↦[arg19.view.set]{fullShare} arg19.view.writes (Elt F) f LS3)) -∗ K ⟨⟩))
          ⊢ wp frame (wpE (defs₀ (F := F)) Variants.none c none) E (cc0__lstm_gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun xi10 xi11 xi12 E K => ?run⟩
  case run =>
    simp only [cc0__lstm_gate_kernel_eq_skeleton]; unfold cc0__lstm_gate_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [HS0]; · iexists _; iexact HS0
    isplitl [HS1]; · iexists _; iexact HS1
    isplitl [HS2]; · iexists _; iexact HS2
    iexists _; iexact HS3

end Cert.Kernel.Fr

end
-- ==== Proof.K.R0RunB.lean ====
import proofs.«145808_j60842506715793_1_alg».proof.Proof.K.R0RunA

/-!
# The gate kernel's body at a middle reduction step
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE REDUCTION STEP (k = 1, 2, 3). On whole staging memrefs, the ten inputs at their contents, the three
    result buffers at contents handed back untouched, the four accumulators at what the step before left, the body
    runs to the continuation holding the inputs as they were and each accumulator with its one store written: what
    it held plus this step's partial product. The stores are found by running the body, and are the witness. -/
noncomputable def kernelRun0_B (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    Σ' (LS0 : List (View.Piece (Elt F) S256x512 .f32)) (LS1 : List (View.Piece (Elt F) S256x512 .f32)) (LS2 : List (View.Piece (Elt F) S256x512 .f32)), { LS3 : List (View.Piece (Elt F) S256x512 .f32) //
      ∀ (xi10 xi11 xi12 : Vec F S256x512 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare xi10
            ∗ owns (c : Thread nD τ) arg14 fullShare xi11
            ∗ owns (c : Thread nD τ) arg15 fullShare xi12
            ∗ owns (c : Thread nD τ) arg16 fullShare xs0
            ∗ owns (c : Thread nD τ) arg17 fullShare xs1
            ∗ owns (c : Thread nD τ) arg18 fullShare xs2
            ∗ owns (c : Thread nD τ) arg19 fullShare xs3
            ∗ (iprop(owns (c : Thread nD τ) arg3 fullShare x0
              ∗ owns (c : Thread nD τ) arg4 fullShare x1
              ∗ owns (c : Thread nD τ) arg5 fullShare x2
              ∗ owns (c : Thread nD τ) arg6 fullShare x3
              ∗ owns (c : Thread nD τ) arg7 fullShare x4
              ∗ owns (c : Thread nD τ) arg8 fullShare x5
              ∗ owns (c : Thread nD τ) arg9 fullShare x6
              ∗ owns (c : Thread nD τ) arg10 fullShare x7
              ∗ owns (c : Thread nD τ) arg11 fullShare x8
              ∗ owns (c : Thread nD τ) arg12 fullShare x9
              ∗ owns (c : Thread nD τ) arg13 fullShare xi10
              ∗ owns (c : Thread nD τ) arg14 fullShare xi11
              ∗ owns (c : Thread nD τ) arg15 fullShare xi12
              ∗ (∃ f, arg16.view.loc (c : Thread nD τ) ↦[arg16.view.set]{fullShare} arg16.view.writes (Elt F) f LS0)
              ∗ (∃ f, arg17.view.loc (c : Thread nD τ) ↦[arg17.view.set]{fullShare} arg17.view.writes (Elt F) f LS1)
              ∗ (∃ f, arg18.view.loc (c : Thread nD τ) ↦[arg18.view.set]{fullShare} arg18.view.writes (Elt F) f LS2)
              ∗ (∃ f, arg19.view.loc (c : Thread nD τ) ↦[arg19.view.set]{fullShare} arg19.view.writes (Elt F) f LS3)) -∗ K ⟨⟩))
          ⊢ wp frame (wpE (defs₀ (F := F)) Variants.none c none) E (cc0__lstm_gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun xi10 xi11 xi12 E K => ?run⟩
  case run =>
    simp only [cc0__lstm_gate_kernel_eq_skeleton]; unfold cc0__lstm_gate_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hfs0; obtain rfl := harg17.eq_unread hfs1; obtain rfl := harg18.eq_unread hfs2; obtain rfl := harg19.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [HS0]; · iexists _; iexact HS0
    isplitl [HS1]; · iexists _; iexact HS1
    isplitl [HS2]; · iexists _; iexact HS2
    iexists _; iexact HS3

end Cert.Kernel.Fr

end
-- ==== Proof.K.R0RunC.lean ====
import proofs.«145808_j60842506715793_1_alg».proof.Proof.K.R0RunB

/-!
# The gate kernel's body at the last reduction step
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST REDUCTION STEP (k = 4). On whole staging memrefs, the ten inputs at their contents, the three result
    buffers at anything, the four accumulators at what the step before left, the body runs to the continuation
    holding the inputs as they were, each accumulator with its last partial product added, and each result buffer
    with its store written: the input gate, the new hidden state and the new cell state formed from the finished
    sums, the biases and the old cell state. The stores are found by running the body, and are the witness. -/
noncomputable def kernelRun0_C (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    Σ' (L10 : List (View.Piece (Elt F) S256x512 .f32)) (L11 : List (View.Piece (Elt F) S256x512 .f32)) (L12 : List (View.Piece (Elt F) S256x512 .f32)) (LS0 : List (View.Piece (Elt F) S256x512 .f32)) (LS1 : List (View.Piece (Elt F) S256x512 .f32)) (LS2 : List (View.Piece (Elt F) S256x512 .f32)), { LS3 : List (View.Piece (Elt F) S256x512 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ (∃ d, owns (c : Thread nD τ) arg13 fullShare d)
            ∗ (∃ d, owns (c : Thread nD τ) arg14 fullShare d)
            ∗ (∃ d, owns (c : Thread nD τ) arg15 fullShare d)
            ∗ owns (c : Thread nD τ) arg16 fullShare xs0
            ∗ owns (c : Thread nD τ) arg17 fullShare xs1
            ∗ owns (c : Thread nD τ) arg18 fullShare xs2
            ∗ owns (c : Thread nD τ) arg19 fullShare xs3
            ∗ (iprop(owns (c : Thread nD τ) arg3 fullShare x0
              ∗ owns (c : Thread nD τ) arg4 fullShare x1
              ∗ owns (c : Thread nD τ) arg5 fullShare x2
              ∗ owns (c : Thread nD τ) arg6 fullShare x3
              ∗ owns (c : Thread nD τ) arg7 fullShare x4
              ∗ owns (c : Thread nD τ) arg8 fullShare x5
              ∗ owns (c : Thread nD τ) arg9 fullShare x6
              ∗ owns (c : Thread nD τ) arg10 fullShare x7
              ∗ owns (c : Thread nD τ) arg11 fullShare x8
              ∗ owns (c : Thread nD τ) arg12 fullShare x9
              ∗ (∃ f, arg13.view.loc (c : Thread nD τ) ↦[arg13.view.set]{fullShare} arg13.view.writes (Elt F) f L10)
              ∗ (∃ f, arg14.view.loc (c : Thread nD τ) ↦[arg14.view.set]{fullShare} arg14.view.writes (Elt F) f L11)
              ∗ (∃ f, arg15.view.loc (c : Thread nD τ) ↦[arg15.view.set]{fullShare} arg15.view.writes (Elt F) f L12)
              ∗ (∃ f, arg16.view.loc (c : Thread nD τ) ↦[arg16.view.set]{fullShare} arg16.view.writes (Elt F) f LS0)
              ∗ (∃ f, arg17.view.loc (c : Thread nD τ) ↦[arg17.view.set]{fullShare} arg17.view.writes (Elt F) f LS1)
              ∗ (∃ f, arg18.view.loc (c : Thread nD τ) ↦[arg18.view.set]{fullShare} arg18.view.writes (Elt F) f LS2)
              ∗ (∃ f, arg19.view.loc (c : Thread nD τ) ↦[arg19.view.set]{fullShare} arg19.view.writes (Elt F) f LS3)) -∗ K ⟨⟩))
          ⊢ wp frame (wpE (defs₀ (F := F)) Variants.none c none) E (cc0__lstm_gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, fun E K => ?run⟩
  case run =>
    simp only [cc0__lstm_gate_kernel_eq_skeleton]; unfold cc0__lstm_gate_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg16.eq_unread hfs0; obtain rfl := harg17.eq_unread hfs1; obtain rfl := harg18.eq_unread hfs2; obtain rfl := harg19.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    iexists _; iexact HS3

end Cert.Kernel.Fr

end
-- ==== Proof.K.R0Data.lean ====
import proofs.«145808_j60842506715793_1_alg».proof.Proof.K.R0RunC

/-!
# The gate kernel's region: the accumulation, the proof data and the body obligation

Per step (first, middle, last) what the stores leave in each accumulator and in each result buffer; the recursion
over the grid's points that carries the accumulators from one point to the next; the pipeline's proof data over it;
and the obligation that the body, at every point, takes the invariant and the windows' buffers from "before" to "after".
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a first reduction step the stores into the forget-gate accumulator cover it: the zero fill and the sum are each the whole block. -/
theorem scover0_A_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (y : S256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).1 S256x512.size (by sl_kernel_rfl) y

/-- What a first reduction step leaves in the forget-gate accumulator: its stores read back (over contents that do not matter, the stores covering the block). -/
def sout0_A_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) : Vec F S256x512 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).1)

/-- At a first reduction step the stores into the input-gate accumulator cover it: the zero fill and the sum are each the whole block. -/
theorem scover0_A_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (y : S256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1 S256x512.size (by sl_kernel_rfl) y

/-- What a first reduction step leaves in the input-gate accumulator: its stores read back (over contents that do not matter, the stores covering the block). -/
def sout0_A_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) : Vec F S256x512 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1)

/-- At a first reduction step the stores into the cell-candidate accumulator cover it: the zero fill and the sum are each the whole block. -/
theorem scover0_A_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (y : S256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.1 S256x512.size (by sl_kernel_rfl) y

/-- What a first reduction step leaves in the cell-candidate accumulator: its stores read back (over contents that do not matter, the stores covering the block). -/
def sout0_A_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) : Vec F S256x512 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.1)

/-- At a first reduction step the stores into the output-gate accumulator cover it: the zero fill and the sum are each the whole block. -/
theorem scover0_A_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (y : S256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.1 S256x512.size (by sl_kernel_rfl) y

/-- What a first reduction step leaves in the output-gate accumulator: its stores read back (over contents that do not matter, the stores covering the block). -/
def sout0_A_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) : Vec F S256x512 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.1)

/-- At a middle reduction step the stores into the forget-gate accumulator cover it: the one store of the sum is the whole block. -/
theorem scover0_B_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1 S256x512.size (by sl_kernel_rfl) y

/-- What a middle reduction step leaves in the forget-gate accumulator: its stores read back (over contents that do not matter, the stores covering the block). -/
def sout0_B_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1)

/-- At a middle reduction step the stores into the input-gate accumulator cover it: the one store of the sum is the whole block. -/
theorem scover0_B_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1 S256x512.size (by sl_kernel_rfl) y

/-- What a middle reduction step leaves in the input-gate accumulator: its stores read back (over contents that do not matter, the stores covering the block). -/
def sout0_B_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1)

/-- At a middle reduction step the stores into the cell-candidate accumulator cover it: the one store of the sum is the whole block. -/
theorem scover0_B_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1 S256x512.size (by sl_kernel_rfl) y

/-- What a middle reduction step leaves in the cell-candidate accumulator: its stores read back (over contents that do not matter, the stores covering the block). -/
def sout0_B_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1)

/-- At a middle reduction step the stores into the output-gate accumulator cover it: the one store of the sum is the whole block. -/
theorem scover0_B_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1 S256x512.size (by sl_kernel_rfl) y

/-- What a middle reduction step leaves in the output-gate accumulator: its stores read back (over contents that do not matter, the stores covering the block). -/
def sout0_B_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_3.read (Elt F) (VS0_3.writes (Elt F) VS0_3.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1)

/-- At the last reduction step the stores into the forget-gate accumulator cover it: the one store of the sum is the whole block. -/
theorem scover0_C_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1 S256x512.size (by sl_kernel_rfl) y

/-- What the last reduction step leaves in the forget-gate accumulator: its stores read back (over contents that do not matter, the stores covering the block). -/
def sout0_C_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1)

/-- At the last reduction step the stores into the input-gate accumulator cover it: the one store of the sum is the whole block. -/
theorem scover0_C_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.1 S256x512.size (by sl_kernel_rfl) y

/-- What the last reduction step leaves in the input-gate accumulator: its stores read back (over contents that do not matter, the stores covering the block). -/
def sout0_C_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.1)

/-- At the last reduction step the stores into the cell-candidate accumulator cover it: the one store of the sum is the whole block. -/
theorem scover0_C_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.1 S256x512.size (by sl_kernel_rfl) y

/-- What the last reduction step leaves in the cell-candidate accumulator: its stores read back (over contents that do not matter, the stores covering the block). -/
def sout0_C_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.1)

/-- At the last reduction step the stores into the output-gate accumulator cover it: the one store of the sum is the whole block. -/
theorem scover0_C_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.2.1 S256x512.size (by sl_kernel_rfl) y

/-- What the last reduction step leaves in the output-gate accumulator: its stores read back (over contents that do not matter, the stores covering the block). -/
def sout0_C_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_3.read (Elt F) (VS0_3.writes (Elt F) VS0_3.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.2.1)

/-- At the last reduction step the one store into the input-gate result's buffer is the whole block. -/
theorem cover0_C_10 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1 S256x512.size (by sl_kernel_rfl) y

/-- What the last reduction step leaves in the input-gate result's buffer: its store read back. -/
def out0_C_10 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VO0_10.read (Elt F) (VO0_10.writes (Elt F) VO0_10.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1)

/-- At the last reduction step the one store into the hidden-state result's buffer is the whole block. -/
theorem cover0_C_11 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1 S256x512.size (by sl_kernel_rfl) y

/-- What the last reduction step leaves in the hidden-state result's buffer: its store read back. -/
def out0_C_11 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VO0_11.read (Elt F) (VO0_11.writes (Elt F) VO0_11.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1)

/-- At the last reduction step the one store into the cell-state result's buffer is the whole block. -/
theorem cover0_C_12 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1 S256x512.size (by sl_kernel_rfl) y

/-- What the last reduction step leaves in the cell-state result's buffer: its store read back. -/
def out0_C_12 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VO0_12.read (Elt F) (VO0_12.writes (Elt F) VO0_12.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1)

/-- What the four accumulators hold: (forget, input, cell, output). -/
abbrev Acc0 (F : FTy → Type) [FloatOps F] : Type := Vec F S256x512 .f32 × Vec F S256x512 .f32 × Vec F S256x512 .f32 × Vec F S256x512 .f32
/-- What the three result buffers and the four accumulators hold: ((input gate, hidden state, cell state), accumulators). -/
abbrev Outs0 (F : FTy → Type) [FloatOps F] : Type := (Vec F S256x512 .f32 × Vec F S256x512 .f32 × Vec F S256x512 .f32) × Acc0 F

/-- A result buffer at a step that stores nothing into it: a placeholder nothing consults (the window is idle there,
    neither written back nor read at the next point). -/
def idleOut0 : Vec F S256x512 .f32 := VO0_10.read (Elt F) VO0_10.junk

section Entry
variable (V : (c : Dev nD) → (b : Ref sig .tc) → Buf (Elt F) ((c : Thread nD τ).loc b))

/-- A first reduction step at point t: the accumulators restart from zero and take the first partial products of the
    point's input blocks; the result buffers are left alone. -/
def stepA0 (c : Dev nD) (t : Fin cfg0.N) (h0 : t.val % 5 = 0) (h1 : ¬t.val % 5 = 4) : Outs0 F :=
  ((idleOut0, idleOut0, idleOut0),
   (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)))

/-- A middle reduction step at point t, over the accumulators p the step before left: each gains this point's partial
    product; the result buffers are left alone. -/
def stepB0 (c : Dev nD) (t : Fin cfg0.N) (h0 : ¬t.val % 5 = 0) (h1 : ¬t.val % 5 = 4) (p : Acc0 F) : Outs0 F :=
  ((idleOut0, idleOut0, idleOut0),
   (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2))

/-- The last reduction step at point t, over the accumulators p the step before left: each gains the last partial
    product, and the three results are formed from the finished sums and stored. -/
def stepC0 (c : Dev nD) (t : Fin cfg0.N) (h0 : ¬t.val % 5 = 0) (h1 : t.val % 5 = 4) (p : Acc0 F) : Outs0 F :=
  ((out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2),
   (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2))

/-- THE ACCUMULATION. What the result buffers and the accumulators hold after the body at position n: the step that
    n % 5 selects, run at that point's memrefs and input blocks, over the accumulators the position before left.
    No position is both a first and a last step. -/
def outsAt0 (c : Dev nD) : (n : ℕ) → n < cfg0.N → Outs0 F
  | 0, hn => stepA0 V c ⟨0, hn⟩ (Nat.zero_mod _) (fun h => by (try dsimp only at h); omega)
  | n + 1, hn =>
    if h0 : (n + 1) % 5 = 0 then
      if h1 : (n + 1) % 5 = 4 then False.elim (by omega)
      else stepA0 V c ⟨n + 1, hn⟩ h0 h1
    else
      if h1 : (n + 1) % 5 = 4 then stepC0 V c ⟨n + 1, hn⟩ h0 h1 (outsAt0 c n (Nat.lt_of_succ_lt hn)).2
      else stepB0 V c ⟨n + 1, hn⟩ h0 h1 (outsAt0 c n (Nat.lt_of_succ_lt hn)).2

/-- At a first reduction step. -/
theorem outsAt0_A (c : Dev nD) (t : Fin cfg0.N) (h0 : t.val % 5 = 0) (h1 : ¬t.val % 5 = 4) :
    outsAt0 V c t.val t.isLt = stepA0 V c t h0 h1 := by
  obtain ⟨n, hn⟩ := t
  cases n with
  | zero => exact rfl
  | succ n => exact (dif_pos h0).trans ((dif_neg h1).trans rfl)

/-- At a middle reduction step: over what the point before left. -/
theorem outsAt0_B (c : Dev nD) (t : Fin cfg0.N) (h0 : ¬t.val % 5 = 0) (h1 : ¬t.val % 5 = 4) :
    outsAt0 V c t.val t.isLt = stepB0 V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- At the last reduction step: over what the point before left. -/
theorem outsAt0_C (c : Dev nD) (t : Fin cfg0.N) (h0 : ¬t.val % 5 = 0) (h1 : t.val % 5 = 4) :
    outsAt0 V c t.val t.isLt = stepC0 V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands over (every scoped buffer
    at anything); afterwards the four accumulators at what the point before left in them, the other scoped buffers
    at anything, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2.1 ∗ owns (c : Thread nD τ) scM0_3 fullShare (outsAt0 V c n hn).2.2.2.2) ∗ otherScoped0 c) ∗ (∃ r, prngReg c r))

theorem PhiS0_zero (c : Dev nD) (n : ℕ) (h : n ≤ cfg0.N) (hz : n = 0) : PhiS0 V c n h = Pipeline.ΦA spec0 c := by
  subst hz; rfl

/-- After point n (before point n + 1): the accumulators at that point's contents. -/
theorem PhiS0_succ (c : Dev nD) (n : ℕ) (hn : n < cfg0.N) :
    PhiS0 V c (n + 1) hn = iprop(iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2.1 ∗ owns (c : Thread nD τ) scM0_3 fullShare (outsAt0 V c n hn).2.2.2.2) ∗ otherScoped0 c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.1 ∗ owns (c : Thread nD τ) scM0_1 fullShare (outsAt0 V c (n - 1) (by omega)).2.2.1 ∗ owns (c : Thread nD τ) scM0_2 fullShare (outsAt0 V c (n - 1) (by omega)).2.2.2.1 ∗ owns (c : Thread nD τ) scM0_3 fullShare (outsAt0 V c (n - 1) (by omega)).2.2.2.2) ∗ otherScoped0 c) ∗ (∃ r, prngReg c r)) := by
  cases n with
  | zero => exact absurd rfl hz
  | succ n => rfl

/-! ## The pipeline's proof data -/

/-- The proof data of the gate kernel's pipeline on core c: the arrays as the region finds them; after the body at
    point t each input's buffer at its block and the results' at the accumulation's components; the invariant the
    one above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1.1
    | ⟨11, _⟩ => (outsAt0 V c t.val t.isLt).1.2.1
    | ⟨12, _⟩ => (outsAt0 V c t.val t.isLt).1.2.2
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1.1 := by dsimp only [dat0]
theorem after0_11 (c : Dev nD) (t : Fin cfg0.N) : (dat0 V c).after 11 t = (outsAt0 V c t.val t.isLt).1.2.1 := by dsimp only [dat0]
theorem after0_12 (c : Dev nD) (t : Fin cfg0.N) : (dat0 V c).after 12 t = (outsAt0 V c t.val t.isLt).1.2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)

set_option maxHeartbeats 16000000 in
/-- The body at any point. The inputs' memrefs hold their blocks; t % 5 says which step the point is, so that
    step's run applies; the invariant hands the body the accumulators at what the point before left (at anything at
    the very first point) and takes them back at this point's contents, the stores covering each block; the other
    scoped buffers, the generator register and the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  have hN : t.val < 160 := lt_of_lt_of_eq t.isLt (show cfg0.N = 160 from N_0)
  by_cases h0 : t.val % 5 = 0
  · by_cases h1 : t.val % 5 = 4
    · exfalso; omega
    · rw [show (dat0 V c).leavesExact 0 t = owns (c : Thread nD τ) (ms0_0 t) fullShare ((dat0 V c).after 0 t) from by
              unfold Dat.leavesExact; rw [liveAt0_0 t], after0_0]
      rw [show (dat0 V c).leavesExact 1 t = owns (c : Thread nD τ) (ms0_1 t) fullShare ((dat0 V c).after 1 t) from by
              unfold Dat.leavesExact; rw [liveAt0_1 t], after0_1]
      rw [show (dat0 V c).leavesExact 2 t = owns (c : Thread nD τ) (ms0_2 t) fullShare ((dat0 V c).after 2 t) from by
              unfold Dat.leavesExact; rw [liveAt0_2 t], after0_2]
      rw [show (dat0 V c).leavesExact 3 t = owns (c : Thread nD τ) (ms0_3 t) fullShare ((dat0 V c).after 3 t) from by
              unfold Dat.leavesExact; rw [liveAt0_3 t], after0_3]
      rw [show (dat0 V c).leavesExact 4 t = owns (c : Thread nD τ) (ms0_4 t) fullShare ((dat0 V c).after 4 t) from by
              unfold Dat.leavesExact; rw [liveAt0_4 t], after0_4]
      rw [show (dat0 V c).leavesExact 5 t = owns (c : Thread nD τ) (ms0_5 t) fullShare ((dat0 V c).after 5 t) from by
              unfold Dat.leavesExact; rw [liveAt0_5 t], after0_5]
      rw [show (dat0 V c).leavesExact 6 t = owns (c : Thread nD τ) (ms0_6 t) fullShare ((dat0 V c).after 6 t) from by
              unfold Dat.leavesExact; rw [liveAt0_6 t], after0_6]
      rw [show (dat0 V c).leavesExact 7 t = owns (c : Thread nD τ) (ms0_7 t) fullShare ((dat0 V c).after 7 t) from by
              unfold Dat.leavesExact; rw [liveAt0_7 t], after0_7]
      rw [show (dat0 V c).leavesExact 8 t = owns (c : Thread nD τ) (ms0_8 t) fullShare ((dat0 V c).after 8 t) from by
              unfold Dat.leavesExact; rw [liveAt0_8 t], after0_8]
      rw [show (dat0 V c).leavesExact 9 t = owns (c : Thread nD τ) (ms0_9 t) fullShare ((dat0 V c).after 9 t) from by
              unfold Dat.leavesExact; rw [liveAt0_9 t], after0_9]
      rw [Dat.leavesExact_idle (dat0 V c) 10 t (idleAt0_10_A t ((hcond0_0 t).mpr h0) (fun h => h1 ((hcond0_1 t).mp h))) (noFlush0_10_A t ((hcond0_0 t).mpr h0) (fun h => h1 ((hcond0_1 t).mp h)))]
      rw [Dat.leavesExact_idle (dat0 V c) 11 t (idleAt0_11_A t ((hcond0_0 t).mpr h0) (fun h => h1 ((hcond0_1 t).mp h))) (noFlush0_11_A t ((hcond0_0 t).mpr h0) (fun h => h1 ((hcond0_1 t).mp h)))]
      rw [Dat.leavesExact_idle (dat0 V c) 12 t (idleAt0_12_A t ((hcond0_0 t).mpr h0) (fun h => h1 ((hcond0_1 t).mp h))) (noFlush0_12_A t ((hcond0_0 t).mpr h0) (fun h => h1 ((hcond0_1 t).mp h)))]
      rw [outsAt0_A V c t h0 h1]
      unfold stepA0 sout0_A_0 sout0_A_1 sout0_A_2 sout0_A_3; (try dsimp only)
      by_cases hz : t.val = 0
      · rw [PhiS0_castSucc V c t, PhiS0_zero V c _ _ hz, PhiA0_eq]
        iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        isplitl [HS3]; · iexact HS3
        iintro ⟨H0, H1, H2, H3, H4, H5, H6, H7, H8, H9, H10, H11, H12, ⟨%es0, HS0⟩, ⟨%es1, HS1⟩, ⟨%es2, HS2⟩, ⟨%es3, HS3⟩⟩
        isplitl [HS0 HS1 HS2 HS3 Hrest Hg]
        · isplitl [HS0 HS1 HS2 HS3 Hrest]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _)
              unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        iexists _; iexact H12
      · rw [PhiS0_castSucc V c t, PhiS0_pos V c _ _ hz]
        iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, H8, H9, H10, H11, H12, ⟨%es0, HS0⟩, ⟨%es1, HS1⟩, ⟨%es2, HS2⟩, ⟨%es3, HS3⟩⟩
        isplitl [HS0 HS1 HS2 HS3 Hrest Hg]
        · isplitl [HS0 HS1 HS2 HS3 Hrest]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _)
              unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        iexists _; iexact H12
  · by_cases h1 : t.val % 5 = 4
    · rw [show (dat0 V c).leavesExact 0 t = owns (c : Thread nD τ) (ms0_0 t) fullShare ((dat0 V c).after 0 t) from by
              unfold Dat.leavesExact; rw [liveAt0_0 t], after0_0]
      rw [show (dat0 V c).leavesExact 1 t = owns (c : Thread nD τ) (ms0_1 t) fullShare ((dat0 V c).after 1 t) from by
              unfold Dat.leavesExact; rw [liveAt0_1 t], after0_1]
      rw [show (dat0 V c).leavesExact 2 t = owns (c : Thread nD τ) (ms0_2 t) fullShare ((dat0 V c).after 2 t) from by
              unfold Dat.leavesExact; rw [liveAt0_2 t], after0_2]
      rw [show (dat0 V c).leavesExact 3 t = owns (c : Thread nD τ) (ms0_3 t) fullShare ((dat0 V c).after 3 t) from by
              unfold Dat.leavesExact; rw [liveAt0_3 t], after0_3]
      rw [show (dat0 V c).leavesExact 4 t = owns (c : Thread nD τ) (ms0_4 t) fullShare ((dat0 V c).after 4 t) from by
              unfold Dat.leavesExact; rw [liveAt0_4 t], after0_4]
      rw [show (dat0 V c).leavesExact 5 t = owns (c : Thread nD τ) (ms0_5 t) fullShare ((dat0 V c).after 5 t) from by
              unfold Dat.leavesExact; rw [liveAt0_5 t], after0_5]
      rw [show (dat0 V c).leavesExact 6 t = owns (c : Thread nD τ) (ms0_6 t) fullShare ((dat0 V c).after 6 t) from by
              unfold Dat.leavesExact; rw [liveAt0_6 t], after0_6]
      rw [show (dat0 V c).leavesExact 7 t = owns (c : Thread nD τ) (ms0_7 t) fullShare ((dat0 V c).after 7 t) from by
              unfold Dat.leavesExact; rw [liveAt0_7 t], after0_7]
      rw [show (dat0 V c).leavesExact 8 t = owns (c : Thread nD τ) (ms0_8 t) fullShare ((dat0 V c).after 8 t) from by
              unfold Dat.leavesExact; rw [liveAt0_8 t], after0_8]
      rw [show (dat0 V c).leavesExact 9 t = owns (c : Thread nD τ) (ms0_9 t) fullShare ((dat0 V c).after 9 t) from by
              unfold Dat.leavesExact; rw [liveAt0_9 t], after0_9]
      rw [show (dat0 V c).leavesExact 10 t = owns (c : Thread nD τ) (ms0_10 t) fullShare ((dat0 V c).after 10 t) from by
              unfold Dat.leavesExact; rw [liveAt0_10_C t (fun h => h0 ((hcond0_0 t).mp h)) ((hcond0_1 t).mpr h1)], after0_10]
      rw [show (dat0 V c).leavesExact 11 t = owns (c : Thread nD τ) (ms0_11 t) fullShare ((dat0 V c).after 11 t) from by
              unfold Dat.leavesExact; rw [liveAt0_11_C t (fun h => h0 ((hcond0_0 t).mp h)) ((hcond0_1 t).mpr h1)], after0_11]
      rw [show (dat0 V c).leavesExact 12 t = owns (c : Thread nD τ) (ms0_12 t) fullShare ((dat0 V c).after 12 t) from by
              unfold Dat.leavesExact; rw [liveAt0_12_C t (fun h => h0 ((hcond0_0 t).mp h)) ((hcond0_1 t).mpr h1)], after0_12]
      rw [outsAt0_C V c t h0 h1]
      unfold stepC0 out0_C_10 out0_C_11 out0_C_12 sout0_C_0 sout0_C_1 sout0_C_2 sout0_C_3; (try dsimp only)
      have hz : t.val ≠ 0 := fun hz => by omega
      rw [PhiS0_castSucc V c t, PhiS0_pos V c _ _ hz]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%e11, H11⟩, ⟨%e12, H12⟩, ⟨%es0, HS0⟩, ⟨%es1, HS1⟩, ⟨%es2, HS2⟩, ⟨%es3, HS3⟩⟩
      isplitl [HS0 HS1 HS2 HS3 Hrest Hg]
      · isplitl [HS0 HS1 HS2 HS3 Hrest]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
              unfold Dat.leavesExact; rw [liveAt0_0 t], after0_0]
      rw [show (dat0 V c).leavesExact 1 t = owns (c : Thread nD τ) (ms0_1 t) fullShare ((dat0 V c).after 1 t) from by
              unfold Dat.leavesExact; rw [liveAt0_1 t], after0_1]
      rw [show (dat0 V c).leavesExact 2 t = owns (c : Thread nD τ) (ms0_2 t) fullShare ((dat0 V c).after 2 t) from by
              unfold Dat.leavesExact; rw [liveAt0_2 t], after0_2]
      rw [show (dat0 V c).leavesExact 3 t = owns (c : Thread nD τ) (ms0_3 t) fullShare ((dat0 V c).after 3 t) from by
              unfold Dat.leavesExact; rw [liveAt0_3 t], after0_3]
      rw [show (dat0 V c).leavesExact 4 t = owns (c : Thread nD τ) (ms0_4 t) fullShare ((dat0 V c).after 4 t) from by
              unfold Dat.leavesExact; rw [liveAt0_4 t], after0_4]
      rw [show (dat0 V c).leavesExact 5 t = owns (c : Thread nD τ) (ms0_5 t) fullShare ((dat0 V c).after 5 t) from by
              unfold Dat.leavesExact; rw [liveAt0_5 t], after0_5]
      rw [show (dat0 V c).leavesExact 6 t = owns (c : Thread nD τ) (ms0_6 t) fullShare ((dat0 V c).after 6 t) from by
              unfold Dat.leavesExact; rw [liveAt0_6 t], after0_6]
      rw [show (dat0 V c).leavesExact 7 t = owns (c : Thread nD τ) (ms0_7 t) fullShare ((dat0 V c).after 7 t) from by
              unfold Dat.leavesExact; rw [liveAt0_7 t], after0_7]
      rw [show (dat0 V c).leavesExact 8 t = owns (c : Thread nD τ) (ms0_8 t) fullShare ((dat0 V c).after 8 t) from by
              unfold Dat.leavesExact; rw [liveAt0_8 t], after0_8]
      rw [show (dat0 V c).leavesExact 9 t = owns (c : Thread nD τ) (ms0_9 t) fullShare ((dat0 V c).after 9 t) from by
              unfold Dat.leavesExact; rw [liveAt0_9 t], after0_9]
      rw [Dat.leavesExact_idle (dat0 V c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [Dat.leavesExact_idle (dat0 V c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      rw [Dat.leavesExact_idle (dat0 V c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
      rw [outsAt0_B V c t h0 h1]
      unfold stepB0 sout0_B_0 sout0_B_1 sout0_B_2 sout0_B_3; (try dsimp only)
      have hz : t.val ≠ 0 := fun hz => by omega
      rw [PhiS0_castSucc V c t, PhiS0_pos V c _ _ hz]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexact HS2
      isplitl [HS3]; · iexact HS3
      iintro ⟨H0, H1, H2, H3, H4, H5, H6, H7, H8, H9, H10, H11, H12, ⟨%es0, HS0⟩, ⟨%es1, HS1⟩, ⟨%es2, HS2⟩, ⟨%es3, HS3⟩⟩
      isplitl [HS0 HS1 HS2 HS3 Hrest Hg]
      · isplitl [HS0 HS1 HS2 HS3 Hrest]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      iexists _; iexact H12

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1, HS2, HS3⟩, Hrest⟩, Hg⟩
  isplitl [HS0 HS1 HS2 HS3 Hrest]
  · isplitl [HS0 HS1 HS2 HS3]
    · isplitl [HS0]; · iexists _; iexact HS0
      isplitl [HS1]; · iexists _; iexact HS1
      isplitl [HS2]; · iexists _; iexact HS2
      iexists _; iexact HS3
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 160 := N_0; omega)

end Entry

end Cert.Kernel.Fr

end
-- ==== Proof.K.R1Base.lean ====
/-
  The output layer (the second kernel region: an 8 x 8 grid, the second coordinate k walking the contraction in
  eight steps of 512) — what its three case runs are stated over.

  The body keeps ONE accumulator (a 128 x 4096 scratch buffer) across the eight points of a row block: zeroed at
  k = 0, a partial product added at every k, and at k = 7 the bias added and the row-wise log-softmax stored into the
  output block. So the points fall in three cases by t % 8: the first (k = 0), the middle ones, the last (k = 7); the
  output window is idle, and not written back, except at the last.
-/
import proofs.«145808_j60842506715793_1_alg».proof.Proof.Gen.Kernel.Launch
import proofs.«145808_j60842506715793_1_alg».proof.Proof.Gen.Kernel.Skeleton
import proofs.«145808_j60842506715793_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered: a parameter, which the run instantiates
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-state window's staging buffer holds its block at every point, for any proof data over the entry
    contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window (one block, fetched once: its index never moves) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, decided over the grid -/

/-- "k = 0", as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7". -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 7 the output window is idle, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At k = 7 it is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S128x4096 .f32 := (Memref.whole cc1_stg3_0 : Memref sig .tc .vmem S128x4096 .f32).view
abbrev ms1_0 (t : Fin cfg1.N) : Memref sig .tc .vmem S128x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x4096 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S128x4096 .f32 := Memref.whole cc1_scratch0
abbrev VS1_0 : View sig .tc .vmem S128x4096 .f32 := scM1_0.view

/-- The region's resting invariant with the accumulator split off as a memref owned at some contents: what the body
    obligation hands the first point's run. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_split]; simp only [scM1_0, owns_whole]; try rfl

end Cert.Kernel.Fr

end
-- ==== Proof.K.R1RunA.lean ====
/-
  The output layer's body at a FIRST point of a row block (k = 0): the accumulator is zeroed, then the first partial
  product is added to it; nothing is stored into the output block.
-/
import proofs.«145808_j60842506715793_1_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output layer's body at a point of this case, on whole staging memrefs: the three inputs at their blocks, the
    output's buffer (idle here) at contents handed back untouched, the accumulator at anything. It runs to the continuation holding
    the inputs as they were and the accumulator with its pieces written; the pieces (last store first) are the witness
    the symbolic run finds. -/
noncomputable def kernelRun1_A (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : cond1_0 i) (hc1 : ¬cond1_1 i)
    (x0 : Vec F S128x512 .f32) (x1 : Vec F S4096x512 .f32) (x2 : Vec F S1x4096 .f32) :
    Σ' (L3 : List (View.Piece (Elt F) S128x4096 .f32)), { LS0 : List (View.Piece (Elt F) S128x4096 .f32) //
      ∀ (xi3 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__output_kernel i arg2 harg2 arg3 harg3 arg4 harg4 arg5 harg5 arg6 harg6) K } := by
  refine ⟨[], ?_, fun xi3 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.R1RunB.lean ====
/-
  The output layer's body at a MIDDLE point of a row block (0 < k < 7): one more partial product is added to the
  accumulator, which the point before left at named contents; nothing is stored into the output block.
-/
import proofs.«145808_j60842506715793_1_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output layer's body at a point of this case, on whole staging memrefs: the three inputs at their blocks, the
    output's buffer (idle here) at contents handed back untouched, the accumulator at what the point before left. It runs to the continuation holding
    the inputs as they were and the accumulator with its pieces written; the pieces (last store first) are the witness
    the symbolic run finds. -/
noncomputable def kernelRun1_B (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : ¬cond1_1 i)
    (x0 : Vec F S128x512 .f32) (x1 : Vec F S4096x512 .f32) (x2 : Vec F S1x4096 .f32) (xs0 : Vec F S128x4096 .f32) :
    Σ' (L3 : List (View.Piece (Elt F) S128x4096 .f32)), { LS0 : List (View.Piece (Elt F) S128x4096 .f32) //
      ∀ (xi3 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__output_kernel i arg2 harg2 arg3 harg3 arg4 harg4 arg5 harg5 arg6 harg6) K } := by
  refine ⟨[], ?_, fun xi3 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.R1RunC.lean ====
/-
  The output layer's body at the LAST point of a row block (k = 7): the last partial product is added to the
  accumulator, then the bias is added to what it holds and the rows' log-softmax is stored into the output block.
-/
import proofs.«145808_j60842506715793_1_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output layer's body at a point of this case, on whole staging memrefs: the three inputs at their blocks, the
    output's buffer at anything, the accumulator at what the point before left. It runs to the continuation holding
    the inputs as they were, the output's buffer with its pieces written and the accumulator with its pieces written; the pieces (last store first) are the witness
    the symbolic run finds. -/
noncomputable def kernelRun1_C (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) :
    Σ' (L3 : List (View.Piece (Elt F) S128x4096 .f32)), { LS0 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__output_kernel i arg2 harg2 arg3 harg3 arg4 harg4 arg5 harg5 arg6 harg6) K } := by
  refine ⟨?_, ?_, fun E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Fr

end
-- ==== Proof.K.R1Data.lean ====
/-
  The output layer as one pipeline: what its accumulator and its output block hold after each point, and the proof
  data and body obligation over that.

  After the point t of a row block the accumulator holds, by recursion on t: at k = 0 what the first case's stores
  leave (zero, then the first partial product added); at every later k what that case's stores leave over what the point
  before left. The output block is stored only at k = 7, from the accumulator; elsewhere its window is idle. The
  region's invariant before a point other than the first is: the accumulator at what the point before left, every other
  scoped buffer and the generator register at something.
-/
import proofs.«145808_j60842506715793_1_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A's stores into the accumulator tile it. -/
theorem scover1_A_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : cond1_0 i) (hc1 : ¬cond1_1 i)
    (x0 : Vec F S128x512 .f32) (x1 : Vec F S4096x512 .f32) (x2 : Vec F S1x4096 .f32) (y : S128x4096.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S128x4096.size (by sl_kernel_rfl) y

/-- What case A leaves in the accumulator: its pieces read back. -/
def sout1_A_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : cond1_0 i) (hc1 : ¬cond1_1 i)
    (x0 : Vec F S128x512 .f32) (x1 : Vec F S4096x512 .f32) (x2 : Vec F S1x4096 .f32) : Vec F S128x4096 .f32 :=
  VS1_0.read (Elt F) (VS1_0.writes (Elt F) VS1_0.junk (kernelRun1_A c i arg2 harg2 arg3 harg3 arg4 harg4 arg5 harg5 arg6 harg6 hc0 hc1 x0 x1 x2).2.1)

/-- Case B's stores into the accumulator tile it. -/
theorem scover1_B_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : ¬cond1_1 i)
    (x0 : Vec F S128x512 .f32) (x1 : Vec F S4096x512 .f32) (x2 : Vec F S1x4096 .f32) (xs0 : Vec F S128x4096 .f32) (y : S128x4096.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S128x4096.size (by sl_kernel_rfl) y

/-- What case B leaves in the accumulator: its pieces read back. -/
def sout1_B_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : ¬cond1_1 i)
    (x0 : Vec F S128x512 .f32) (x1 : Vec F S4096x512 .f32) (x2 : Vec F S1x4096 .f32) (xs0 : Vec F S128x4096 .f32) : Vec F S128x4096 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's stores into the accumulator tile it. -/
theorem scover1_C_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) (y : S128x4096.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x4096.size (by sl_kernel_rfl) y

/-- What case C leaves in the accumulator: its pieces read back. -/
def sout1_C_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) : Vec F S128x4096 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- The last case's one store into the output block tiles it. -/
theorem cover1_C_3 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) (y : S128x4096.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S128x4096.size (by sl_kernel_rfl) y

/-- What the last case leaves in the output block's buffer. -/
def out1_C_3 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) : Vec F S128x4096 .f32 :=
  VO1_3.read (Elt F) (VO1_3.writes (Elt F) VO1_3.junk (kernelRun1_C c i arg2 harg2 arg3 harg3 arg4 harg4 arg5 harg5 arg6 harg6 hc0 hc1 x0 x1 x2 xs0).1)

/-- Where the output window is idle nothing consults its buffer: a placeholder. -/
def idleOut1 : Vec F S128x4096 .f32 := VO1_3.read (Elt F) VO1_3.junk

section
variable (V : (c : Dev nD) → (b : Ref sig .tc) → Buf (Elt F) ((c : Thread nD τ).loc b))

/-! ## The accumulation, point by point -/

/-- What the output block's buffer and the accumulator hold after the body at position n. -/
def outsAt1 (c : Dev nD) : (n : ℕ) → n < cfg1.N → Vec F S128x4096 .f32 × Vec F S128x4096 .f32
  | 0, hn => (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (idleOut1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first point of a row block. -/
theorem outsAt1_A (c : Dev nD) (t : Fin cfg1.N) (h0 : t.val % 8 = 0) (h1 : ¬t.val % 8 = 7) :
    outsAt1 V c t.val t.isLt = (idleOut1, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle point: over what the point before left. -/
theorem outsAt1_B (c : Dev nD) (t : Fin cfg1.N) (h0 : ¬t.val % 8 = 0) (h1 : ¬t.val % 8 = 7) :
    outsAt1 V c t.val t.isLt = (idleOut1, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the first point the resting invariant (the accumulator at anything); afterwards the
    accumulator at what the point before left, the other scoped buffers and the generator register at something. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut spec1 c [cc1_scratch0]) ∗ (∃ r, prngReg c r)) := by
  cases n with
  | zero => exact absurd rfl hz
  | succ n => rfl

/-! ## The proof data -/

/-- The pipeline's proof data on core c: the arrays as the region finds them; after the body each input's buffer at
    its block and the output's at the recursion's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which case the point is in;
    the invariant hands the run the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: the accumulator's contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi1_out V c _ (by rw [Fin.val_last]; have : cfg1.N = 64 := N_1; omega)

end

end Cert.Kernel.Fr

end
-- ==== Proof.K.Launch.lean ====
/-
  The whole run of @main: the host lines (the concatenation [i | h] and five reshapes of the biases), the gate
  region, the output region — as three segments over one thread state, "every unscoped buffer of the core at this
  boundary's contents, the generator register at some state, nothing owed".

  The contents at the four boundaries are a fold from the launch memory: after the host lines; after the gate region
  (its three result arrays at what its write-backs leave, everything else as before); after the output region (its
  result array likewise). The run ends with every unscoped buffer at the last boundary's contents; the frame claim
  reads the thirteen arguments off it (nothing writes one), a value claim the four results.
-/
import proofs.«145808_j60842506715793_1_alg».proof.Proof.K.R0Data
import proofs.«145808_j60842506715793_1_alg».proof.Proof.K.R1Data
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host lines: the gate region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the gate region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the output region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host line and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 9).trans (((dat0 (V1 m ρ) c).arrAt_in 9 rfl _).trans (A_eq0 (V1 m ρ) c 9))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 3).trans (((dat0 (V1 m ρ) c).arrAt_in 3 rfl _).trans (A_eq0 (V1 m ρ) c 3))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg8) := rfl

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := (W2_arr m ρ c 4).trans (((dat0 (V1 m ρ) c).arrAt_in 4 rfl _).trans (A_eq0 (V1 m ρ) c 4))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg9) := rfl

theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg10) := rfl

theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := (W3_arr m ρ c 1).trans (((dat1 (V2 m ρ) c).arrAt_in 1 rfl _).trans (A_eq1 (V2 m ρ) c 1))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg11) := rfl

theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg12) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at its entry contents, left at its exit
    contents. Its windows' arrays are split out of the unscoped buffers and put back at what the write-backs leave; the
    generator register and the scoped buffers go into the region's invariant before the first point and come back after
    the last; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec0 c ∗ ∃ r, prngReg c r) ⊢ (pdats m ρ 0 c).Φ 0 := by
      have h' := hin0 (V1 m ρ) c
      unfold Pipeline.ΦA at h'
      exact h'
    iintro ⟨Hp, -, Hr⟩
    iapply h
    isplitl [Hr]; · iexact Hr
    iexact Hp
  hout c := by
    rw [Pipeline.ownSems0_none]
    have h : (pdats m ρ 0 c).Φ (Fin.last _) ⊢ iprop(Pipeline.scopedRest spec0 c ∗ ∃ r, prngReg c r) := by
      have h' := hout0 (V1 m ρ) c
      unfold Pipeline.ΦA at h'
      exact h'
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents. Its windows' arrays are split out of the unscoped buffers and put back at what the write-backs leave; the
    generator register and the scoped buffers go into the region's invariant before the first point and come back after
    the last; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec1 c ∗ ∃ r, prngReg c r) ⊢ (pdats m ρ 1 c).Φ 0 := by
      have h' := hin1 (V2 m ρ) c
      unfold Pipeline.ΦA at h'
      exact h'
    iintro ⟨Hp, -, Hr⟩
    iapply h
    isplitl [Hr]; · iexact Hr
    iexact Hp
  hout c := by
    rw [Pipeline.ownSems0_none]
    have h : (pdats m ρ 1 c).Φ (Fin.last _) ⊢ iprop(Pipeline.scopedRest spec1 c ∗ ∃ r, prngReg c r) := by
      have h' := hout1 (V2 m ρ) c
      unfold Pipeline.ΦA at h'
      exact h'
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (W0 m ρ) R),
    .region (reg0 m ρ),
    .region (reg1 m ρ) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## The frame claim's post, at any float instance -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c)⟩) (run_all m ρ)

end Cert.Kernel.Fr

end
-- ==== Proof.KI.R0Base.lean ====
import proofs.«145808_j60842506715793_1_alg».proof.Proof.Gen.KernelIdeal.Launch
import proofs.«145808_j60842506715793_1_alg».proof.Proof.Gen.KernelIdeal.Skeleton
import proofs.«145808_j60842506715793_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The gate kernel's region: what its three cases share

The first pallas_call walks a 4 x 8 x 5 grid. The last coordinate k = t % 5 is the reduction step of the four
gate products: at k = 0 the four accumulators are reset to zero, at every k each gains one partial product,
and at k = 4 the gates are formed and the three results stored. Everything below is stated at the buffer
contents V the region is entered with.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is not
    fetched its block index has not moved since the point before. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it is not
    fetched its block index has not moved since the point before. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not: where it is not
    fetched its block index has not moved since the point before. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not: where it is not
    fetched its block index has not moved since the point before. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not: where it is not
    fetched its block index has not moved since the point before. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The two conditions on the reduction step -/

/-- "This is the first reduction step": the test guarding the reset of the accumulators, from the grid coordinates. -/
abbrev cond0_0 (i : grid0.Coords) : Prop := (Scalar.cmpi .ne (Scalar.extui (Scalar.cmpi .eq (BitVec.ofNat 32 (i 2).val) 0#32)) 0#32) = 1#1
/-- It holds exactly where t % 5 = 0. -/
theorem hcond0_0 : ∀ t : Fin cfg0.N, cond0_0 (grid0.coords t) ↔ t.val % 5 = 0 :=
  (by decide +kernel : ∀ t : Fin grid0.N, cond0_0 (grid0.coords t) ↔ t.val % 5 = 0)

/-- "This is the last reduction step": the test guarding the gates and the three stores. -/
abbrev cond0_1 (i : grid0.Coords) : Prop := k0_cond2 i = 1#1
/-- It holds exactly where t % 5 = 4. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

/-- Window 0 is an input: never idle. -/
theorem liveAt0_0 : ∀ t : Fin cfg0.N, cfg0.idle 0 (grid0.coords t) = false := by decide +kernel
/-- Window 1 is an input: never idle. -/
theorem liveAt0_1 : ∀ t : Fin cfg0.N, cfg0.idle 1 (grid0.coords t) = false := by decide +kernel
/-- Window 2 is an input: never idle. -/
theorem liveAt0_2 : ∀ t : Fin cfg0.N, cfg0.idle 2 (grid0.coords t) = false := by decide +kernel
/-- Window 3 is an input: never idle. -/
theorem liveAt0_3 : ∀ t : Fin cfg0.N, cfg0.idle 3 (grid0.coords t) = false := by decide +kernel
/-- Window 4 is an input: never idle. -/
theorem liveAt0_4 : ∀ t : Fin cfg0.N, cfg0.idle 4 (grid0.coords t) = false := by decide +kernel
/-- Window 5 is an input: never idle. -/
theorem liveAt0_5 : ∀ t : Fin cfg0.N, cfg0.idle 5 (grid0.coords t) = false := by decide +kernel
/-- Window 6 is an input: never idle. -/
theorem liveAt0_6 : ∀ t : Fin cfg0.N, cfg0.idle 6 (grid0.coords t) = false := by decide +kernel
/-- Window 7 is an input: never idle. -/
theorem liveAt0_7 : ∀ t : Fin cfg0.N, cfg0.idle 7 (grid0.coords t) = false := by decide +kernel
/-- Window 8 is an input: never idle. -/
theorem liveAt0_8 : ∀ t : Fin cfg0.N, cfg0.idle 8 (grid0.coords t) = false := by decide +kernel
/-- Window 9 is an input: never idle. -/
theorem liveAt0_9 : ∀ t : Fin cfg0.N, cfg0.idle 9 (grid0.coords t) = false := by decide +kernel
/-- At a first step that is not a last one, result window 10 is idle: nothing is stored into it, -/
theorem idleAt0_10_A : ∀ t : Fin cfg0.N, cond0_0 (grid0.coords t) → ¬cond0_1 (grid0.coords t) → cfg0.idle 10 (grid0.coords t) = true := by decide +kernel
/-- and its block is not written back there. -/
theorem noFlush0_10_A : ∀ t : Fin cfg0.N, cond0_0 (grid0.coords t) → ¬cond0_1 (grid0.coords t) → (cfg0.win 10).flush t = false := by decide +kernel
/-- At a middle step result window 10 is idle, -/
theorem idleAt0_10_B : ∀ t : Fin cfg0.N, ¬cond0_0 (grid0.coords t) → ¬cond0_1 (grid0.coords t) → cfg0.idle 10 (grid0.coords t) = true := by decide +kernel
/-- and not written back. -/
theorem noFlush0_10_B : ∀ t : Fin cfg0.N, ¬cond0_0 (grid0.coords t) → ¬cond0_1 (grid0.coords t) → (cfg0.win 10).flush t = false := by decide +kernel
/-- At a last step result window 10 is live: the step stores into it. -/
theorem liveAt0_10_C : ∀ t : Fin cfg0.N, ¬cond0_0 (grid0.coords t) → cond0_1 (grid0.coords t) → cfg0.idle 10 (grid0.coords t) = false := by decide +kernel
/-- At a first step that is not a last one, result window 11 is idle: nothing is stored into it, -/
theorem idleAt0_11_A : ∀ t : Fin cfg0.N, cond0_0 (grid0.coords t) → ¬cond0_1 (grid0.coords t) → cfg0.idle 11 (grid0.coords t) = true := by decide +kernel
/-- and its block is not written back there. -/
theorem noFlush0_11_A : ∀ t : Fin cfg0.N, cond0_0 (grid0.coords t) → ¬cond0_1 (grid0.coords t) → (cfg0.win 11).flush t = false := by decide +kernel
/-- At a middle step result window 11 is idle, -/
theorem idleAt0_11_B : ∀ t : Fin cfg0.N, ¬cond0_0 (grid0.coords t) → ¬cond0_1 (grid0.coords t) → cfg0.idle 11 (grid0.coords t) = true := by decide +kernel
/-- and not written back. -/
theorem noFlush0_11_B : ∀ t : Fin cfg0.N, ¬cond0_0 (grid0.coords t) → ¬cond0_1 (grid0.coords t) → (cfg0.win 11).flush t = false := by decide +kernel
/-- At a last step result window 11 is live: the step stores into it. -/
theorem liveAt0_11_C : ∀ t : Fin cfg0.N, ¬cond0_0 (grid0.coords t) → cond0_1 (grid0.coords t) → cfg0.idle 11 (grid0.coords t) = false := by decide +kernel
/-- At a first step that is not a last one, result window 12 is idle: nothing is stored into it, -/
theorem idleAt0_12_A : ∀ t : Fin cfg0.N, cond0_0 (grid0.coords t) → ¬cond0_1 (grid0.coords t) → cfg0.idle 12 (grid0.coords t) = true := by decide +kernel
/-- and its block is not written back there. -/
theorem noFlush0_12_A : ∀ t : Fin cfg0.N, cond0_0 (grid0.coords t) → ¬cond0_1 (grid0.coords t) → (cfg0.win 12).flush t = false := by decide +kernel
/-- At a middle step result window 12 is idle, -/
theorem idleAt0_12_B : ∀ t : Fin cfg0.N, ¬cond0_0 (grid0.coords t) → ¬cond0_1 (grid0.coords t) → cfg0.idle 12 (grid0.coords t) = true := by decide +kernel
/-- and not written back. -/
theorem noFlush0_12_B : ∀ t : Fin cfg0.N, ¬cond0_0 (grid0.coords t) → ¬cond0_1 (grid0.coords t) → (cfg0.win 12).flush t = false := by decide +kernel
/-- At a last step result window 12 is live: the step stores into it. -/
theorem liveAt0_12_C : ∀ t : Fin cfg0.N, ¬cond0_0 (grid0.coords t) → cond0_1 (grid0.coords t) → cfg0.idle 12 (grid0.coords t) = false := by decide +kernel

/-! ## The memrefs the body is called with -/

/-- One staging buffer of each result window, through which its contents are stated (which one does not matter). -/
abbrev VO0_10 : View sig .tc .vmem S256x512 .f32 := (Memref.whole cc0_stg10_0 : Memref sig .tc .vmem S256x512 .f32).view
abbrev VO0_11 : View sig .tc .vmem S256x512 .f32 := (Memref.whole cc0_stg11_0 : Memref sig .tc .vmem S256x512 .f32).view
abbrev VO0_12 : View sig .tc .vmem S256x512 .f32 := (Memref.whole cc0_stg12_0 : Memref sig .tc .vmem S256x512 .f32).view

/-- Window 0's current staging memref at point t, and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
/-- Window 1's current staging memref at point t, and its wholeness. -/
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
/-- Window 2's current staging memref at point t, and its wholeness. -/
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
/-- Window 3's current staging memref at point t, and its wholeness. -/
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
/-- Window 4's current staging memref at point t, and its wholeness. -/
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
/-- Window 5's current staging memref at point t, and its wholeness. -/
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
/-- Window 6's current staging memref at point t, and its wholeness. -/
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
/-- Window 7's current staging memref at point t, and its wholeness. -/
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
/-- Window 8's current staging memref at point t, and its wholeness. -/
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
/-- Window 9's current staging memref at point t, and its wholeness. -/
abbrev ms0_9 (t : Fin cfg0.N) : Memref sig .tc .vmem S256x512 .f32 := win0_9.stage (cfg0.slots t 9)
abbrev hs0_9 (t : Fin cfg0.N) : (ms0_9 t).IsWhole := hstage0_9 ((cfg0.slots t 9).cast nbuf0_9)
/-- Window 10's current staging memref at point t, and its wholeness. -/
abbrev ms0_10 (t : Fin cfg0.N) : Memref sig .tc .vmem S256x512 .f32 := win0_10.stage (cfg0.slots t 10)
abbrev hs0_10 (t : Fin cfg0.N) : (ms0_10 t).IsWhole := hstage0_10 ((cfg0.slots t 10).cast nbuf0_10)
/-- Window 11's current staging memref at point t, and its wholeness. -/
abbrev ms0_11 (t : Fin cfg0.N) : Memref sig .tc .vmem S256x512 .f32 := win0_11.stage (cfg0.slots t 11)
abbrev hs0_11 (t : Fin cfg0.N) : (ms0_11 t).IsWhole := hstage0_11 ((cfg0.slots t 11).cast nbuf0_11)
/-- Window 12's current staging memref at point t, and its wholeness. -/
abbrev ms0_12 (t : Fin cfg0.N) : Memref sig .tc .vmem S256x512 .f32 := win0_12.stage (cfg0.slots t 12)
abbrev hs0_12 (t : Fin cfg0.N) : (ms0_12 t).IsWhole := hstage0_12 ((cfg0.slots t 12).cast nbuf0_12)

/-- The four accumulators: whole scoped buffers of the kernel's own, passed beside the windows. -/
abbrev scM0_0 : Memref sig .tc .vmem S256x512 .f32 := Memref.whole cc0_scratch0
abbrev scM0_1 : Memref sig .tc .vmem S256x512 .f32 := Memref.whole cc0_scratch1
abbrev scM0_2 : Memref sig .tc .vmem S256x512 .f32 := Memref.whole cc0_scratch2
abbrev scM0_3 : Memref sig .tc .vmem S256x512 .f32 := Memref.whole cc0_scratch3
/-- The same as views: what an accumulator holds is stated through its view. -/
abbrev VS0_0 : View sig .tc .vmem S256x512 .f32 := scM0_0.view
abbrev VS0_1 : View sig .tc .vmem S256x512 .f32 := scM0_1.view
abbrev VS0_2 : View sig .tc .vmem S256x512 .f32 := scM0_2.view
abbrev VS0_3 : View sig .tc .vmem S256x512 .f32 := scM0_3.view

/-- The core's scoped buffers that belong to neither this call's windows nor its accumulators (the second call's
    staging buffers and accumulator, among others), each at some contents: this region never opens them. -/
abbrev otherScoped0 (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3]

/-- The scoped rest of this call split at its four accumulators. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))
          ∗ otherScoped0 c) :=
  Pipeline.scopedRest_split_of_list spec0 c [cc0_scratch0, cc0_scratch1, cc0_scratch2, cc0_scratch3] (by decide) (by decide)

/-- The region's invariant with the four accumulators as memrefs owned at some contents: what the body is handed
    at the very first point, and what the region gives back at its end. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ otherScoped0 c) ∗ (∃ r, prngReg c r)) := by
  unfold Pipeline.ΦA; rw [scopedRest0_split]; simp only [scM0_0, scM0_1, scM0_2, scM0_3, owns_whole]; try rfl

end Cert.KernelIdeal.Fr

end
-- ==== Proof.KI.R0RunA.lean ====
import proofs.«145808_j60842506715793_1_alg».proof.Proof.KI.R0Base

/-!
# The gate kernel's body at a first reduction step
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST REDUCTION STEP (k = 0, not the last). On whole staging memrefs, the ten inputs at their contents, the
    three result buffers at contents handed back untouched (nothing is stored into them), the four accumulators at
    anything (each is overwritten with zeros before it is read for the sum), the body runs to the continuation
    holding the inputs as they were and each accumulator with its stores written: the zero fill, then zero plus
    this step's partial product. The stores are found by running the body, and are the witness. -/
noncomputable def kernelRun0_A (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) :
    Σ' (LS0 : List (View.Piece (Elt F) S256x512 .f32)) (LS1 : List (View.Piece (Elt F) S256x512 .f32)) (LS2 : List (View.Piece (Elt F) S256x512 .f32)), { LS3 : List (View.Piece (Elt F) S256x512 .f32) //
      ∀ (xi10 xi11 xi12 : Vec F S256x512 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare xi10
            ∗ owns (c : Thread nD τ) arg14 fullShare xi11
            ∗ owns (c : Thread nD τ) arg15 fullShare xi12
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (iprop(owns (c : Thread nD τ) arg3 fullShare x0
              ∗ owns (c : Thread nD τ) arg4 fullShare x1
              ∗ owns (c : Thread nD τ) arg5 fullShare x2
              ∗ owns (c : Thread nD τ) arg6 fullShare x3
              ∗ owns (c : Thread nD τ) arg7 fullShare x4
              ∗ owns (c : Thread nD τ) arg8 fullShare x5
              ∗ owns (c : Thread nD τ) arg9 fullShare x6
              ∗ owns (c : Thread nD τ) arg10 fullShare x7
              ∗ owns (c : Thread nD τ) arg11 fullShare x8
              ∗ owns (c : Thread nD τ) arg12 fullShare x9
              ∗ owns (c : Thread nD τ) arg13 fullShare xi10
              ∗ owns (c : Thread nD τ) arg14 fullShare xi11
              ∗ owns (c : Thread nD τ) arg15 fullShare xi12
              ∗ (∃ f, arg16.view.loc (c : Thread nD τ) ↦[arg16.view.set]{fullShare} arg16.view.writes (Elt F) f LS0)
              ∗ (∃ f, arg17.view.loc (c : Thread nD τ) ↦[arg17.view.set]{fullShare} arg17.view.writes (Elt F) f LS1)
              ∗ (∃ f, arg18.view.loc (c : Thread nD τ) ↦[arg18.view.set]{fullShare} arg18.view.writes (Elt F) f LS2)
              ∗ (∃ f, arg19.view.loc (c : Thread nD τ) ↦[arg19.view.set]{fullShare} arg19.view.writes (Elt F) f LS3)) -∗ K ⟨⟩))
          ⊢ wp frame (wpE (defs₀ (F := F)) Variants.none c none) E (cc0__lstm_gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun xi10 xi11 xi12 E K => ?run⟩
  case run =>
    simp only [cc0__lstm_gate_kernel_eq_skeleton]; unfold cc0__lstm_gate_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [HS0]; · iexists _; iexact HS0
    isplitl [HS1]; · iexists _; iexact HS1
    isplitl [HS2]; · iexists _; iexact HS2
    iexists _; iexact HS3

end Cert.KernelIdeal.Fr

end
-- ==== Proof.KI.R0RunB.lean ====
import proofs.«145808_j60842506715793_1_alg».proof.Proof.KI.R0RunA

/-!
# The gate kernel's body at a middle reduction step
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE REDUCTION STEP (k = 1, 2, 3). On whole staging memrefs, the ten inputs at their contents, the three
    result buffers at contents handed back untouched, the four accumulators at what the step before left, the body
    runs to the continuation holding the inputs as they were and each accumulator with its one store written: what
    it held plus this step's partial product. The stores are found by running the body, and are the witness. -/
noncomputable def kernelRun0_B (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    Σ' (LS0 : List (View.Piece (Elt F) S256x512 .f32)) (LS1 : List (View.Piece (Elt F) S256x512 .f32)) (LS2 : List (View.Piece (Elt F) S256x512 .f32)), { LS3 : List (View.Piece (Elt F) S256x512 .f32) //
      ∀ (xi10 xi11 xi12 : Vec F S256x512 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ owns (c : Thread nD τ) arg13 fullShare xi10
            ∗ owns (c : Thread nD τ) arg14 fullShare xi11
            ∗ owns (c : Thread nD τ) arg15 fullShare xi12
            ∗ owns (c : Thread nD τ) arg16 fullShare xs0
            ∗ owns (c : Thread nD τ) arg17 fullShare xs1
            ∗ owns (c : Thread nD τ) arg18 fullShare xs2
            ∗ owns (c : Thread nD τ) arg19 fullShare xs3
            ∗ (iprop(owns (c : Thread nD τ) arg3 fullShare x0
              ∗ owns (c : Thread nD τ) arg4 fullShare x1
              ∗ owns (c : Thread nD τ) arg5 fullShare x2
              ∗ owns (c : Thread nD τ) arg6 fullShare x3
              ∗ owns (c : Thread nD τ) arg7 fullShare x4
              ∗ owns (c : Thread nD τ) arg8 fullShare x5
              ∗ owns (c : Thread nD τ) arg9 fullShare x6
              ∗ owns (c : Thread nD τ) arg10 fullShare x7
              ∗ owns (c : Thread nD τ) arg11 fullShare x8
              ∗ owns (c : Thread nD τ) arg12 fullShare x9
              ∗ owns (c : Thread nD τ) arg13 fullShare xi10
              ∗ owns (c : Thread nD τ) arg14 fullShare xi11
              ∗ owns (c : Thread nD τ) arg15 fullShare xi12
              ∗ (∃ f, arg16.view.loc (c : Thread nD τ) ↦[arg16.view.set]{fullShare} arg16.view.writes (Elt F) f LS0)
              ∗ (∃ f, arg17.view.loc (c : Thread nD τ) ↦[arg17.view.set]{fullShare} arg17.view.writes (Elt F) f LS1)
              ∗ (∃ f, arg18.view.loc (c : Thread nD τ) ↦[arg18.view.set]{fullShare} arg18.view.writes (Elt F) f LS2)
              ∗ (∃ f, arg19.view.loc (c : Thread nD τ) ↦[arg19.view.set]{fullShare} arg19.view.writes (Elt F) f LS3)) -∗ K ⟨⟩))
          ⊢ wp frame (wpE (defs₀ (F := F)) Variants.none c none) E (cc0__lstm_gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun xi10 xi11 xi12 E K => ?run⟩
  case run =>
    simp only [cc0__lstm_gate_kernel_eq_skeleton]; unfold cc0__lstm_gate_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hfs0; obtain rfl := harg17.eq_unread hfs1; obtain rfl := harg18.eq_unread hfs2; obtain rfl := harg19.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [HS0]; · iexists _; iexact HS0
    isplitl [HS1]; · iexists _; iexact HS1
    isplitl [HS2]; · iexists _; iexact HS2
    iexists _; iexact HS3

end Cert.KernelIdeal.Fr

end
-- ==== Proof.KI.R0RunC.lean ====
import proofs.«145808_j60842506715793_1_alg».proof.Proof.KI.R0RunB

/-!
# The gate kernel's body at the last reduction step
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST REDUCTION STEP (k = 4). On whole staging memrefs, the ten inputs at their contents, the three result
    buffers at anything, the four accumulators at what the step before left, the body runs to the continuation
    holding the inputs as they were, each accumulator with its last partial product added, and each result buffer
    with its store written: the input gate, the new hidden state and the new cell state formed from the finished
    sums, the biases and the old cell state. The stores are found by running the body, and are the witness. -/
noncomputable def kernelRun0_C (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    Σ' (L10 : List (View.Piece (Elt F) S256x512 .f32)) (L11 : List (View.Piece (Elt F) S256x512 .f32)) (L12 : List (View.Piece (Elt F) S256x512 .f32)) (LS0 : List (View.Piece (Elt F) S256x512 .f32)) (LS1 : List (View.Piece (Elt F) S256x512 .f32)) (LS2 : List (View.Piece (Elt F) S256x512 .f32)), { LS3 : List (View.Piece (Elt F) S256x512 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg11 fullShare x8
            ∗ owns (c : Thread nD τ) arg12 fullShare x9
            ∗ (∃ d, owns (c : Thread nD τ) arg13 fullShare d)
            ∗ (∃ d, owns (c : Thread nD τ) arg14 fullShare d)
            ∗ (∃ d, owns (c : Thread nD τ) arg15 fullShare d)
            ∗ owns (c : Thread nD τ) arg16 fullShare xs0
            ∗ owns (c : Thread nD τ) arg17 fullShare xs1
            ∗ owns (c : Thread nD τ) arg18 fullShare xs2
            ∗ owns (c : Thread nD τ) arg19 fullShare xs3
            ∗ (iprop(owns (c : Thread nD τ) arg3 fullShare x0
              ∗ owns (c : Thread nD τ) arg4 fullShare x1
              ∗ owns (c : Thread nD τ) arg5 fullShare x2
              ∗ owns (c : Thread nD τ) arg6 fullShare x3
              ∗ owns (c : Thread nD τ) arg7 fullShare x4
              ∗ owns (c : Thread nD τ) arg8 fullShare x5
              ∗ owns (c : Thread nD τ) arg9 fullShare x6
              ∗ owns (c : Thread nD τ) arg10 fullShare x7
              ∗ owns (c : Thread nD τ) arg11 fullShare x8
              ∗ owns (c : Thread nD τ) arg12 fullShare x9
              ∗ (∃ f, arg13.view.loc (c : Thread nD τ) ↦[arg13.view.set]{fullShare} arg13.view.writes (Elt F) f L10)
              ∗ (∃ f, arg14.view.loc (c : Thread nD τ) ↦[arg14.view.set]{fullShare} arg14.view.writes (Elt F) f L11)
              ∗ (∃ f, arg15.view.loc (c : Thread nD τ) ↦[arg15.view.set]{fullShare} arg15.view.writes (Elt F) f L12)
              ∗ (∃ f, arg16.view.loc (c : Thread nD τ) ↦[arg16.view.set]{fullShare} arg16.view.writes (Elt F) f LS0)
              ∗ (∃ f, arg17.view.loc (c : Thread nD τ) ↦[arg17.view.set]{fullShare} arg17.view.writes (Elt F) f LS1)
              ∗ (∃ f, arg18.view.loc (c : Thread nD τ) ↦[arg18.view.set]{fullShare} arg18.view.writes (Elt F) f LS2)
              ∗ (∃ f, arg19.view.loc (c : Thread nD τ) ↦[arg19.view.set]{fullShare} arg19.view.writes (Elt F) f LS3)) -∗ K ⟨⟩))
          ⊢ wp frame (wpE (defs₀ (F := F)) Variants.none c none) E (cc0__lstm_gate_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, fun E K => ?run⟩
  case run =>
    simp only [cc0__lstm_gate_kernel_eq_skeleton]; unfold cc0__lstm_gate_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg16.eq_unread hfs0; obtain rfl := harg17.eq_unread hfs1; obtain rfl := harg18.eq_unread hfs2; obtain rfl := harg19.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    iexists _; iexact HS3

end Cert.KernelIdeal.Fr

end
-- ==== Proof.KI.R0Data.lean ====
import proofs.«145808_j60842506715793_1_alg».proof.Proof.KI.R0RunC

/-!
# The gate kernel's region: the accumulation, the proof data and the body obligation

Per step (first, middle, last) what the stores leave in each accumulator and in each result buffer; the recursion
over the grid's points that carries the accumulators from one point to the next; the pipeline's proof data over it;
and the obligation that the body, at every point, takes the invariant and the windows' buffers from "before" to "after".
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a first reduction step the stores into the forget-gate accumulator cover it: the zero fill and the sum are each the whole block. -/
theorem scover0_A_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (y : S256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).1 S256x512.size (by sl_kernel_rfl) y

/-- What a first reduction step leaves in the forget-gate accumulator: its stores read back (over contents that do not matter, the stores covering the block). -/
def sout0_A_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) : Vec F S256x512 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).1)

/-- At a first reduction step the stores into the input-gate accumulator cover it: the zero fill and the sum are each the whole block. -/
theorem scover0_A_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (y : S256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1 S256x512.size (by sl_kernel_rfl) y

/-- What a first reduction step leaves in the input-gate accumulator: its stores read back (over contents that do not matter, the stores covering the block). -/
def sout0_A_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) : Vec F S256x512 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.1)

/-- At a first reduction step the stores into the cell-candidate accumulator cover it: the zero fill and the sum are each the whole block. -/
theorem scover0_A_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (y : S256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.1 S256x512.size (by sl_kernel_rfl) y

/-- What a first reduction step leaves in the cell-candidate accumulator: its stores read back (over contents that do not matter, the stores covering the block). -/
def sout0_A_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) : Vec F S256x512 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.1)

/-- At a first reduction step the stores into the output-gate accumulator cover it: the zero fill and the sum are each the whole block. -/
theorem scover0_A_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (y : S256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.1 S256x512.size (by sl_kernel_rfl) y

/-- What a first reduction step leaves in the output-gate accumulator: its stores read back (over contents that do not matter, the stores covering the block). -/
def sout0_A_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) : Vec F S256x512 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9).2.2.2.1)

/-- At a middle reduction step the stores into the forget-gate accumulator cover it: the one store of the sum is the whole block. -/
theorem scover0_B_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1 S256x512.size (by sl_kernel_rfl) y

/-- What a middle reduction step leaves in the forget-gate accumulator: its stores read back (over contents that do not matter, the stores covering the block). -/
def sout0_B_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1)

/-- At a middle reduction step the stores into the input-gate accumulator cover it: the one store of the sum is the whole block. -/
theorem scover0_B_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1 S256x512.size (by sl_kernel_rfl) y

/-- What a middle reduction step leaves in the input-gate accumulator: its stores read back (over contents that do not matter, the stores covering the block). -/
def sout0_B_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1)

/-- At a middle reduction step the stores into the cell-candidate accumulator cover it: the one store of the sum is the whole block. -/
theorem scover0_B_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1 S256x512.size (by sl_kernel_rfl) y

/-- What a middle reduction step leaves in the cell-candidate accumulator: its stores read back (over contents that do not matter, the stores covering the block). -/
def sout0_B_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1)

/-- At a middle reduction step the stores into the output-gate accumulator cover it: the one store of the sum is the whole block. -/
theorem scover0_B_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1 S256x512.size (by sl_kernel_rfl) y

/-- What a middle reduction step leaves in the output-gate accumulator: its stores read back (over contents that do not matter, the stores covering the block). -/
def sout0_B_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_3.read (Elt F) (VS0_3.writes (Elt F) VS0_3.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1)

/-- At the last reduction step the stores into the forget-gate accumulator cover it: the one store of the sum is the whole block. -/
theorem scover0_C_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1 S256x512.size (by sl_kernel_rfl) y

/-- What the last reduction step leaves in the forget-gate accumulator: its stores read back (over contents that do not matter, the stores covering the block). -/
def sout0_C_0 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.1)

/-- At the last reduction step the stores into the input-gate accumulator cover it: the one store of the sum is the whole block. -/
theorem scover0_C_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.1 S256x512.size (by sl_kernel_rfl) y

/-- What the last reduction step leaves in the input-gate accumulator: its stores read back (over contents that do not matter, the stores covering the block). -/
def sout0_C_1 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.1)

/-- At the last reduction step the stores into the cell-candidate accumulator cover it: the one store of the sum is the whole block. -/
theorem scover0_C_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.1 S256x512.size (by sl_kernel_rfl) y

/-- What the last reduction step leaves in the cell-candidate accumulator: its stores read back (over contents that do not matter, the stores covering the block). -/
def sout0_C_2 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.1)

/-- At the last reduction step the stores into the output-gate accumulator cover it: the one store of the sum is the whole block. -/
theorem scover0_C_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.2.1 S256x512.size (by sl_kernel_rfl) y

/-- What the last reduction step leaves in the output-gate accumulator: its stores read back (over contents that do not matter, the stores covering the block). -/
def sout0_C_3 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VS0_3.read (Elt F) (VS0_3.writes (Elt F) VS0_3.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.2.2.2.2.1)

/-- At the last reduction step the one store into the input-gate result's buffer is the whole block. -/
theorem cover0_C_10 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1 S256x512.size (by sl_kernel_rfl) y

/-- What the last reduction step leaves in the input-gate result's buffer: its store read back. -/
def out0_C_10 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VO0_10.read (Elt F) (VO0_10.writes (Elt F) VO0_10.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).1)

/-- At the last reduction step the one store into the hidden-state result's buffer is the whole block. -/
theorem cover0_C_11 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1 S256x512.size (by sl_kernel_rfl) y

/-- What the last reduction step leaves in the hidden-state result's buffer: its store read back. -/
def out0_C_11 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VO0_11.read (Elt F) (VO0_11.writes (Elt F) VO0_11.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.1)

/-- At the last reduction step the one store into the cell-state result's buffer is the whole block. -/
theorem cover0_C_12 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1 S256x512.size (by sl_kernel_rfl) y

/-- What the last reduction step leaves in the cell-state result's buffer: its store read back. -/
def out0_C_12 (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) : Vec F S256x512 .f32 :=
  VO0_12.read (Elt F) (VO0_12.writes (Elt F) VO0_12.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3).2.2.1)

/-- What the four accumulators hold: (forget, input, cell, output). -/
abbrev Acc0 (F : FTy → Type) [FloatOps F] : Type := Vec F S256x512 .f32 × Vec F S256x512 .f32 × Vec F S256x512 .f32 × Vec F S256x512 .f32
/-- What the three result buffers and the four accumulators hold: ((input gate, hidden state, cell state), accumulators). -/
abbrev Outs0 (F : FTy → Type) [FloatOps F] : Type := (Vec F S256x512 .f32 × Vec F S256x512 .f32 × Vec F S256x512 .f32) × Acc0 F

/-- A result buffer at a step that stores nothing into it: a placeholder nothing consults (the window is idle there,
    neither written back nor read at the next point). -/
def idleOut0 : Vec F S256x512 .f32 := VO0_10.read (Elt F) VO0_10.junk

section Entry
variable (V : (c : Dev nD) → (b : Ref sig .tc) → Buf (Elt F) ((c : Thread nD τ).loc b))

/-- A first reduction step at point t: the accumulators restart from zero and take the first partial products of the
    point's input blocks; the result buffers are left alone. -/
def stepA0 (c : Dev nD) (t : Fin cfg0.N) (h0 : t.val % 5 = 0) (h1 : ¬t.val % 5 = 4) : Outs0 F :=
  ((idleOut0, idleOut0, idleOut0),
   (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t),
    sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)))

/-- A middle reduction step at point t, over the accumulators p the step before left: each gains this point's partial
    product; the result buffers are left alone. -/
def stepB0 (c : Dev nD) (t : Fin cfg0.N) (h0 : ¬t.val % 5 = 0) (h1 : ¬t.val % 5 = 4) (p : Acc0 F) : Outs0 F :=
  ((idleOut0, idleOut0, idleOut0),
   (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2))

/-- The last reduction step at point t, over the accumulators p the step before left: each gains the last partial
    product, and the three results are formed from the finished sums and stored. -/
def stepC0 (c : Dev nD) (t : Fin cfg0.N) (h0 : ¬t.val % 5 = 0) (h1 : t.val % 5 = 4) (p : Acc0 F) : Outs0 F :=
  ((out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2),
   (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2,
    sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.1 p.2.1 p.2.2.1 p.2.2.2))

/-- THE ACCUMULATION. What the result buffers and the accumulators hold after the body at position n: the step that
    n % 5 selects, run at that point's memrefs and input blocks, over the accumulators the position before left.
    No position is both a first and a last step. -/
def outsAt0 (c : Dev nD) : (n : ℕ) → n < cfg0.N → Outs0 F
  | 0, hn => stepA0 V c ⟨0, hn⟩ (Nat.zero_mod _) (fun h => by (try dsimp only at h); omega)
  | n + 1, hn =>
    if h0 : (n + 1) % 5 = 0 then
      if h1 : (n + 1) % 5 = 4 then False.elim (by omega)
      else stepA0 V c ⟨n + 1, hn⟩ h0 h1
    else
      if h1 : (n + 1) % 5 = 4 then stepC0 V c ⟨n + 1, hn⟩ h0 h1 (outsAt0 c n (Nat.lt_of_succ_lt hn)).2
      else stepB0 V c ⟨n + 1, hn⟩ h0 h1 (outsAt0 c n (Nat.lt_of_succ_lt hn)).2

/-- At a first reduction step. -/
theorem outsAt0_A (c : Dev nD) (t : Fin cfg0.N) (h0 : t.val % 5 = 0) (h1 : ¬t.val % 5 = 4) :
    outsAt0 V c t.val t.isLt = stepA0 V c t h0 h1 := by
  obtain ⟨n, hn⟩ := t
  cases n with
  | zero => exact rfl
  | succ n => exact (dif_pos h0).trans ((dif_neg h1).trans rfl)

/-- At a middle reduction step: over what the point before left. -/
theorem outsAt0_B (c : Dev nD) (t : Fin cfg0.N) (h0 : ¬t.val % 5 = 0) (h1 : ¬t.val % 5 = 4) :
    outsAt0 V c t.val t.isLt = stepB0 V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- At the last reduction step: over what the point before left. -/
theorem outsAt0_C (c : Dev nD) (t : Fin cfg0.N) (h0 : ¬t.val % 5 = 0) (h1 : t.val % 5 = 4) :
    outsAt0 V c t.val t.isLt = stepC0 V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands over (every scoped buffer
    at anything); afterwards the four accumulators at what the point before left in them, the other scoped buffers
    at anything, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2.1 ∗ owns (c : Thread nD τ) scM0_3 fullShare (outsAt0 V c n hn).2.2.2.2) ∗ otherScoped0 c) ∗ (∃ r, prngReg c r))

theorem PhiS0_zero (c : Dev nD) (n : ℕ) (h : n ≤ cfg0.N) (hz : n = 0) : PhiS0 V c n h = Pipeline.ΦA spec0 c := by
  subst hz; rfl

/-- After point n (before point n + 1): the accumulators at that point's contents. -/
theorem PhiS0_succ (c : Dev nD) (n : ℕ) (hn : n < cfg0.N) :
    PhiS0 V c (n + 1) hn = iprop(iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2.1 ∗ owns (c : Thread nD τ) scM0_3 fullShare (outsAt0 V c n hn).2.2.2.2) ∗ otherScoped0 c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.1 ∗ owns (c : Thread nD τ) scM0_1 fullShare (outsAt0 V c (n - 1) (by omega)).2.2.1 ∗ owns (c : Thread nD τ) scM0_2 fullShare (outsAt0 V c (n - 1) (by omega)).2.2.2.1 ∗ owns (c : Thread nD τ) scM0_3 fullShare (outsAt0 V c (n - 1) (by omega)).2.2.2.2) ∗ otherScoped0 c) ∗ (∃ r, prngReg c r)) := by
  cases n with
  | zero => exact absurd rfl hz
  | succ n => rfl

/-! ## The pipeline's proof data -/

/-- The proof data of the gate kernel's pipeline on core c: the arrays as the region finds them; after the body at
    point t each input's buffer at its block and the results' at the accumulation's components; the invariant the
    one above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1.1
    | ⟨11, _⟩ => (outsAt0 V c t.val t.isLt).1.2.1
    | ⟨12, _⟩ => (outsAt0 V c t.val t.isLt).1.2.2
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1.1 := by dsimp only [dat0]
theorem after0_11 (c : Dev nD) (t : Fin cfg0.N) : (dat0 V c).after 11 t = (outsAt0 V c t.val t.isLt).1.2.1 := by dsimp only [dat0]
theorem after0_12 (c : Dev nD) (t : Fin cfg0.N) : (dat0 V c).after 12 t = (outsAt0 V c t.val t.isLt).1.2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)

set_option maxHeartbeats 16000000 in
/-- The body at any point. The inputs' memrefs hold their blocks; t % 5 says which step the point is, so that
    step's run applies; the invariant hands the body the accumulators at what the point before left (at anything at
    the very first point) and takes them back at this point's contents, the stores covering each block; the other
    scoped buffers, the generator register and the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  have hN : t.val < 160 := lt_of_lt_of_eq t.isLt (show cfg0.N = 160 from N_0)
  by_cases h0 : t.val % 5 = 0
  · by_cases h1 : t.val % 5 = 4
    · exfalso; omega
    · rw [show (dat0 V c).leavesExact 0 t = owns (c : Thread nD τ) (ms0_0 t) fullShare ((dat0 V c).after 0 t) from by
              unfold Dat.leavesExact; rw [liveAt0_0 t], after0_0]
      rw [show (dat0 V c).leavesExact 1 t = owns (c : Thread nD τ) (ms0_1 t) fullShare ((dat0 V c).after 1 t) from by
              unfold Dat.leavesExact; rw [liveAt0_1 t], after0_1]
      rw [show (dat0 V c).leavesExact 2 t = owns (c : Thread nD τ) (ms0_2 t) fullShare ((dat0 V c).after 2 t) from by
              unfold Dat.leavesExact; rw [liveAt0_2 t], after0_2]
      rw [show (dat0 V c).leavesExact 3 t = owns (c : Thread nD τ) (ms0_3 t) fullShare ((dat0 V c).after 3 t) from by
              unfold Dat.leavesExact; rw [liveAt0_3 t], after0_3]
      rw [show (dat0 V c).leavesExact 4 t = owns (c : Thread nD τ) (ms0_4 t) fullShare ((dat0 V c).after 4 t) from by
              unfold Dat.leavesExact; rw [liveAt0_4 t], after0_4]
      rw [show (dat0 V c).leavesExact 5 t = owns (c : Thread nD τ) (ms0_5 t) fullShare ((dat0 V c).after 5 t) from by
              unfold Dat.leavesExact; rw [liveAt0_5 t], after0_5]
      rw [show (dat0 V c).leavesExact 6 t = owns (c : Thread nD τ) (ms0_6 t) fullShare ((dat0 V c).after 6 t) from by
              unfold Dat.leavesExact; rw [liveAt0_6 t], after0_6]
      rw [show (dat0 V c).leavesExact 7 t = owns (c : Thread nD τ) (ms0_7 t) fullShare ((dat0 V c).after 7 t) from by
              unfold Dat.leavesExact; rw [liveAt0_7 t], after0_7]
      rw [show (dat0 V c).leavesExact 8 t = owns (c : Thread nD τ) (ms0_8 t) fullShare ((dat0 V c).after 8 t) from by
              unfold Dat.leavesExact; rw [liveAt0_8 t], after0_8]
      rw [show (dat0 V c).leavesExact 9 t = owns (c : Thread nD τ) (ms0_9 t) fullShare ((dat0 V c).after 9 t) from by
              unfold Dat.leavesExact; rw [liveAt0_9 t], after0_9]
      rw [Dat.leavesExact_idle (dat0 V c) 10 t (idleAt0_10_A t ((hcond0_0 t).mpr h0) (fun h => h1 ((hcond0_1 t).mp h))) (noFlush0_10_A t ((hcond0_0 t).mpr h0) (fun h => h1 ((hcond0_1 t).mp h)))]
      rw [Dat.leavesExact_idle (dat0 V c) 11 t (idleAt0_11_A t ((hcond0_0 t).mpr h0) (fun h => h1 ((hcond0_1 t).mp h))) (noFlush0_11_A t ((hcond0_0 t).mpr h0) (fun h => h1 ((hcond0_1 t).mp h)))]
      rw [Dat.leavesExact_idle (dat0 V c) 12 t (idleAt0_12_A t ((hcond0_0 t).mpr h0) (fun h => h1 ((hcond0_1 t).mp h))) (noFlush0_12_A t ((hcond0_0 t).mpr h0) (fun h => h1 ((hcond0_1 t).mp h)))]
      rw [outsAt0_A V c t h0 h1]
      unfold stepA0 sout0_A_0 sout0_A_1 sout0_A_2 sout0_A_3; (try dsimp only)
      by_cases hz : t.val = 0
      · rw [PhiS0_castSucc V c t, PhiS0_zero V c _ _ hz, PhiA0_eq]
        iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        isplitl [HS3]; · iexact HS3
        iintro ⟨H0, H1, H2, H3, H4, H5, H6, H7, H8, H9, H10, H11, H12, ⟨%es0, HS0⟩, ⟨%es1, HS1⟩, ⟨%es2, HS2⟩, ⟨%es3, HS3⟩⟩
        isplitl [HS0 HS1 HS2 HS3 Hrest Hg]
        · isplitl [HS0 HS1 HS2 HS3 Hrest]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _)
              unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        iexists _; iexact H12
      · rw [PhiS0_castSucc V c t, PhiS0_pos V c _ _ hz]
        iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, H8, H9, H10, H11, H12, ⟨%es0, HS0⟩, ⟨%es1, HS1⟩, ⟨%es2, HS2⟩, ⟨%es3, HS3⟩⟩
        isplitl [HS0 HS1 HS2 HS3 Hrest Hg]
        · isplitl [HS0 HS1 HS2 HS3 Hrest]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _)
              unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        iexists _; iexact H12
  · by_cases h1 : t.val % 5 = 4
    · rw [show (dat0 V c).leavesExact 0 t = owns (c : Thread nD τ) (ms0_0 t) fullShare ((dat0 V c).after 0 t) from by
              unfold Dat.leavesExact; rw [liveAt0_0 t], after0_0]
      rw [show (dat0 V c).leavesExact 1 t = owns (c : Thread nD τ) (ms0_1 t) fullShare ((dat0 V c).after 1 t) from by
              unfold Dat.leavesExact; rw [liveAt0_1 t], after0_1]
      rw [show (dat0 V c).leavesExact 2 t = owns (c : Thread nD τ) (ms0_2 t) fullShare ((dat0 V c).after 2 t) from by
              unfold Dat.leavesExact; rw [liveAt0_2 t], after0_2]
      rw [show (dat0 V c).leavesExact 3 t = owns (c : Thread nD τ) (ms0_3 t) fullShare ((dat0 V c).after 3 t) from by
              unfold Dat.leavesExact; rw [liveAt0_3 t], after0_3]
      rw [show (dat0 V c).leavesExact 4 t = owns (c : Thread nD τ) (ms0_4 t) fullShare ((dat0 V c).after 4 t) from by
              unfold Dat.leavesExact; rw [liveAt0_4 t], after0_4]
      rw [show (dat0 V c).leavesExact 5 t = owns (c : Thread nD τ) (ms0_5 t) fullShare ((dat0 V c).after 5 t) from by
              unfold Dat.leavesExact; rw [liveAt0_5 t], after0_5]
      rw [show (dat0 V c).leavesExact 6 t = owns (c : Thread nD τ) (ms0_6 t) fullShare ((dat0 V c).after 6 t) from by
              unfold Dat.leavesExact; rw [liveAt0_6 t], after0_6]
      rw [show (dat0 V c).leavesExact 7 t = owns (c : Thread nD τ) (ms0_7 t) fullShare ((dat0 V c).after 7 t) from by
              unfold Dat.leavesExact; rw [liveAt0_7 t], after0_7]
      rw [show (dat0 V c).leavesExact 8 t = owns (c : Thread nD τ) (ms0_8 t) fullShare ((dat0 V c).after 8 t) from by
              unfold Dat.leavesExact; rw [liveAt0_8 t], after0_8]
      rw [show (dat0 V c).leavesExact 9 t = owns (c : Thread nD τ) (ms0_9 t) fullShare ((dat0 V c).after 9 t) from by
              unfold Dat.leavesExact; rw [liveAt0_9 t], after0_9]
      rw [show (dat0 V c).leavesExact 10 t = owns (c : Thread nD τ) (ms0_10 t) fullShare ((dat0 V c).after 10 t) from by
              unfold Dat.leavesExact; rw [liveAt0_10_C t (fun h => h0 ((hcond0_0 t).mp h)) ((hcond0_1 t).mpr h1)], after0_10]
      rw [show (dat0 V c).leavesExact 11 t = owns (c : Thread nD τ) (ms0_11 t) fullShare ((dat0 V c).after 11 t) from by
              unfold Dat.leavesExact; rw [liveAt0_11_C t (fun h => h0 ((hcond0_0 t).mp h)) ((hcond0_1 t).mpr h1)], after0_11]
      rw [show (dat0 V c).leavesExact 12 t = owns (c : Thread nD τ) (ms0_12 t) fullShare ((dat0 V c).after 12 t) from by
              unfold Dat.leavesExact; rw [liveAt0_12_C t (fun h => h0 ((hcond0_0 t).mp h)) ((hcond0_1 t).mpr h1)], after0_12]
      rw [outsAt0_C V c t h0 h1]
      unfold stepC0 out0_C_10 out0_C_11 out0_C_12 sout0_C_0 sout0_C_1 sout0_C_2 sout0_C_3; (try dsimp only)
      have hz : t.val ≠ 0 := fun hz => by omega
      rw [PhiS0_castSucc V c t, PhiS0_pos V c _ _ hz]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%e11, H11⟩, ⟨%e12, H12⟩, ⟨%es0, HS0⟩, ⟨%es1, HS1⟩, ⟨%es2, HS2⟩, ⟨%es3, HS3⟩⟩
      isplitl [HS0 HS1 HS2 HS3 Hrest Hg]
      · isplitl [HS0 HS1 HS2 HS3 Hrest]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
              unfold Dat.leavesExact; rw [liveAt0_0 t], after0_0]
      rw [show (dat0 V c).leavesExact 1 t = owns (c : Thread nD τ) (ms0_1 t) fullShare ((dat0 V c).after 1 t) from by
              unfold Dat.leavesExact; rw [liveAt0_1 t], after0_1]
      rw [show (dat0 V c).leavesExact 2 t = owns (c : Thread nD τ) (ms0_2 t) fullShare ((dat0 V c).after 2 t) from by
              unfold Dat.leavesExact; rw [liveAt0_2 t], after0_2]
      rw [show (dat0 V c).leavesExact 3 t = owns (c : Thread nD τ) (ms0_3 t) fullShare ((dat0 V c).after 3 t) from by
              unfold Dat.leavesExact; rw [liveAt0_3 t], after0_3]
      rw [show (dat0 V c).leavesExact 4 t = owns (c : Thread nD τ) (ms0_4 t) fullShare ((dat0 V c).after 4 t) from by
              unfold Dat.leavesExact; rw [liveAt0_4 t], after0_4]
      rw [show (dat0 V c).leavesExact 5 t = owns (c : Thread nD τ) (ms0_5 t) fullShare ((dat0 V c).after 5 t) from by
              unfold Dat.leavesExact; rw [liveAt0_5 t], after0_5]
      rw [show (dat0 V c).leavesExact 6 t = owns (c : Thread nD τ) (ms0_6 t) fullShare ((dat0 V c).after 6 t) from by
              unfold Dat.leavesExact; rw [liveAt0_6 t], after0_6]
      rw [show (dat0 V c).leavesExact 7 t = owns (c : Thread nD τ) (ms0_7 t) fullShare ((dat0 V c).after 7 t) from by
              unfold Dat.leavesExact; rw [liveAt0_7 t], after0_7]
      rw [show (dat0 V c).leavesExact 8 t = owns (c : Thread nD τ) (ms0_8 t) fullShare ((dat0 V c).after 8 t) from by
              unfold Dat.leavesExact; rw [liveAt0_8 t], after0_8]
      rw [show (dat0 V c).leavesExact 9 t = owns (c : Thread nD τ) (ms0_9 t) fullShare ((dat0 V c).after 9 t) from by
              unfold Dat.leavesExact; rw [liveAt0_9 t], after0_9]
      rw [Dat.leavesExact_idle (dat0 V c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [Dat.leavesExact_idle (dat0 V c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      rw [Dat.leavesExact_idle (dat0 V c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
      rw [outsAt0_B V c t h0 h1]
      unfold stepB0 sout0_B_0 sout0_B_1 sout0_B_2 sout0_B_3; (try dsimp only)
      have hz : t.val ≠ 0 := fun hz => by omega
      rw [PhiS0_castSucc V c t, PhiS0_pos V c _ _ hz]
      iintro ⟨⟨⟨⟨HS0, HS1, HS2, HS3⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexact HS2
      isplitl [HS3]; · iexact HS3
      iintro ⟨H0, H1, H2, H3, H4, H5, H6, H7, H8, H9, H10, H11, H12, ⟨%es0, HS0⟩, ⟨%es1, HS1⟩, ⟨%es2, HS2⟩, ⟨%es3, HS3⟩⟩
      isplitl [HS0 HS1 HS2 HS3 Hrest Hg]
      · isplitl [HS0 HS1 HS2 HS3 Hrest]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      iexists _; iexact H12

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1, HS2, HS3⟩, Hrest⟩, Hg⟩
  isplitl [HS0 HS1 HS2 HS3 Hrest]
  · isplitl [HS0 HS1 HS2 HS3]
    · isplitl [HS0]; · iexists _; iexact HS0
      isplitl [HS1]; · iexists _; iexact HS1
      isplitl [HS2]; · iexists _; iexact HS2
      iexists _; iexact HS3
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 160 := N_0; omega)

end Entry

end Cert.KernelIdeal.Fr

end
-- ==== Proof.KI.R1Base.lean ====
/-
  The output layer (the second kernel region: an 8 x 8 grid, the second coordinate k walking the contraction in
  eight steps of 512) — what its three case runs are stated over.

  The body keeps ONE accumulator (a 128 x 4096 scratch buffer) across the eight points of a row block: zeroed at
  k = 0, a partial product added at every k, and at k = 7 the bias added and the row-wise log-softmax stored into the
  output block. So the points fall in three cases by t % 8: the first (k = 0), the middle ones, the last (k = 7); the
  output window is idle, and not written back, except at the last.
-/
import proofs.«145808_j60842506715793_1_alg».proof.Proof.Gen.KernelIdeal.Launch
import proofs.«145808_j60842506715793_1_alg».proof.Proof.Gen.KernelIdeal.Skeleton
import proofs.«145808_j60842506715793_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered: a parameter, which the run instantiates
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden-state window's staging buffer holds its block at every point, for any proof data over the entry
    contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window (one block, fetched once: its index never moves) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, decided over the grid -/

/-- "k = 0", as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7". -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 7 the output window is idle, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At k = 7 it is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S128x4096 .f32 := (Memref.whole cc1_stg3_0 : Memref sig .tc .vmem S128x4096 .f32).view
abbrev ms1_0 (t : Fin cfg1.N) : Memref sig .tc .vmem S128x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x4096 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S128x4096 .f32 := Memref.whole cc1_scratch0
abbrev VS1_0 : View sig .tc .vmem S128x4096 .f32 := scM1_0.view

/-- The region's resting invariant with the accumulator split off as a memref owned at some contents: what the body
    obligation hands the first point's run. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_split]; simp only [scM1_0, owns_whole]; try rfl

end Cert.KernelIdeal.Fr

end
-- ==== Proof.KI.R1RunA.lean ====
/-
  The output layer's body at a FIRST point of a row block (k = 0): the accumulator is zeroed, then the first partial
  product is added to it; nothing is stored into the output block.
-/
import proofs.«145808_j60842506715793_1_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output layer's body at a point of this case, on whole staging memrefs: the three inputs at their blocks, the
    output's buffer (idle here) at contents handed back untouched, the accumulator at anything. It runs to the continuation holding
    the inputs as they were and the accumulator with its pieces written; the pieces (last store first) are the witness
    the symbolic run finds. -/
noncomputable def kernelRun1_A (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : cond1_0 i) (hc1 : ¬cond1_1 i)
    (x0 : Vec F S128x512 .f32) (x1 : Vec F S4096x512 .f32) (x2 : Vec F S1x4096 .f32) :
    Σ' (L3 : List (View.Piece (Elt F) S128x4096 .f32)), { LS0 : List (View.Piece (Elt F) S128x4096 .f32) //
      ∀ (xi3 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__output_kernel i arg2 harg2 arg3 harg3 arg4 harg4 arg5 harg5 arg6 harg6) K } := by
  refine ⟨[], ?_, fun xi3 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R1RunB.lean ====
/-
  The output layer's body at a MIDDLE point of a row block (0 < k < 7): one more partial product is added to the
  accumulator, which the point before left at named contents; nothing is stored into the output block.
-/
import proofs.«145808_j60842506715793_1_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output layer's body at a point of this case, on whole staging memrefs: the three inputs at their blocks, the
    output's buffer (idle here) at contents handed back untouched, the accumulator at what the point before left. It runs to the continuation holding
    the inputs as they were and the accumulator with its pieces written; the pieces (last store first) are the witness
    the symbolic run finds. -/
noncomputable def kernelRun1_B (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : ¬cond1_1 i)
    (x0 : Vec F S128x512 .f32) (x1 : Vec F S4096x512 .f32) (x2 : Vec F S1x4096 .f32) (xs0 : Vec F S128x4096 .f32) :
    Σ' (L3 : List (View.Piece (Elt F) S128x4096 .f32)), { LS0 : List (View.Piece (Elt F) S128x4096 .f32) //
      ∀ (xi3 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__output_kernel i arg2 harg2 arg3 harg3 arg4 harg4 arg5 harg5 arg6 harg6) K } := by
  refine ⟨[], ?_, fun xi3 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.R1RunC.lean ====
/-
  The output layer's body at the LAST point of a row block (k = 7): the last partial product is added to the
  accumulator, then the bias is added to what it holds and the rows' log-softmax is stored into the output block.
-/
import proofs.«145808_j60842506715793_1_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output layer's body at a point of this case, on whole staging memrefs: the three inputs at their blocks, the
    output's buffer at anything, the accumulator at what the point before left. It runs to the continuation holding
    the inputs as they were, the output's buffer with its pieces written and the accumulator with its pieces written; the pieces (last store first) are the witness
    the symbolic run finds. -/
noncomputable def kernelRun1_C (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) :
    Σ' (L3 : List (View.Piece (Elt F) S128x4096 .f32)), { LS0 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__output_kernel i arg2 harg2 arg3 harg3 arg4 harg4 arg5 harg5 arg6 harg6) K } := by
  refine ⟨?_, ?_, fun E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Fr

end
-- ==== Proof.KI.R1Data.lean ====
/-
  The output layer as one pipeline: what its accumulator and its output block hold after each point, and the proof
  data and body obligation over that.

  After the point t of a row block the accumulator holds, by recursion on t: at k = 0 what the first case's stores
  leave (zero, then the first partial product added); at every later k what that case's stores leave over what the point
  before left. The output block is stored only at k = 7, from the accumulator; elsewhere its window is idle. The
  region's invariant before a point other than the first is: the accumulator at what the point before left, every other
  scoped buffer and the generator register at something.
-/
import proofs.«145808_j60842506715793_1_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A's stores into the accumulator tile it. -/
theorem scover1_A_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : cond1_0 i) (hc1 : ¬cond1_1 i)
    (x0 : Vec F S128x512 .f32) (x1 : Vec F S4096x512 .f32) (x2 : Vec F S1x4096 .f32) (y : S128x4096.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S128x4096.size (by sl_kernel_rfl) y

/-- What case A leaves in the accumulator: its pieces read back. -/
def sout1_A_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : cond1_0 i) (hc1 : ¬cond1_1 i)
    (x0 : Vec F S128x512 .f32) (x1 : Vec F S4096x512 .f32) (x2 : Vec F S1x4096 .f32) : Vec F S128x4096 .f32 :=
  VS1_0.read (Elt F) (VS1_0.writes (Elt F) VS1_0.junk (kernelRun1_A c i arg2 harg2 arg3 harg3 arg4 harg4 arg5 harg5 arg6 harg6 hc0 hc1 x0 x1 x2).2.1)

/-- Case B's stores into the accumulator tile it. -/
theorem scover1_B_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : ¬cond1_1 i)
    (x0 : Vec F S128x512 .f32) (x1 : Vec F S4096x512 .f32) (x2 : Vec F S1x4096 .f32) (xs0 : Vec F S128x4096 .f32) (y : S128x4096.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S128x4096.size (by sl_kernel_rfl) y

/-- What case B leaves in the accumulator: its pieces read back. -/
def sout1_B_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : ¬cond1_1 i)
    (x0 : Vec F S128x512 .f32) (x1 : Vec F S4096x512 .f32) (x2 : Vec F S1x4096 .f32) (xs0 : Vec F S128x4096 .f32) : Vec F S128x4096 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's stores into the accumulator tile it. -/
theorem scover1_C_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) (y : S128x4096.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x4096.size (by sl_kernel_rfl) y

/-- What case C leaves in the accumulator: its pieces read back. -/
def sout1_C_0 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) : Vec F S128x4096 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- The last case's one store into the output block tiles it. -/
theorem cover1_C_3 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) (y : S128x4096.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S128x4096.size (by sl_kernel_rfl) y

/-- What the last case leaves in the output block's buffer. -/
def out1_C_3 (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) : Vec F S128x4096 .f32 :=
  VO1_3.read (Elt F) (VO1_3.writes (Elt F) VO1_3.junk (kernelRun1_C c i arg2 harg2 arg3 harg3 arg4 harg4 arg5 harg5 arg6 harg6 hc0 hc1 x0 x1 x2 xs0).1)

/-- Where the output window is idle nothing consults its buffer: a placeholder. -/
def idleOut1 : Vec F S128x4096 .f32 := VO1_3.read (Elt F) VO1_3.junk

section
variable (V : (c : Dev nD) → (b : Ref sig .tc) → Buf (Elt F) ((c : Thread nD τ).loc b))

/-! ## The accumulation, point by point -/

/-- What the output block's buffer and the accumulator hold after the body at position n. -/
def outsAt1 (c : Dev nD) : (n : ℕ) → n < cfg1.N → Vec F S128x4096 .f32 × Vec F S128x4096 .f32
  | 0, hn => (idleOut1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (idleOut1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first point of a row block. -/
theorem outsAt1_A (c : Dev nD) (t : Fin cfg1.N) (h0 : t.val % 8 = 0) (h1 : ¬t.val % 8 = 7) :
    outsAt1 V c t.val t.isLt = (idleOut1, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle point: over what the point before left. -/
theorem outsAt1_B (c : Dev nD) (t : Fin cfg1.N) (h0 : ¬t.val % 8 = 0) (h1 : ¬t.val % 8 = 7) :
    outsAt1 V c t.val t.isLt = (idleOut1, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: at the first point the resting invariant (the accumulator at anything); afterwards the
    accumulator at what the point before left, the other scoped buffers and the generator register at something. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut spec1 c [cc1_scratch0]) ∗ (∃ r, prngReg c r)) := by
  cases n with
  | zero => exact absurd rfl hz
  | succ n => rfl

/-! ## The proof data -/

/-- The pipeline's proof data on core c: the arrays as the region finds them; after the body each input's buffer at
    its block and the output's at the recursion's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which case the point is in;
    the invariant hands the run the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: the accumulator's contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi1_out V c _ (by rw [Fin.val_last]; have : cfg1.N = 64 := N_1; omega)

end

end Cert.KernelIdeal.Fr

end
-- ==== Proof.KI.Launch.lean ====
/-
  The whole run of @main: the host lines (the concatenation [i | h] and five reshapes of the biases), the gate
  region, the output region — as three segments over one thread state, "every unscoped buffer of the core at this
  boundary's contents, the generator register at some state, nothing owed".

  The contents at the four boundaries are a fold from the launch memory: after the host lines; after the gate region
  (its three result arrays at what its write-backs leave, everything else as before); after the output region (its
  result array likewise). The run ends with every unscoped buffer at the last boundary's contents; the frame claim
  reads the thirteen arguments off it (nothing writes one), a value claim the four results.
-/
import proofs.«145808_j60842506715793_1_alg».proof.Proof.KI.R0Data
import proofs.«145808_j60842506715793_1_alg».proof.Proof.KI.R1Data
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host lines: the gate region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the gate region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the output region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host line and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 9).trans (((dat0 (V1 m ρ) c).arrAt_in 9 rfl _).trans (A_eq0 (V1 m ρ) c 9))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 3).trans (((dat0 (V1 m ρ) c).arrAt_in 3 rfl _).trans (A_eq0 (V1 m ρ) c 3))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg8) := rfl

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := (W2_arr m ρ c 4).trans (((dat0 (V1 m ρ) c).arrAt_in 4 rfl _).trans (A_eq0 (V1 m ρ) c 4))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg9) := rfl

theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg10) := rfl

theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := (W3_arr m ρ c 1).trans (((dat1 (V2 m ρ) c).arrAt_in 1 rfl _).trans (A_eq1 (V2 m ρ) c 1))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg11) := rfl

theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg12) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at its entry contents, left at its exit
    contents. Its windows' arrays are split out of the unscoped buffers and put back at what the write-backs leave; the
    generator register and the scoped buffers go into the region's invariant before the first point and come back after
    the last; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec0 c ∗ ∃ r, prngReg c r) ⊢ (pdats m ρ 0 c).Φ 0 := by
      have h' := hin0 (V1 m ρ) c
      unfold Pipeline.ΦA at h'
      exact h'
    iintro ⟨Hp, -, Hr⟩
    iapply h
    isplitl [Hr]; · iexact Hr
    iexact Hp
  hout c := by
    rw [Pipeline.ownSems0_none]
    have h : (pdats m ρ 0 c).Φ (Fin.last _) ⊢ iprop(Pipeline.scopedRest spec0 c ∗ ∃ r, prngReg c r) := by
      have h' := hout0 (V1 m ρ) c
      unfold Pipeline.ΦA at h'
      exact h'
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents. Its windows' arrays are split out of the unscoped buffers and put back at what the write-backs leave; the
    generator register and the scoped buffers go into the region's invariant before the first point and come back after
    the last; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec1 c ∗ ∃ r, prngReg c r) ⊢ (pdats m ρ 1 c).Φ 0 := by
      have h' := hin1 (V2 m ρ) c
      unfold Pipeline.ΦA at h'
      exact h'
    iintro ⟨Hp, -, Hr⟩
    iapply h
    isplitl [Hr]; · iexact Hr
    iexact Hp
  hout c := by
    rw [Pipeline.ownSems0_none]
    have h : (pdats m ρ 1 c).Φ (Fin.last _) ⊢ iprop(Pipeline.scopedRest spec1 c ∗ ∃ r, prngReg c r) := by
      have h' := hout1 (V2 m ρ) c
      unfold Pipeline.ΦA at h'
      exact h'
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (W0 m ρ) R),
    .region (reg0 m ρ),
    .region (reg1 m ρ) ]

theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## The frame claim's post, at any float instance -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c)⟩) (run_all m ρ)

end Cert.KernelIdeal.Fr

end
-- ==== Proof.Spec.lean ====
/-
  The LSTM cell's four results as functions of the argument arrays, entry by entry, on the extended reals.

  With x = [i | h] (a row of 5120 = 1024 + 4096 entries), each gate g in {f, i, c, o} has the pre-activation
      pre_g[r, n] = (sum over k < 5120 of x[r, k] * W_g[n, k]) + b_g[n],
  and
      it = sigma(pre_i),   ct = sigma(pre_f) * c + sigma(pre_i) * tanh(pre_c),   ht = sigma(pre_o) * tanh(ct),
      logit[r, n] = (sum over k < 4096 of ht[r, k] * Wout[n, k]) + bout[n],
      out[r, n] = (logit[r, n] - max_n' logit[r, n']) - log (sum over n' of exp (logit[r, n'] - max_n'' logit[r, n''])),
  the row maximum taken as the fold of max from -infinity, sigma the logistic function 1 / (1 + e^(-x)).
-/
import Idealize.ShloMosaic.PureOps.Ideal
import Idealize.ShloMosaic.Lib.ValueIdx

noncomputable section

namespace Cert.Spec

open Idealize.ShloMosaic Idealize.ShloMosaic.ValueIdx
open scoped BigOperators

abbrev T1024x1024 : Shape := ⟨2, ![1024, 1024]⟩
abbrev T1024x4096 : Shape := ⟨2, ![1024, 4096]⟩
abbrev T4096x5120 : Shape := ⟨2, ![4096, 5120]⟩
abbrev T4096x4096 : Shape := ⟨2, ![4096, 4096]⟩
abbrev T4096 : Shape := ⟨1, ![4096]⟩

/-- Entry k of row r of the concatenation [i | h]. -/
def xrow (i : T1024x1024.Idx → EReal) (h : T1024x4096.Idx → EReal) (r : Fin 1024) (k : Fin 5120) : EReal :=
  if hk : k.val < 1024 then i (ix2 r ⟨k.val, hk⟩) else h (ix2 r ⟨k.val - 1024, by omega⟩)

/-- A gate's pre-activation at (r, n): row r of [i | h] against row n of the gate's weight, plus the gate's bias at n. -/
def pre (i : T1024x1024.Idx → EReal) (h : T1024x4096.Idx → EReal) (W : T4096x5120.Idx → EReal) (b : T4096.Idx → EReal)
    (r : Fin 1024) (n : Fin 4096) : EReal :=
  (∑ k : Fin 5120, xrow i h r k * W (ix2 n k)) + b (ix1 n)

/-- The input gate. -/
def itAt (i : T1024x1024.Idx → EReal) (h : T1024x4096.Idx → EReal) (Wi : T4096x5120.Idx → EReal) (bi : T4096.Idx → EReal)
    (r : Fin 1024) (n : Fin 4096) : EReal :=
  Ideal.logistic (pre i h Wi bi r n)

/-- The new cell state. -/
def ctAt (i : T1024x1024.Idx → EReal) (h c : T1024x4096.Idx → EReal) (Wf : T4096x5120.Idx → EReal) (bf : T4096.Idx → EReal)
    (Wi : T4096x5120.Idx → EReal) (bi : T4096.Idx → EReal) (Wc : T4096x5120.Idx → EReal) (bc : T4096.Idx → EReal)
    (r : Fin 1024) (n : Fin 4096) : EReal :=
  Ideal.logistic (pre i h Wf bf r n) * c (ix2 r n) + Ideal.logistic (pre i h Wi bi r n) * Ideal.tanh (pre i h Wc bc r n)

/-- The new hidden state. -/
def htAt (i : T1024x1024.Idx → EReal) (h c : T1024x4096.Idx → EReal) (Wf : T4096x5120.Idx → EReal) (bf : T4096.Idx → EReal)
    (Wi : T4096x5120.Idx → EReal) (bi : T4096.Idx → EReal) (Wc : T4096x5120.Idx → EReal) (bc : T4096.Idx → EReal)
    (Wo : T4096x5120.Idx → EReal) (bo : T4096.Idx → EReal) (r : Fin 1024) (n : Fin 4096) : EReal :=
  Ideal.logistic (pre i h Wo bo r n) * Ideal.tanh (ctAt i h c Wf bf Wi bi Wc bc r n)

/-- The output layer's logit at (r, n), from a hidden state given entry by entry. -/
def logitAt (ht : Fin 1024 → Fin 4096 → EReal) (Wout : T4096x4096.Idx → EReal) (bout : T4096.Idx → EReal)
    (r : Fin 1024) (n : Fin 4096) : EReal :=
  (∑ k : Fin 4096, ht r k * Wout (ix2 n k)) + bout (ix1 n)

/-- A row's maximum: the fold of max from -infinity. -/
def rowMax (z : Fin 1024 → Fin 4096 → EReal) (r : Fin 1024) : EReal :=
  (Finset.univ : Finset (Fin 4096)).fold max ⊥ (z r)

/-- The log-softmax of a matrix of logits, along its rows. -/
def logSoftmaxAt (z : Fin 1024 → Fin 4096 → EReal) (r : Fin 1024) (n : Fin 4096) : EReal :=
  (z r n - rowMax z r) - Ideal.log (∑ n' : Fin 4096, Ideal.exp (z r n' - rowMax z r))

/-! The four results as arrays. -/

def itArr (i : T1024x1024.Idx → EReal) (h : T1024x4096.Idx → EReal) (Wi : T4096x5120.Idx → EReal) (bi : T4096.Idx → EReal) :
    T1024x4096.Idx → EReal := fun j => itAt i h Wi bi (j 0) (j 1)

def ctArr (i : T1024x1024.Idx → EReal) (h c : T1024x4096.Idx → EReal) (Wf : T4096x5120.Idx → EReal) (bf : T4096.Idx → EReal)
    (Wi : T4096x5120.Idx → EReal) (bi : T4096.Idx → EReal) (Wc : T4096x5120.Idx → EReal) (bc : T4096.Idx → EReal) :
    T1024x4096.Idx → EReal := fun j => ctAt i h c Wf bf Wi bi Wc bc (j 0) (j 1)

def htArr (i : T1024x1024.Idx → EReal) (h c : T1024x4096.Idx → EReal) (Wf : T4096x5120.Idx → EReal) (bf : T4096.Idx → EReal)
    (Wi : T4096x5120.Idx → EReal) (bi : T4096.Idx → EReal) (Wc : T4096x5120.Idx → EReal) (bc : T4096.Idx → EReal)
    (Wo : T4096x5120.Idx → EReal) (bo : T4096.Idx → EReal) : T1024x4096.Idx → EReal :=
  fun j => htAt i h c Wf bf Wi bi Wc bc Wo bo (j 0) (j 1)

/-- The output: the log-softmax of the logits of a hidden state GIVEN AS AN ARRAY (so that the second kernel's value
    is stated over whatever array the first one left). -/
def outOf (ht : T1024x4096.Idx → EReal) (Wout : T4096x4096.Idx → EReal) (bout : T4096.Idx → EReal) : T1024x4096.Idx → EReal :=
  fun j => logSoftmaxAt (logitAt (fun r k => ht (ix2 r k)) Wout bout) (j 0) (j 1)

end Cert.Spec

end
-- ==== Proof.SpecK.lean ====
/-
  The same four results stated over the arrays the two kernel regions are handed: the row x = [i | h] already
  concatenated (1024 x 5120), each bias as a one-row matrix (1 x 4096). These are what the regions' write-backs are
  proved to leave; the assembly identifies them with the specification over the thirteen arguments.
-/
import proofs.«145808_j60842506715793_1_alg».proof.Proof.Spec

noncomputable section

namespace Cert.Spec

open Idealize.ShloMosaic Idealize.ShloMosaic.ValueIdx
open scoped BigOperators

abbrev T1024x5120 : Shape := ⟨2, ![1024, 5120]⟩
abbrev T1x4096 : Shape := ⟨2, ![1, 4096]⟩

/-- A gate's pre-activation at (r, n) from the concatenated row and the one-row bias. -/
def preX (x : T1024x5120.Idx → EReal) (W : T4096x5120.Idx → EReal) (b : T1x4096.Idx → EReal) (r : Fin 1024) (n : Fin 4096) : EReal :=
  (∑ k : Fin 5120, x (ix2 r k) * W (ix2 n k)) + b (ix2 (0 : Fin 1) n)

/-- The input gate, as an array. -/
def itX (x : T1024x5120.Idx → EReal) (Wi : T4096x5120.Idx → EReal) (bi : T1x4096.Idx → EReal) : T1024x4096.Idx → EReal :=
  fun j => Ideal.logistic (preX x Wi bi (j 0) (j 1))

/-- The new cell state, as an array. -/
def ctX (x : T1024x5120.Idx → EReal) (c : T1024x4096.Idx → EReal) (Wf : T4096x5120.Idx → EReal) (bf : T1x4096.Idx → EReal)
    (Wi : T4096x5120.Idx → EReal) (bi : T1x4096.Idx → EReal) (Wc : T4096x5120.Idx → EReal) (bc : T1x4096.Idx → EReal) :
    T1024x4096.Idx → EReal :=
  fun j => Ideal.logistic (preX x Wf bf (j 0) (j 1)) * c (ix2 (j 0) (j 1))
    + Ideal.logistic (preX x Wi bi (j 0) (j 1)) * Ideal.tanh (preX x Wc bc (j 0) (j 1))

/-- The new hidden state, as an array. -/
def htX (x : T1024x5120.Idx → EReal) (c : T1024x4096.Idx → EReal) (Wf : T4096x5120.Idx → EReal) (bf : T1x4096.Idx → EReal)
    (Wi : T4096x5120.Idx → EReal) (bi : T1x4096.Idx → EReal) (Wc : T4096x5120.Idx → EReal) (bc : T1x4096.Idx → EReal)
    (Wo : T4096x5120.Idx → EReal) (bo : T1x4096.Idx → EReal) : T1024x4096.Idx → EReal :=
  fun j => Ideal.logistic (preX x Wo bo (j 0) (j 1)) * Ideal.tanh (ctX x c Wf bf Wi bi Wc bc j)

/-- The output layer's logit at (r, n) from a hidden-state array and the one-row bias. -/
def logitX (ht : T1024x4096.Idx → EReal) (Wout : T4096x4096.Idx → EReal) (b : T1x4096.Idx → EReal) (r : Fin 1024) (n : Fin 4096) : EReal :=
  (∑ k : Fin 4096, ht (ix2 r k) * Wout (ix2 n k)) + b (ix2 (0 : Fin 1) n)

/-- The output, as an array. -/
def outX (ht : T1024x4096.Idx → EReal) (Wout : T4096x4096.Idx → EReal) (b : T1x4096.Idx → EReal) : T1024x4096.Idx → EReal :=
  fun j => logSoftmaxAt (logitX ht Wout b) (j 0) (j 1)

end Cert.Spec

end
-- ==== Proof.KI.Host.lean ====
/-
  What the host lines before the gate region leave, and how the two specifications meet.

  The first host line joins i and h into the row x = [i | h]; the next five reshape each bias vector (4096) into a
  one-row matrix (1 x 4096). Read at an entry, the joined row is i left of column 1024 and h from there on, and a
  reshaped bias at (0, n) is the vector at n. So the gate pre-activations, the three gate results and the output stated
  over (x, one-row biases) are those stated over the thirteen arguments.
-/
import proofs.«145808_j60842506715793_1_alg».proof.Proof.KI.Launch
import proofs.«145808_j60842506715793_1_alg».proof.Proof.SpecK
import Idealize.ShloMosaic.Lib.Pipeline.Value
import Idealize.ShloMosaic.Lib.ValueIdx
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The joined row and the one-row biases, read at an entry (any element type) -/

section
variable {α : Type}

theorem joined_left (x0 : S1024x1024.Idx → α) (x1 : S1024x4096.Idx → α) (r : Fin 1024) (k : Fin 5120) (hk : k.val < 1024) :
    concatenate S1024x5120 1 [⟨S1024x1024, x0⟩, ⟨S1024x4096, x1⟩] concatenates_S1024x1024_S1024x4096_S1024x5120_d1 (ix2 r k)
      = x0 (ix2 r ⟨k.val, hk⟩) :=
  concatenate_pair_apply_left 1 x0 x1 _ (ix2 r k) rfl (ix2 r ⟨k.val, hk⟩) (fun b => match b with
    | ⟨0, _⟩ => rfl
    | ⟨1, _⟩ => rfl)

theorem joined_right (x0 : S1024x1024.Idx → α) (x1 : S1024x4096.Idx → α) (r : Fin 1024) (k : Fin 5120) (hk : ¬ k.val < 1024) :
    concatenate S1024x5120 1 [⟨S1024x1024, x0⟩, ⟨S1024x4096, x1⟩] concatenates_S1024x1024_S1024x4096_S1024x5120_d1 (ix2 r k)
      = x1 (ix2 r ⟨k.val - 1024, by have := k.isLt; omega⟩) :=
  concatenate_pair_apply_right 1 x0 x1 _ (ix2 r k) rfl rfl (ix2 r ⟨k.val - 1024, by have := k.isLt; omega⟩)
    (fun b => match b with
      | ⟨0, _⟩ => fun _ => rfl
      | ⟨1, _⟩ => fun h => absurd rfl h) (by show k.val - 1024 + 1024 = k.val; omega)

/-- A bias reshaped to one row, at (0, n), is the bias at n. -/
theorem oneRow_apply (b : S4096.Idx → α) (n : Fin 4096) :
    shapeCast S1x4096 b shapeCasts_S4096_S1x4096 (ix2 (0 : Fin 1) n) = b (ix1 n) :=
  shapeCast_apply b _ (ix2 (0 : Fin 1) n) (ix1 n) (by
    rw [Shape.rowMajor_val_one, Shape.rowMajor_val_two]; simp [ix1, ix2])

end

/-! ## The two specifications meet -/

section
variable (i : Cert.Spec.T1024x1024.Idx → EReal) (h : Cert.Spec.T1024x4096.Idx → EReal)

/-- The joined row is the specification's row. -/
theorem joined_eq_xrow (r : Fin 1024) (k : Fin 5120) :
    concatenate S1024x5120 1 [⟨S1024x1024, i⟩, ⟨S1024x4096, h⟩] concatenates_S1024x1024_S1024x4096_S1024x5120_d1 (ix2 r k)
      = Cert.Spec.xrow i h r k := by
  unfold Cert.Spec.xrow
  by_cases hk : k.val < 1024
  · rw [dif_pos hk]; exact joined_left i h r k hk
  · rw [dif_neg hk]; exact joined_right i h r k hk

/-- A gate's pre-activation over (the joined row, the one-row bias) is the one over the arguments. -/
theorem preX_eq_pre (W : Cert.Spec.T4096x5120.Idx → EReal) (b : Cert.Spec.T4096.Idx → EReal) (r : Fin 1024) (n : Fin 4096) :
    Cert.Spec.preX (concatenate S1024x5120 1 [⟨S1024x1024, i⟩, ⟨S1024x4096, h⟩] concatenates_S1024x1024_S1024x4096_S1024x5120_d1)
        W (shapeCast S1x4096 b shapeCasts_S4096_S1x4096) r n
      = Cert.Spec.pre i h W b r n := by
  unfold Cert.Spec.preX Cert.Spec.pre
  rw [oneRow_apply]
  exact congrArg (· + b (ix1 n)) (Finset.sum_congr rfl fun k _ => by rw [joined_eq_xrow])

end

/-! ## The arrays -/

section
variable (i : Cert.Spec.T1024x1024.Idx → EReal) (h c : Cert.Spec.T1024x4096.Idx → EReal)
variable (Wf Wi Wc Wo : Cert.Spec.T4096x5120.Idx → EReal) (bf bi bc bo : Cert.Spec.T4096.Idx → EReal)

/-- The joined row [i | h] as the host line makes it. -/
abbrev joinedRow (i : Cert.Spec.T1024x1024.Idx → EReal) (h : Cert.Spec.T1024x4096.Idx → EReal) : Cert.Spec.T1024x5120.Idx → EReal :=
  concatenate S1024x5120 1 [⟨S1024x1024, i⟩, ⟨S1024x4096, h⟩] concatenates_S1024x1024_S1024x4096_S1024x5120_d1
/-- A bias as the one-row matrix the host line makes of it. -/
abbrev oneRow (b : Cert.Spec.T4096.Idx → EReal) : Cert.Spec.T1x4096.Idx → EReal :=
  shapeCast S1x4096 b shapeCasts_S4096_S1x4096

theorem itX_eq : Cert.Spec.itX (joinedRow i h) Wi (oneRow bi) = Cert.Spec.itArr i h Wi bi := by
  funext j
  have e := preX_eq_pre i h Wi bi (j 0) (j 1)
  unfold Cert.Spec.itX Cert.Spec.itArr Cert.Spec.itAt
  rw [e]

theorem ctX_eq : Cert.Spec.ctX (joinedRow i h) c Wf (oneRow bf) Wi (oneRow bi) Wc (oneRow bc) = Cert.Spec.ctArr i h c Wf bf Wi bi Wc bc := by
  funext j
  have e1 := preX_eq_pre i h Wf bf (j 0) (j 1)
  have e2 := preX_eq_pre i h Wi bi (j 0) (j 1)
  have e3 := preX_eq_pre i h Wc bc (j 0) (j 1)
  unfold Cert.Spec.ctX Cert.Spec.ctArr Cert.Spec.ctAt
  rw [e1, e2, e3]

theorem htX_eq : Cert.Spec.htX (joinedRow i h) c Wf (oneRow bf) Wi (oneRow bi) Wc (oneRow bc) Wo (oneRow bo) = Cert.Spec.htArr i h c Wf bf Wi bi Wc bc Wo bo := by
  funext j
  have e4 := preX_eq_pre i h Wo bo (j 0) (j 1)
  have ec := congrFun (ctX_eq i h c Wf Wi Wc bf bi bc) j
  unfold Cert.Spec.htX Cert.Spec.htArr Cert.Spec.htAt
  rw [e4, ec]
  rfl

/-- The output over a one-row bias is the output over the bias vector. -/
theorem outX_eq (ht : Cert.Spec.T1024x4096.Idx → EReal) (Wout : Cert.Spec.T4096x4096.Idx → EReal) (bout : Cert.Spec.T4096.Idx → EReal) :
    Cert.Spec.outX ht Wout (oneRow bout) = Cert.Spec.outOf ht Wout bout := by
  funext j
  unfold Cert.Spec.outX Cert.Spec.outOf
  refine congrArg (fun z => Cert.Spec.logSoftmaxAt z (j 0) (j 1)) ?_
  funext r n
  unfold Cert.Spec.logitX Cert.Spec.logitAt
  rw [show oneRow bout (ix2 (0 : Fin 1) n) = bout (ix1 n) from oneRow_apply bout n]

end

/-! ## What the regions are entered with -/

section
variable {F : FTy → Type} [FloatOps F]
variable (m : (ℓ : Loc nD τ sig) → Buf (Elt F) ℓ) (ρ : Dev nD → PrngReg)

/-- The gate region finds the joined row at `main_v0`. -/
theorem V1_v0 (c : Dev nD) : V1 m ρ c main_v0
    = concatenate S1024x5120 1 [⟨S1024x1024, m ((c : Thread nD τ).loc main_arg0)⟩, ⟨S1024x4096, m ((c : Thread nD τ).loc main_arg1)⟩] concatenates_S1024x1024_S1024x4096_S1024x5120_d1 := by
  show StableHlo.after hostOps0 (W0 m ρ c) (Proc.devRef .tc main_v0) = _
  after_results <;> rfl

/-- … and the bias `main_arg4` as one row at `main_v1`. -/
theorem V1_v1 (c : Dev nD) : V1 m ρ c main_v1 = shapeCast S1x4096 (m ((c : Thread nD τ).loc main_arg4)) shapeCasts_S4096_S1x4096 := by
  show StableHlo.after hostOps0 (W0 m ρ c) (Proc.devRef .tc main_v1) = _
  after_results <;> rfl

/-- … and the bias `main_arg6` as one row at `main_v2`. -/
theorem V1_v2 (c : Dev nD) : V1 m ρ c main_v2 = shapeCast S1x4096 (m ((c : Thread nD τ).loc main_arg6)) shapeCasts_S4096_S1x4096 := by
  show StableHlo.after hostOps0 (W0 m ρ c) (Proc.devRef .tc main_v2) = _
  after_results <;> rfl

/-- … and the bias `main_arg8` as one row at `main_v3`. -/
theorem V1_v3 (c : Dev nD) : V1 m ρ c main_v3 = shapeCast S1x4096 (m ((c : Thread nD τ).loc main_arg8)) shapeCasts_S4096_S1x4096 := by
  show StableHlo.after hostOps0 (W0 m ρ c) (Proc.devRef .tc main_v3) = _
  after_results <;> rfl

/-- … and the bias `main_arg10` as one row at `main_v4`. -/
theorem V1_v4 (c : Dev nD) : V1 m ρ c main_v4 = shapeCast S1x4096 (m ((c : Thread nD τ).loc main_arg10)) shapeCasts_S4096_S1x4096 := by
  show StableHlo.after hostOps0 (W0 m ρ c) (Proc.devRef .tc main_v4) = _
  after_results <;> rfl

/-- … and the bias `main_arg12` as one row at `main_v5`. -/
theorem V1_v5 (c : Dev nD) : V1 m ρ c main_v5 = shapeCast S1x4096 (m ((c : Thread nD τ).loc main_arg12)) shapeCasts_S4096_S1x4096 := by
  show StableHlo.after hostOps0 (W0 m ρ c) (Proc.devRef .tc main_v5) = _
  after_results <;> rfl

/-- The host lines leave `main_arg2` as launched. -/
theorem V1_arg2 (c : Dev nD) : V1 m ρ c main_arg2 = m ((c : Thread nD τ).loc main_arg2) := by
  show StableHlo.after hostOps0 (W0 m ρ c) (Proc.devRef .tc main_arg2) = _
  after_results <;> rfl

/-- The host lines leave `main_arg3` as launched. -/
theorem V1_arg3 (c : Dev nD) : V1 m ρ c main_arg3 = m ((c : Thread nD τ).loc main_arg3) := by
  show StableHlo.after hostOps0 (W0 m ρ c) (Proc.devRef .tc main_arg3) = _
  after_results <;> rfl

/-- The host lines leave `main_arg5` as launched. -/
theorem V1_arg5 (c : Dev nD) : V1 m ρ c main_arg5 = m ((c : Thread nD τ).loc main_arg5) := by
  show StableHlo.after hostOps0 (W0 m ρ c) (Proc.devRef .tc main_arg5) = _
  after_results <;> rfl

/-- The host lines leave `main_arg7` as launched. -/
theorem V1_arg7 (c : Dev nD) : V1 m ρ c main_arg7 = m ((c : Thread nD τ).loc main_arg7) := by
  show StableHlo.after hostOps0 (W0 m ρ c) (Proc.devRef .tc main_arg7) = _
  after_results <;> rfl

/-- The host lines leave `main_arg9` as launched. -/
theorem V1_arg9 (c : Dev nD) : V1 m ρ c main_arg9 = m ((c : Thread nD τ).loc main_arg9) := by
  show StableHlo.after hostOps0 (W0 m ρ c) (Proc.devRef .tc main_arg9) = _
  after_results <;> rfl

/-- The host lines leave `main_arg11` as launched. -/
theorem V1_arg11 (c : Dev nD) : V1 m ρ c main_arg11 = m ((c : Thread nD τ).loc main_arg11) := by
  show StableHlo.after hostOps0 (W0 m ρ c) (Proc.devRef .tc main_arg11) = _
  after_results <;> rfl

/-- The output region finds `Wout` as launched, -/
theorem V2_arg11 (c : Dev nD) : V2 m ρ c main_arg11 = m ((c : Thread nD τ).loc main_arg11) :=
  (W2_of_ne m ρ c main_arg11 (by decide)).trans (V1_arg11 m ρ c)
/-- the output bias as one row, -/
theorem V2_v5 (c : Dev nD) : V2 m ρ c main_v5 = shapeCast S1x4096 (m ((c : Thread nD τ).loc main_arg12)) shapeCasts_S4096_S1x4096 :=
  (W2_of_ne m ρ c main_v5 (by decide)).trans (V1_v5 m ρ c)
/-- and the hidden state the gate region's write-backs left. -/
theorem V2_v6_1 (c : Dev nD) : V2 m ρ c main_v6_1 = (dat0 (V1 m ρ) c).arrAt 11 cfg0.N := W2_arr m ρ c 11

end

end Cert.KernelIdeal.Fr

end
-- ==== Proof.KI.R0Pieces.lean ====
import proofs.«145808_j60842506715793_1_alg».proof.Proof.KI.R0Data
import Idealize.ShloMosaic.Lib.Pipeline.Value

/-!
# What each step of the gate kernel leaves, as the kernel's arithmetic of the step's loads

A first reduction step leaves in each accumulator the gate's update applied to the zero block (the reset is stored,
then read back by the update); a middle or last step leaves the update applied to what the step before left; the
last step moreover leaves in the three result buffers the input gate, the hidden state and the cell state formed from
the four accumulators AS THIS STEP UPDATED THEM, the four bias rows and the old cell state's block.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]

/-- A block's origin. -/
theorem origin2 : (![0, 0] : Fin 2 → Nat) = fun _ => 0 := funext fun a => by fin_cases a <;> rfl

/-! ## A first step -/

/-- The forget gate's accumulator after a first step. -/
theorem sout0_A_0_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 = k0_pay12 x0 x1 (k0_pay6 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)]
  unfold kernelRun0_A
  dsimp only
  sl_unfold_words
  rw [View.canon_cons_unit_zero (S := S256x512) origin2, View.readCov_unit_zero (S := S256x512) _ origin2]
  simp only [View.readAt_eq_ld, harg3.read_unread, harg4.read_unread, harg5.read_unread, harg6.read_unread, harg7.read_unread, View.ld_unit_zero (S := S256x1024) origin2, View.ld_unit_zero (S := S512x1024) origin2, View.ld_unit_zero (S := S256x512) origin2, View.readCov_unit_zero (S := S256x512) _ origin2]

/-- The input gate's accumulator after a first step. -/
theorem sout0_A_1_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 = k0_pay13 x0 x2 (k0_pay7 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)]
  unfold kernelRun0_A
  dsimp only
  sl_unfold_words
  rw [View.canon_cons_unit_zero (S := S256x512) origin2, View.readCov_unit_zero (S := S256x512) _ origin2]
  simp only [View.readAt_eq_ld, harg3.read_unread, harg4.read_unread, harg5.read_unread, harg6.read_unread, harg7.read_unread, View.ld_unit_zero (S := S256x1024) origin2, View.ld_unit_zero (S := S512x1024) origin2, View.ld_unit_zero (S := S256x512) origin2, View.readCov_unit_zero (S := S256x512) _ origin2]

/-- The cell gate's accumulator after a first step. -/
theorem sout0_A_2_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 = k0_pay1 (k0_pay14 x0 x3 (k0_pay8 (F := F))) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)]
  unfold kernelRun0_A
  dsimp only
  sl_unfold_words
  rw [View.canon_cons_unit_zero (S := S256x512) origin2, View.readCov_unit_zero (S := S256x512) _ origin2]
  simp only [View.readAt_eq_ld, harg3.read_unread, harg4.read_unread, harg5.read_unread, harg6.read_unread, harg7.read_unread, View.ld_unit_zero (S := S256x1024) origin2, View.ld_unit_zero (S := S512x1024) origin2, View.ld_unit_zero (S := S256x512) origin2, View.readCov_unit_zero (S := S256x512) _ origin2]

/-- The output gate's accumulator after a first step. -/
theorem sout0_A_3_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 = k0_pay2 (k0_pay10 x0) (k0_pay11 x4) (k0_pay9 (F := F)) := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)]
  unfold kernelRun0_A
  dsimp only
  sl_unfold_words
  rw [View.canon_cons_unit_zero (S := S256x512) origin2, View.readCov_unit_zero (S := S256x512) _ origin2]
  simp only [View.readAt_eq_ld, harg3.read_unread, harg4.read_unread, harg5.read_unread, harg6.read_unread, harg7.read_unread, View.ld_unit_zero (S := S256x1024) origin2, View.ld_unit_zero (S := S512x1024) origin2, View.ld_unit_zero (S := S256x512) origin2, View.readCov_unit_zero (S := S256x512) _ origin2]

/-! ## A middle step -/

/-- The forget gate's accumulator after a middle step. -/
theorem sout0_B_0_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay12 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_B
  dsimp only
  sl_unfold_words
  rw [View.canon_unit_zero origin2]
  simp only [View.readAt_eq_ld, harg3.read_unread, harg4.read_unread, harg5.read_unread, harg6.read_unread, harg7.read_unread, harg16.read_unread, harg17.read_unread, harg18.read_unread, harg19.read_unread, View.ld_unit_zero (S := S256x1024) origin2, View.ld_unit_zero (S := S512x1024) origin2, View.ld_unit_zero (S := S256x512) origin2]

/-- The input gate's accumulator after a middle step. -/
theorem sout0_B_1_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay13 x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_B
  dsimp only
  sl_unfold_words
  rw [View.canon_unit_zero origin2]
  simp only [View.readAt_eq_ld, harg3.read_unread, harg4.read_unread, harg5.read_unread, harg6.read_unread, harg7.read_unread, harg16.read_unread, harg17.read_unread, harg18.read_unread, harg19.read_unread, View.ld_unit_zero (S := S256x1024) origin2, View.ld_unit_zero (S := S512x1024) origin2, View.ld_unit_zero (S := S256x512) origin2]

/-- The cell gate's accumulator after a middle step. -/
theorem sout0_B_2_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay1 (k0_pay14 x0 x3 xs2) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_B
  dsimp only
  sl_unfold_words
  rw [View.canon_unit_zero origin2]
  simp only [View.readAt_eq_ld, harg3.read_unread, harg4.read_unread, harg5.read_unread, harg6.read_unread, harg7.read_unread, harg16.read_unread, harg17.read_unread, harg18.read_unread, harg19.read_unread, View.ld_unit_zero (S := S256x1024) origin2, View.ld_unit_zero (S := S512x1024) origin2, View.ld_unit_zero (S := S256x512) origin2]

/-- The output gate's accumulator after a middle step. -/
theorem sout0_B_3_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : ¬cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay2 (k0_pay10 x0) (k0_pay11 x4) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_B
  dsimp only
  sl_unfold_words
  rw [View.canon_unit_zero origin2]
  simp only [View.readAt_eq_ld, harg3.read_unread, harg4.read_unread, harg5.read_unread, harg6.read_unread, harg7.read_unread, harg16.read_unread, harg17.read_unread, harg18.read_unread, harg19.read_unread, View.ld_unit_zero (S := S256x1024) origin2, View.ld_unit_zero (S := S512x1024) origin2, View.ld_unit_zero (S := S256x512) origin2]

/-! ## The last step -/

/-- The forget gate's accumulator after the last step. -/
theorem sout0_C_0_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay12 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  sl_unfold_words
  rw [View.canon_unit_zero origin2]
  simp only [View.readAt_eq_ld, harg3.read_unread, harg4.read_unread, harg5.read_unread, harg6.read_unread, harg7.read_unread, harg16.read_unread, harg17.read_unread, harg18.read_unread, harg19.read_unread, View.ld_unit_zero (S := S256x1024) origin2, View.ld_unit_zero (S := S512x1024) origin2, View.ld_unit_zero (S := S256x512) origin2]

/-- The input gate's accumulator after the last step. -/
theorem sout0_C_1_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay13 x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  sl_unfold_words
  rw [View.canon_unit_zero origin2]
  simp only [View.readAt_eq_ld, harg3.read_unread, harg4.read_unread, harg5.read_unread, harg6.read_unread, harg7.read_unread, harg16.read_unread, harg17.read_unread, harg18.read_unread, harg19.read_unread, View.ld_unit_zero (S := S256x1024) origin2, View.ld_unit_zero (S := S512x1024) origin2, View.ld_unit_zero (S := S256x512) origin2]

/-- The cell gate's accumulator after the last step. -/
theorem sout0_C_2_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay1 (k0_pay14 x0 x3 xs2) := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  sl_unfold_words
  rw [View.canon_unit_zero origin2]
  simp only [View.readAt_eq_ld, harg3.read_unread, harg4.read_unread, harg5.read_unread, harg6.read_unread, harg7.read_unread, harg16.read_unread, harg17.read_unread, harg18.read_unread, harg19.read_unread, View.ld_unit_zero (S := S256x1024) origin2, View.ld_unit_zero (S := S512x1024) origin2, View.ld_unit_zero (S := S256x512) origin2]

/-- The output gate's accumulator after the last step. -/
theorem sout0_C_3_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay2 (k0_pay10 x0) (k0_pay11 x4) xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  sl_unfold_words
  rw [View.canon_unit_zero origin2]
  simp only [View.readAt_eq_ld, harg3.read_unread, harg4.read_unread, harg5.read_unread, harg6.read_unread, harg7.read_unread, harg16.read_unread, harg17.read_unread, harg18.read_unread, harg19.read_unread, View.ld_unit_zero (S := S256x1024) origin2, View.ld_unit_zero (S := S512x1024) origin2, View.ld_unit_zero (S := S256x512) origin2]

/-- The input gate's block as the last step stores it. -/
theorem out0_C_10_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay3 (k0_pay13 x0 x2 xs1) x6 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  sl_unfold_words
  rw [View.canon_unit_zero origin2]
  simp only [View.readAt_eq_ld, harg3.read_unread, harg4.read_unread, harg5.read_unread, harg6.read_unread, harg7.read_unread, harg8.read_unread, harg9.read_unread, harg10.read_unread, harg11.read_unread, harg12.read_unread, harg16.read_unread, harg17.read_unread, harg18.read_unread, harg19.read_unread, View.ld_unit_zero (S := S256x1024) origin2, View.ld_unit_zero (S := S512x1024) origin2, View.ld_unit_zero (S := S256x512) origin2, View.ld_unit_zero (S := S1x512) origin2, View.readCov_unit_zero (S := S256x512) _ origin2]

/-- The hidden state's block as the last step stores it. -/
theorem out0_C_11_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay5 (k0_pay12 x0 x1 xs0) x5 (k0_pay13 x0 x2 xs1) x6 (k0_pay1 (k0_pay14 x0 x3 xs2)) x7 (k0_pay2 (k0_pay10 x0) (k0_pay11 x4) xs3) x8 x9 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  sl_unfold_words
  rw [View.canon_unit_zero origin2]
  simp only [View.readAt_eq_ld, harg3.read_unread, harg4.read_unread, harg5.read_unread, harg6.read_unread, harg7.read_unread, harg8.read_unread, harg9.read_unread, harg10.read_unread, harg11.read_unread, harg12.read_unread, harg16.read_unread, harg17.read_unread, harg18.read_unread, harg19.read_unread, View.ld_unit_zero (S := S256x1024) origin2, View.ld_unit_zero (S := S512x1024) origin2, View.ld_unit_zero (S := S256x512) origin2, View.ld_unit_zero (S := S1x512) origin2, View.readCov_unit_zero (S := S256x512) _ origin2]

/-- The cell state's block as the last step stores it. -/
theorem out0_C_12_eq (c : Dev nD) (i : grid0.Coords) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (hc0 : ¬cond0_0 i) (hc1 : cond0_1 i)
    (x0 : Vec F S256x1024 .f32) (x1 : Vec F S512x1024 .f32) (x2 : Vec F S512x1024 .f32) (x3 : Vec F S512x1024 .f32) (x4 : Vec F S512x1024 .f32) (x5 : Vec F S1x512 .f32) (x6 : Vec F S1x512 .f32) (x7 : Vec F S1x512 .f32) (x8 : Vec F S1x512 .f32) (x9 : Vec F S256x512 .f32) (xs0 : Vec F S256x512 .f32) (xs1 : Vec F S256x512 .f32) (xs2 : Vec F S256x512 .f32) (xs3 : Vec F S256x512 .f32) :
    out0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3 = k0_pay4 (k0_pay12 x0 x1 xs0) x5 (k0_pay13 x0 x2 xs1) x6 (k0_pay1 (k0_pay14 x0 x3 xs2)) x7 x9 := by
  unfold out0_C_12
  rw [View.read_writes_eq_canon _ _ _ (cover0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xs0 xs1 xs2 xs3)]
  unfold kernelRun0_C
  dsimp only
  sl_unfold_words
  rw [View.canon_unit_zero origin2]
  simp only [View.readAt_eq_ld, harg3.read_unread, harg4.read_unread, harg5.read_unread, harg6.read_unread, harg7.read_unread, harg8.read_unread, harg9.read_unread, harg10.read_unread, harg11.read_unread, harg12.read_unread, harg16.read_unread, harg17.read_unread, harg18.read_unread, harg19.read_unread, View.ld_unit_zero (S := S256x1024) origin2, View.ld_unit_zero (S := S512x1024) origin2, View.ld_unit_zero (S := S256x512) origin2, View.ld_unit_zero (S := S1x512) origin2, View.readCov_unit_zero (S := S256x512) _ origin2]

end Cert.KernelIdeal.Fr

end
-- ==== Proof.KI.R0Pay.lean ====
import proofs.«145808_j60842506715793_1_alg».proof.Proof.Gen.KernelIdeal.Skeleton
import Idealize.ShloMosaic.Lib.Pipeline.Value
import Idealize.ShloMosaic.Lib.ValueIdx
import Idealize.ShloMosaic.PureOps.Ideal.Laws

/-!
# The gate kernel's arithmetic, entry by entry, on the extended reals

Each value the gate kernel stores is read here at an entry (p, q) of its 256 x 512 block, as a function of the entries
of the blocks it was computed from. On the extended reals the narrowing of an operand to sixteen bits is the identity
and every operation is exact, so:

* a reset stores 0;
* a reduction step adds to the accumulator's entry the sum over kk < 1024 of x[p, kk] * w[q, kk] (the product of the
  x block with the transposed weight block, accumulated into a zero matrix and then added);
* the last step forms, with a = accumulator + bias row, the input gate sigma(a_i), the cell state
  sigma(a_f) * c + sigma(a_i) * tanh(a_c), and the hidden state sigma(a_o) * tanh(cell state).
-/

noncomputable section

namespace Cert.KernelIdeal.Fr

open Cert.KernelIdeal Cert.KernelIdeal.Gen
open Idealize.ShloMosaic Idealize.ShloMosaic.ValueIdx
open scoped BigOperators

/-! ## The product's index maps -/

/-- The left operand's row is the output's row. -/
theorem gateDot_lhs_0 (j : S256x512.Idx) (k : dot_S256x1024_S512x1024_S256x512_1_1_0_0_n_n.contr.Idx) :
    (dot_S256x1024_S512x1024_S256x512_1_1_0_0_n_n.lhsIdx j k 0).val = (j 0).val := by
  unfold DotDims.lhsIdx
  rw [dif_neg (show ¬(0 : Fin S256x1024.rank) ∈ dot_S256x1024_S512x1024_S256x512_1_1_0_0_n_n.lhsBatch by decide), dif_pos (show (0 : Fin S256x1024.rank) ∈ dot_S256x1024_S512x1024_S256x512_1_1_0_0_n_n.lhsNonContracting by decide)]
  rfl
/-- The left operand's column is the contracted position. -/
theorem gateDot_lhs_1 (j : S256x512.Idx) (k : dot_S256x1024_S512x1024_S256x512_1_1_0_0_n_n.contr.Idx) :
    (dot_S256x1024_S512x1024_S256x512_1_1_0_0_n_n.lhsIdx j k 1).val = (k ⟨0, by decide⟩).val :=
  dot_S256x1024_S512x1024_S256x512_1_1_0_0_n_n.lhsIdx_val_of_single rfl j k
/-- The right operand's row is the output's column: the weight block enters transposed. -/
theorem gateDot_rhs_0 (j : S256x512.Idx) (k : dot_S256x1024_S512x1024_S256x512_1_1_0_0_n_n.contr.Idx) :
    (dot_S256x1024_S512x1024_S256x512_1_1_0_0_n_n.rhsIdx j k 0).val = (j 1).val := by
  unfold DotDims.rhsIdx
  rw [dif_neg (show ¬(0 : Fin S512x1024.rank) ∈ dot_S256x1024_S512x1024_S256x512_1_1_0_0_n_n.rhsBatch by decide), dif_pos (show (0 : Fin S512x1024.rank) ∈ dot_S256x1024_S512x1024_S256x512_1_1_0_0_n_n.rhsNonContracting by decide)]
  rfl
/-- The right operand's column is the contracted position. -/
theorem gateDot_rhs_1 (j : S256x512.Idx) (k : dot_S256x1024_S512x1024_S256x512_1_1_0_0_n_n.contr.Idx) :
    (dot_S256x1024_S512x1024_S256x512_1_1_0_0_n_n.rhsIdx j k 1).val = (k ⟨0, by decide⟩).val :=
  dot_S256x1024_S512x1024_S256x512_1_1_0_0_n_n.rhsIdx_val_of_single rfl j k

/-- The product into a zero matrix, at (p, q): the sum over the 1024 contracted positions of x[p, kk] * w[q, kk]. -/
theorem gateProduct_apply (x : FVec Ideal S256x1024 .bf16) (w : FVec Ideal S512x1024 .bf16) (p : Fin 256) (q : Fin 512) :
    matmul (F := Ideal) dot_S256x1024_S512x1024_S256x512_1_1_0_0_n_n none x w (constant S256x512 .f32 0x00000000#32) (ix2 p q)
      = ∑ kk : Fin 1024, x (ix2 p kk) * w (ix2 q kk) := by
  simp only [matmul]
  rw [Ideal.matmul_constant_zero_apply, ← Equiv.sum_comp (contrEquiv1 dot_S256x1024_S512x1024_S256x512_1_1_0_0_n_n 1024 rfl rfl).symm]
  refine Finset.sum_congr rfl fun kk _ => ?_
  have hk := contrEquiv1_symm_val dot_S256x1024_S512x1024_S256x512_1_1_0_0_n_n 1024 rfl rfl kk
  have el : dot_S256x1024_S512x1024_S256x512_1_1_0_0_n_n.lhsIdx (ix2 p q) ((contrEquiv1 dot_S256x1024_S512x1024_S256x512_1_1_0_0_n_n 1024 rfl rfl).symm kk) = ix2 p kk := funext fun a => Fin.ext (by
    match a with
    | ⟨0, _⟩ => exact gateDot_lhs_0 _ _
    | ⟨1, _⟩ => exact (gateDot_lhs_1 _ _).trans hk)
  have er : dot_S256x1024_S512x1024_S256x512_1_1_0_0_n_n.rhsIdx (ix2 p q) ((contrEquiv1 dot_S256x1024_S512x1024_S256x512_1_1_0_0_n_n 1024 rfl rfl).symm kk) = ix2 q kk := funext fun a => Fin.ext (by
    match a with
    | ⟨0, _⟩ => exact gateDot_rhs_0 _ _
    | ⟨1, _⟩ => exact (gateDot_rhs_1 _ _).trans hk)
  rw [el, er]

/-! ## The resets -/

theorem pay6_apply (p : Fin 256) (q : Fin 512) : k0_pay6 (F := Ideal) (ix2 p q) = 0 := by
  unfold k0_pay6
  rw [shapeCast_self]
  exact Ideal.ofBits_zero_f32
theorem pay7_apply (p : Fin 256) (q : Fin 512) : k0_pay7 (F := Ideal) (ix2 p q) = 0 := by
  unfold k0_pay7
  rw [shapeCast_self]
  exact Ideal.ofBits_zero_f32
theorem pay8_apply (p : Fin 256) (q : Fin 512) : k0_pay8 (F := Ideal) (ix2 p q) = 0 := by
  unfold k0_pay8
  rw [shapeCast_self]
  exact Ideal.ofBits_zero_f32
theorem pay9_apply (p : Fin 256) (q : Fin 512) : k0_pay9 (F := Ideal) (ix2 p q) = 0 := by
  unfold k0_pay9
  rw [shapeCast_self]
  exact Ideal.ofBits_zero_f32

/-! ## The reduction steps -/

/-- The x block narrowed for the products is the x block. -/
theorem pay10_eq (x : Vec Ideal S256x1024 .f32) : k0_pay10 (F := Ideal) x = x := by
  unfold k0_pay10
  rw [shapeCast_self]
  rfl
/-- A weight block narrowed for the products is the weight block. -/
theorem pay11_eq (w : Vec Ideal S512x1024 .f32) : k0_pay11 (F := Ideal) w = w := rfl

/-- The forget gate's accumulator after a step. -/
theorem pay12_apply (x : Vec Ideal S256x1024 .f32) (w : Vec Ideal S512x1024 .f32) (acc : Vec Ideal S256x512 .f32) (p : Fin 256) (q : Fin 512) :
    k0_pay12 (F := Ideal) x w acc (ix2 p q) = acc (ix2 p q) + ∑ kk : Fin 1024, x (ix2 p kk) * w (ix2 q kk) := by
  unfold k0_pay12
  rw [shapeCast_self, pay10_eq]
  exact congrArg (acc (ix2 p q) + ·) (gateProduct_apply x w p q)
/-- The input gate's accumulator after a step. -/
theorem pay13_apply (x : Vec Ideal S256x1024 .f32) (w : Vec Ideal S512x1024 .f32) (acc : Vec Ideal S256x512 .f32) (p : Fin 256) (q : Fin 512) :
    k0_pay13 (F := Ideal) x w acc (ix2 p q) = acc (ix2 p q) + ∑ kk : Fin 1024, x (ix2 p kk) * w (ix2 q kk) := by
  unfold k0_pay13
  rw [shapeCast_self, pay10_eq]
  exact congrArg (acc (ix2 p q) + ·) (gateProduct_apply x w p q)
/-- The cell gate's accumulator after a step. -/
theorem pay14_apply (x : Vec Ideal S256x1024 .f32) (w : Vec Ideal S512x1024 .f32) (acc : Vec Ideal S256x512 .f32) (p : Fin 256) (q : Fin 512) :
    k0_pay14 (F := Ideal) x w acc (ix2 p q) = acc (ix2 p q) + ∑ kk : Fin 1024, x (ix2 p kk) * w (ix2 q kk) := by
  unfold k0_pay14
  rw [pay10_eq]
  exact congrArg (acc (ix2 p q) + ·) (gateProduct_apply x w p q)
/-- What is stored into the cell gate's accumulator is that value. -/
theorem pay1_eq (v : FVec Ideal S256x512 .f32) : k0_pay1 (F := Ideal) v = v := by
  unfold k0_pay1
  rw [shapeCast_self]
/-- The output gate's accumulator after a step, from the narrowed blocks the step hands on. -/
theorem pay2_apply (x : Vec Ideal S256x1024 .f32) (w : Vec Ideal S512x1024 .f32) (acc : Vec Ideal S256x512 .f32) (p : Fin 256) (q : Fin 512) :
    k0_pay2 (F := Ideal) (k0_pay10 (F := Ideal) x) (k0_pay11 (F := Ideal) w) acc (ix2 p q) = acc (ix2 p q) + ∑ kk : Fin 1024, x (ix2 p kk) * w (ix2 q kk) := by
  unfold k0_pay2
  rw [shapeCast_self, pay10_eq, pay11_eq]
  exact congrArg (acc (ix2 p q) + ·) (gateProduct_apply x w p q)

/-! ## The gates -/

/-- A bias row spread over the block's rows, at (p, q): the row's entry q. -/
theorem biasRow_apply (b : Vec Ideal S1x512 .f32) (p : Fin 256) (q : Fin 512) :
    broadcastTo S256x512 (shapeCast S1x512 b shapeCasts_S1x512_S1x512) broadcasts_S1x512_S256x512 (ix2 p q) = b (ix2 (0 : Fin 1) q) := by
  rw [shapeCast_self]
  refine broadcastTo_apply b _ (ix2 p q) (ix2 (0 : Fin 1) q) fun a => ?_
  match a with
  | ⟨0, _⟩ => rfl
  | ⟨1, _⟩ => rfl

/-- The input gate: the logistic function of the finished sum plus the bias. -/
theorem pay3_apply (ai : Vec Ideal S256x512 .f32) (bi : Vec Ideal S1x512 .f32) (p : Fin 256) (q : Fin 512) :
    k0_pay3 (F := Ideal) ai bi (ix2 p q) = Ideal.logistic (ai (ix2 p q) + bi (ix2 (0 : Fin 1) q)) := by
  unfold k0_pay3
  exact congrArg (fun z => Ideal.logistic (ai (ix2 p q) + z)) (biasRow_apply bi p q)

/-- The new cell state. -/
theorem pay4_apply (af : Vec Ideal S256x512 .f32) (bf : Vec Ideal S1x512 .f32) (ai : Vec Ideal S256x512 .f32) (bi : Vec Ideal S1x512 .f32)
    (ac : Vec Ideal S256x512 .f32) (bc : Vec Ideal S1x512 .f32) (cb : Vec Ideal S256x512 .f32) (p : Fin 256) (q : Fin 512) :
    k0_pay4 (F := Ideal) af bf ai bi ac bc cb (ix2 p q)
      = Ideal.logistic (af (ix2 p q) + bf (ix2 (0 : Fin 1) q)) * cb (ix2 p q)
        + Ideal.logistic (ai (ix2 p q) + bi (ix2 (0 : Fin 1) q)) * Ideal.tanh (ac (ix2 p q) + bc (ix2 (0 : Fin 1) q)) := by
  unfold k0_pay4
  show Ideal.logistic (af (ix2 p q) + _) * cb (ix2 p q) + k0_pay3 (F := Ideal) ai bi (ix2 p q) * Ideal.tanh (ac (ix2 p q) + _) = _
  rw [pay3_apply, biasRow_apply, biasRow_apply]

/-- The new hidden state. -/
theorem pay5_apply (af : Vec Ideal S256x512 .f32) (bf : Vec Ideal S1x512 .f32) (ai : Vec Ideal S256x512 .f32) (bi : Vec Ideal S1x512 .f32)
    (ac : Vec Ideal S256x512 .f32) (bc : Vec Ideal S1x512 .f32) (ao : Vec Ideal S256x512 .f32) (bo : Vec Ideal S1x512 .f32) (cb : Vec Ideal S256x512 .f32)
    (p : Fin 256) (q : Fin 512) :
    k0_pay5 (F := Ideal) af bf ai bi ac bc ao bo cb (ix2 p q)
      = Ideal.logistic (ao (ix2 p q) + bo (ix2 (0 : Fin 1) q)) * Ideal.tanh (k0_pay4 (F := Ideal) af bf ai bi ac bc cb (ix2 p q)) := by
  unfold k0_pay5
  show Ideal.logistic (ao (ix2 p q) + _) * Ideal.tanh (k0_pay4 (F := Ideal) af bf ai bi ac bc cb (ix2 p q)) = _
  rw [biasRow_apply]

end Cert.KernelIdeal.Fr

end
-- ==== Proof.KI.R0Blocks.lean ====
import proofs.«145808_j60842506715793_1_alg».proof.Proof.KI.R0Base
import Idealize.ShloMosaic.Lib.ValueIdx

/-!
# The gate kernel's input blocks, entry by entry

The point t of the 4 x 8 x 5 grid is (mb, hb, k) = (t / 40, t / 5 % 8, t % 5). Its blocks are: rows 256 mb.. and
columns 1024 k.. of the row array x = [i | h]; rows 512 hb.. and columns 1024 k.. of each gate's weight; columns
512 hb.. of each gate's one-row bias; rows 256 mb.. and columns 512 hb.. of the old cell state. Each block read at
an entry is its array read at the entry's global coordinates.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## The point's coordinates -/

theorem N0_eq : cfg0.N = 160 := N_0

/-- The global row of row p of the point's row block. -/
def rowOf (t : Fin cfg0.N) (p : Fin 256) : Fin 1024 :=
  ⟨256 * (t.val / 40) + p.val, by have := lt_of_lt_of_eq t.isLt N0_eq; have := p.isLt; omega⟩
/-- The global column (a hidden unit) of column q of the point's column block. -/
def colOf (t : Fin cfg0.N) (q : Fin 512) : Fin 4096 :=
  ⟨512 * (t.val / 5 % 8) + q.val, by have := q.isLt; omega⟩
/-- The global contracted position of position kk of the point's reduction step. -/
def depthOf (t : Fin cfg0.N) (kk : Fin 1024) : Fin 5120 :=
  ⟨1024 * (t.val % 5) + kk.val, by have := kk.isLt; omega⟩

@[simp] theorem rowOf_val (t : Fin cfg0.N) (p : Fin 256) : (rowOf t p).val = 256 * (t.val / 40) + p.val := rfl
@[simp] theorem colOf_val (t : Fin cfg0.N) (q : Fin 512) : (colOf t q).val = 512 * (t.val / 5 % 8) + q.val := rfl
@[simp] theorem depthOf_val (t : Fin cfg0.N) (kk : Fin 1024) : (depthOf t kk).val = 1024 * (t.val % 5) + kk.val := rfl

/-! ## The printed index maps, decided over the grid -/

/-- The row array's block index: (mb, k). -/
theorem index0_x : ∀ t : Fin cfg0.N, win0_0.index t (0 : Fin 2) = t.val / 40 ∧ win0_0.index t (1 : Fin 2) = t.val % 5 :=
  (by decide +kernel : ∀ t : Fin grid0.N, win0_0.index t (0 : Fin 2) = t.val / 40 ∧ win0_0.index t (1 : Fin 2) = t.val % 5)
/-- Weight window 1's block index: (hb, k). -/
theorem index0_w1 : ∀ t : Fin cfg0.N, win0_1.index t (0 : Fin 2) = t.val / 5 % 8 ∧ win0_1.index t (1 : Fin 2) = t.val % 5 :=
  (by decide +kernel : ∀ t : Fin grid0.N, win0_1.index t (0 : Fin 2) = t.val / 5 % 8 ∧ win0_1.index t (1 : Fin 2) = t.val % 5)
/-- Weight window 2's block index: (hb, k). -/
theorem index0_w2 : ∀ t : Fin cfg0.N, win0_2.index t (0 : Fin 2) = t.val / 5 % 8 ∧ win0_2.index t (1 : Fin 2) = t.val % 5 :=
  (by decide +kernel : ∀ t : Fin grid0.N, win0_2.index t (0 : Fin 2) = t.val / 5 % 8 ∧ win0_2.index t (1 : Fin 2) = t.val % 5)
/-- Weight window 3's block index: (hb, k). -/
theorem index0_w3 : ∀ t : Fin cfg0.N, win0_3.index t (0 : Fin 2) = t.val / 5 % 8 ∧ win0_3.index t (1 : Fin 2) = t.val % 5 :=
  (by decide +kernel : ∀ t : Fin grid0.N, win0_3.index t (0 : Fin 2) = t.val / 5 % 8 ∧ win0_3.index t (1 : Fin 2) = t.val % 5)
/-- Weight window 4's block index: (hb, k). -/
theorem index0_w4 : ∀ t : Fin cfg0.N, win0_4.index t (0 : Fin 2) = t.val / 5 % 8 ∧ win0_4.index t (1 : Fin 2) = t.val % 5 :=
  (by decide +kernel : ∀ t : Fin grid0.N, win0_4.index t (0 : Fin 2) = t.val / 5 % 8 ∧ win0_4.index t (1 : Fin 2) = t.val % 5)
/-- Bias window 5's block index: (0, hb). -/
theorem index0_b5 : ∀ t : Fin cfg0.N, win0_5.index t (0 : Fin 2) = 0 ∧ win0_5.index t (1 : Fin 2) = t.val / 5 % 8 :=
  (by decide +kernel : ∀ t : Fin grid0.N, win0_5.index t (0 : Fin 2) = 0 ∧ win0_5.index t (1 : Fin 2) = t.val / 5 % 8)
/-- Bias window 6's block index: (0, hb). -/
theorem index0_b6 : ∀ t : Fin cfg0.N, win0_6.index t (0 : Fin 2) = 0 ∧ win0_6.index t (1 : Fin 2) = t.val / 5 % 8 :=
  (by decide +kernel : ∀ t : Fin grid0.N, win0_6.index t (0 : Fin 2) = 0 ∧ win0_6.index t (1 : Fin 2) = t.val / 5 % 8)
/-- Bias window 7's block index: (0, hb). -/
theorem index0_b7 : ∀ t : Fin cfg0.N, win0_7.index t (0 : Fin 2) = 0 ∧ win0_7.index t (1 : Fin 2) = t.val / 5 % 8 :=
  (by decide +kernel : ∀ t : Fin grid0.N, win0_7.index t (0 : Fin 2) = 0 ∧ win0_7.index t (1 : Fin 2) = t.val / 5 % 8)
/-- Bias window 8's block index: (0, hb). -/
theorem index0_b8 : ∀ t : Fin cfg0.N, win0_8.index t (0 : Fin 2) = 0 ∧ win0_8.index t (1 : Fin 2) = t.val / 5 % 8 :=
  (by decide +kernel : ∀ t : Fin grid0.N, win0_8.index t (0 : Fin 2) = 0 ∧ win0_8.index t (1 : Fin 2) = t.val / 5 % 8)
/-- Window 9's block index: (mb, hb). -/
theorem index0_o9 : ∀ t : Fin cfg0.N, win0_9.index t (0 : Fin 2) = t.val / 40 ∧ win0_9.index t (1 : Fin 2) = t.val / 5 % 8 :=
  (by decide +kernel : ∀ t : Fin grid0.N, win0_9.index t (0 : Fin 2) = t.val / 40 ∧ win0_9.index t (1 : Fin 2) = t.val / 5 % 8)
/-- Window 10's block index: (mb, hb). -/
theorem index0_o10 : ∀ t : Fin cfg0.N, win0_10.index t (0 : Fin 2) = t.val / 40 ∧ win0_10.index t (1 : Fin 2) = t.val / 5 % 8 :=
  (by decide +kernel : ∀ t : Fin grid0.N, win0_10.index t (0 : Fin 2) = t.val / 40 ∧ win0_10.index t (1 : Fin 2) = t.val / 5 % 8)
/-- Window 11's block index: (mb, hb). -/
theorem index0_o11 : ∀ t : Fin cfg0.N, win0_11.index t (0 : Fin 2) = t.val / 40 ∧ win0_11.index t (1 : Fin 2) = t.val / 5 % 8 :=
  (by decide +kernel : ∀ t : Fin grid0.N, win0_11.index t (0 : Fin 2) = t.val / 40 ∧ win0_11.index t (1 : Fin 2) = t.val / 5 % 8)
/-- Window 12's block index: (mb, hb). -/
theorem index0_o12 : ∀ t : Fin cfg0.N, win0_12.index t (0 : Fin 2) = t.val / 40 ∧ win0_12.index t (1 : Fin 2) = t.val / 5 % 8 :=
  (by decide +kernel : ∀ t : Fin grid0.N, win0_12.index t (0 : Fin 2) = t.val / 40 ∧ win0_12.index t (1 : Fin 2) = t.val / 5 % 8)

section Entry
variable (V : (c : Dev nD) → (b : Ref sig .tc) → Buf (Elt F) ((c : Thread nD τ).loc b))

/-! ## The arrays and the blocks by their literal types -/

/-- The row [i | h], as the region finds it. -/
abbrev xArr (c : Dev nD) : Vec F S1024x5120 .f32 := V c main_v0
/-- Its block at point t. -/
abbrev xBlk (c : Dev nD) (t : Fin cfg0.N) : Vec F S256x1024 .f32 := iblk0 V c 0 t
/-- The forget gate's weight, as the region finds it. -/
abbrev wfArr (c : Dev nD) : Vec F S4096x5120 .f32 := V c main_arg3
/-- Its block at point t. -/
abbrev wfBlk (c : Dev nD) (t : Fin cfg0.N) : Vec F S512x1024 .f32 := iblk0 V c 1 t
/-- The input gate's weight, as the region finds it. -/
abbrev wiArr (c : Dev nD) : Vec F S4096x5120 .f32 := V c main_arg5
/-- Its block at point t. -/
abbrev wiBlk (c : Dev nD) (t : Fin cfg0.N) : Vec F S512x1024 .f32 := iblk0 V c 2 t
/-- The cell gate's weight, as the region finds it. -/
abbrev wcArr (c : Dev nD) : Vec F S4096x5120 .f32 := V c main_arg7
/-- Its block at point t. -/
abbrev wcBlk (c : Dev nD) (t : Fin cfg0.N) : Vec F S512x1024 .f32 := iblk0 V c 3 t
/-- The output gate's weight, as the region finds it. -/
abbrev woArr (c : Dev nD) : Vec F S4096x5120 .f32 := V c main_arg9
/-- Its block at point t. -/
abbrev woBlk (c : Dev nD) (t : Fin cfg0.N) : Vec F S512x1024 .f32 := iblk0 V c 4 t
/-- The forget gate's bias row, as the region finds it. -/
abbrev bfArr (c : Dev nD) : Vec F S1x4096 .f32 := V c main_v1
/-- Its block at point t. -/
abbrev bfBlk (c : Dev nD) (t : Fin cfg0.N) : Vec F S1x512 .f32 := iblk0 V c 5 t
/-- The input gate's bias row, as the region finds it. -/
abbrev biArr (c : Dev nD) : Vec F S1x4096 .f32 := V c main_v2
/-- Its block at point t. -/
abbrev biBlk (c : Dev nD) (t : Fin cfg0.N) : Vec F S1x512 .f32 := iblk0 V c 6 t
/-- The cell gate's bias row, as the region finds it. -/
abbrev bcArr (c : Dev nD) : Vec F S1x4096 .f32 := V c main_v3
/-- Its block at point t. -/
abbrev bcBlk (c : Dev nD) (t : Fin cfg0.N) : Vec F S1x512 .f32 := iblk0 V c 7 t
/-- The output gate's bias row, as the region finds it. -/
abbrev boArr (c : Dev nD) : Vec F S1x4096 .f32 := V c main_v4
/-- Its block at point t. -/
abbrev boBlk (c : Dev nD) (t : Fin cfg0.N) : Vec F S1x512 .f32 := iblk0 V c 8 t
/-- The old cell state, as the region finds it. -/
abbrev cArr (c : Dev nD) : Vec F S1024x4096 .f32 := V c main_arg2
/-- Its block at point t. -/
abbrev cBlk (c : Dev nD) (t : Fin cfg0.N) : Vec F S256x512 .f32 := iblk0 V c 9 t

/-! ## Each block read at an entry -/

/-- The block of the row [i | h] at an entry. -/
theorem xBlk_apply (c : Dev nD) (t : Fin cfg0.N) (p : Fin 256) (kk : Fin 1024) :
    xBlk V c t (ix2 p kk) = xArr V c (ix2 (rowOf t p) (depthOf t kk)) := by
  unfold xBlk iblk0
  rw [View.read_apply]
  show V c main_v0 (((cfg0.win 0).blk t).view.emb (ix2 p kk)) = V c main_v0 _
  refine congrArg (V c main_v0) (funext fun a => Fin.ext ?_)
  match a with
  | ⟨0, _⟩ => show win0_0.index t (0 : Fin 2) * 256 + 1 * p.val = 256 * (t.val / 40) + p.val; rw [(index0_x t).1]; omega
  | ⟨1, _⟩ => show win0_0.index t (1 : Fin 2) * 1024 + 1 * kk.val = 1024 * (t.val % 5) + kk.val; rw [(index0_x t).2]; omega

/-- The block of the forget gate's weight at an entry. -/
theorem wfBlk_apply (c : Dev nD) (t : Fin cfg0.N) (q : Fin 512) (kk : Fin 1024) :
    wfBlk V c t (ix2 q kk) = wfArr V c (ix2 (colOf t q) (depthOf t kk)) := by
  unfold wfBlk iblk0
  rw [View.read_apply]
  show V c main_arg3 (((cfg0.win 1).blk t).view.emb (ix2 q kk)) = V c main_arg3 _
  refine congrArg (V c main_arg3) (funext fun a => Fin.ext ?_)
  match a with
  | ⟨0, _⟩ => show win0_1.index t (0 : Fin 2) * 512 + 1 * q.val = 512 * (t.val / 5 % 8) + q.val; rw [(index0_w1 t).1]; omega
  | ⟨1, _⟩ => show win0_1.index t (1 : Fin 2) * 1024 + 1 * kk.val = 1024 * (t.val % 5) + kk.val; rw [(index0_w1 t).2]; omega

/-- The block of the input gate's weight at an entry. -/
theorem wiBlk_apply (c : Dev nD) (t : Fin cfg0.N) (q : Fin 512) (kk : Fin 1024) :
    wiBlk V c t (ix2 q kk) = wiArr V c (ix2 (colOf t q) (depthOf t kk)) := by
  unfold wiBlk iblk0
  rw [View.read_apply]
  show V c main_arg5 (((cfg0.win 2).blk t).view.emb (ix2 q kk)) = V c main_arg5 _
  refine congrArg (V c main_arg5) (funext fun a => Fin.ext ?_)
  match a with
  | ⟨0, _⟩ => show win0_2.index t (0 : Fin 2) * 512 + 1 * q.val = 512 * (t.val / 5 % 8) + q.val; rw [(index0_w2 t).1]; omega
  | ⟨1, _⟩ => show win0_2.index t (1 : Fin 2) * 1024 + 1 * kk.val = 1024 * (t.val % 5) + kk.val; rw [(index0_w2 t).2]; omega

/-- The block of the cell gate's weight at an entry. -/
theorem wcBlk_apply (c : Dev nD) (t : Fin cfg0.N) (q : Fin 512) (kk : Fin 1024) :
    wcBlk V c t (ix2 q kk) = wcArr V c (ix2 (colOf t q) (depthOf t kk)) := by
  unfold wcBlk iblk0
  rw [View.read_apply]
  show V c main_arg7 (((cfg0.win 3).blk t).view.emb (ix2 q kk)) = V c main_arg7 _
  refine congrArg (V c main_arg7) (funext fun a => Fin.ext ?_)
  match a with
  | ⟨0, _⟩ => show win0_3.index t (0 : Fin 2) * 512 + 1 * q.val = 512 * (t.val / 5 % 8) + q.val; rw [(index0_w3 t).1]; omega
  | ⟨1, _⟩ => show win0_3.index t (1 : Fin 2) * 1024 + 1 * kk.val = 1024 * (t.val % 5) + kk.val; rw [(index0_w3 t).2]; omega

/-- The block of the output gate's weight at an entry. -/
theorem woBlk_apply (c : Dev nD) (t : Fin cfg0.N) (q : Fin 512) (kk : Fin 1024) :
    woBlk V c t (ix2 q kk) = woArr V c (ix2 (colOf t q) (depthOf t kk)) := by
  unfold woBlk iblk0
  rw [View.read_apply]
  show V c main_arg9 (((cfg0.win 4).blk t).view.emb (ix2 q kk)) = V c main_arg9 _
  refine congrArg (V c main_arg9) (funext fun a => Fin.ext ?_)
  match a with
  | ⟨0, _⟩ => show win0_4.index t (0 : Fin 2) * 512 + 1 * q.val = 512 * (t.val / 5 % 8) + q.val; rw [(index0_w4 t).1]; omega
  | ⟨1, _⟩ => show win0_4.index t (1 : Fin 2) * 1024 + 1 * kk.val = 1024 * (t.val % 5) + kk.val; rw [(index0_w4 t).2]; omega

/-- The block of the forget gate's bias row at an entry. -/
theorem bfBlk_apply (c : Dev nD) (t : Fin cfg0.N) (q : Fin 512) :
    bfBlk V c t (ix2 (0 : Fin 1) q) = bfArr V c (ix2 (0 : Fin 1) (colOf t q)) := by
  unfold bfBlk iblk0
  rw [View.read_apply]
  show V c main_v1 (((cfg0.win 5).blk t).view.emb (ix2 (0 : Fin 1) q)) = V c main_v1 _
  refine congrArg (V c main_v1) (funext fun a => Fin.ext ?_)
  match a with
  | ⟨0, _⟩ => show win0_5.index t (0 : Fin 2) * 1 + 1 * 0 = 0; rw [(index0_b5 t).1]
  | ⟨1, _⟩ => show win0_5.index t (1 : Fin 2) * 512 + 1 * q.val = 512 * (t.val / 5 % 8) + q.val; rw [(index0_b5 t).2]; omega

/-- The block of the input gate's bias row at an entry. -/
theorem biBlk_apply (c : Dev nD) (t : Fin cfg0.N) (q : Fin 512) :
    biBlk V c t (ix2 (0 : Fin 1) q) = biArr V c (ix2 (0 : Fin 1) (colOf t q)) := by
  unfold biBlk iblk0
  rw [View.read_apply]
  show V c main_v2 (((cfg0.win 6).blk t).view.emb (ix2 (0 : Fin 1) q)) = V c main_v2 _
  refine congrArg (V c main_v2) (funext fun a => Fin.ext ?_)
  match a with
  | ⟨0, _⟩ => show win0_6.index t (0 : Fin 2) * 1 + 1 * 0 = 0; rw [(index0_b6 t).1]
  | ⟨1, _⟩ => show win0_6.index t (1 : Fin 2) * 512 + 1 * q.val = 512 * (t.val / 5 % 8) + q.val; rw [(index0_b6 t).2]; omega

/-- The block of the cell gate's bias row at an entry. -/
theorem bcBlk_apply (c : Dev nD) (t : Fin cfg0.N) (q : Fin 512) :
    bcBlk V c t (ix2 (0 : Fin 1) q) = bcArr V c (ix2 (0 : Fin 1) (colOf t q)) := by
  unfold bcBlk iblk0
  rw [View.read_apply]
  show V c main_v3 (((cfg0.win 7).blk t).view.emb (ix2 (0 : Fin 1) q)) = V c main_v3 _
  refine congrArg (V c main_v3) (funext fun a => Fin.ext ?_)
  match a with
  | ⟨0, _⟩ => show win0_7.index t (0 : Fin 2) * 1 + 1 * 0 = 0; rw [(index0_b7 t).1]
  | ⟨1, _⟩ => show win0_7.index t (1 : Fin 2) * 512 + 1 * q.val = 512 * (t.val / 5 % 8) + q.val; rw [(index0_b7 t).2]; omega

/-- The block of the output gate's bias row at an entry. -/
theorem boBlk_apply (c : Dev nD) (t : Fin cfg0.N) (q : Fin 512) :
    boBlk V c t (ix2 (0 : Fin 1) q) = boArr V c (ix2 (0 : Fin 1) (colOf t q)) := by
  unfold boBlk iblk0
  rw [View.read_apply]
  show V c main_v4 (((cfg0.win 8).blk t).view.emb (ix2 (0 : Fin 1) q)) = V c main_v4 _
  refine congrArg (V c main_v4) (funext fun a => Fin.ext ?_)
  match a with
  | ⟨0, _⟩ => show win0_8.index t (0 : Fin 2) * 1 + 1 * 0 = 0; rw [(index0_b8 t).1]
  | ⟨1, _⟩ => show win0_8.index t (1 : Fin 2) * 512 + 1 * q.val = 512 * (t.val / 5 % 8) + q.val; rw [(index0_b8 t).2]; omega

/-- The block of the old cell state at an entry. -/
theorem cBlk_apply (c : Dev nD) (t : Fin cfg0.N) (p : Fin 256) (q : Fin 512) :
    cBlk V c t (ix2 p q) = cArr V c (ix2 (rowOf t p) (colOf t q)) := by
  unfold cBlk iblk0
  rw [View.read_apply]
  show V c main_arg2 (((cfg0.win 9).blk t).view.emb (ix2 p q)) = V c main_arg2 _
  refine congrArg (V c main_arg2) (funext fun a => Fin.ext ?_)
  match a with
  | ⟨0, _⟩ => show win0_9.index t (0 : Fin 2) * 256 + 1 * p.val = 256 * (t.val / 40) + p.val; rw [(index0_o9 t).1]; omega
  | ⟨1, _⟩ => show win0_9.index t (1 : Fin 2) * 512 + 1 * q.val = 512 * (t.val / 5 % 8) + q.val; rw [(index0_o9 t).2]; omega

end Entry

end Cert.KernelIdeal.Fr

end
-- ==== Proof.LibBlockSum.lean ====
/-
  A sum over an index set cut into equal blocks.

  When m * n = N, the indices below N are exactly the numbers n * i + j with i below m (the block) and j below n (the
  offset inside the block), each once. So a sum over Fin N, in any additive commutative monoid, is the double sum over
  the blocks and the offsets. The index is written as the block index times the block length plus the offset, which is
  the form in which a blocked contraction meets it.
-/
import Mathlib.Data.Fintype.BigOperators
import Mathlib.Logic.Equiv.Fin.Basic

namespace Cert.LibBlockSum

open scoped BigOperators

/-- The offset j inside the block i stays below the total length. -/
theorem block_index_lt {m n N : ℕ} (h : m * n = N) (i : Fin m) (j : Fin n) : n * i.val + j.val < N := by
  have h1 : n * i.val + j.val < n * (i.val + 1) := by
    rw [Nat.mul_succ]
    exact Nat.add_lt_add_left j.isLt _
  have h2 : n * (i.val + 1) ≤ n * m := Nat.mul_le_mul_left _ i.isLt
  calc n * i.val + j.val < n * (i.val + 1) := h1
    _ ≤ n * m := h2
    _ = N := by rw [Nat.mul_comm, h]

/-- The index of the offset j inside the block i, as an element of Fin N. -/
def blockIndex {m n N : ℕ} (h : m * n = N) (i : Fin m) (j : Fin n) : Fin N :=
  ⟨n * i.val + j.val, block_index_lt h i j⟩

@[simp] theorem blockIndex_val {m n N : ℕ} (h : m * n = N) (i : Fin m) (j : Fin n) :
    (blockIndex h i j).val = n * i.val + j.val := rfl

/-- A sum over Fin N, with m * n = N, is the sum over the m blocks of the sums over the n offsets. -/
theorem sum_blocks {M : Type*} [AddCommMonoid M] {m n N : ℕ} (h : m * n = N) (f : Fin N → M) :
    ∑ k : Fin N, f k = ∑ i : Fin m, ∑ j : Fin n, f ⟨n * i.val + j.val, block_index_lt h i j⟩ := by
  subst h
  rw [← finProdFinEquiv.sum_comp f, Fintype.sum_prod_type]
  refine Finset.sum_congr rfl fun i _ => Finset.sum_congr rfl fun j _ => ?_
  refine congrArg f (Fin.ext ?_)
  show j.val + n * i.val = n * i.val + j.val
  exact Nat.add_comm _ _

/-- The same with the index named. -/
theorem sum_blocks' {M : Type*} [AddCommMonoid M] {m n N : ℕ} (h : m * n = N) (f : Fin N → M) :
    ∑ k : Fin N, f k = ∑ i : Fin m, ∑ j : Fin n, f (blockIndex h i j) :=
  sum_blocks h f

end Cert.LibBlockSum
-- ==== Proof.KI.R0Sum.lean ====
import proofs.«145808_j60842506715793_1_alg».proof.Proof.SpecK
import proofs.«145808_j60842506715793_1_alg».proof.Proof.LibBlockSum

/-!
# A gate's contraction, cut into its five reduction steps

A gate's pre-activation at (r, n) sums x[r, k] * W[n, k] over the 5120 contracted positions k. The kernel takes the
positions 1024 at a time: step j adds the positions 1024 j .. 1024 j + 1023. The sum over the first j steps is
written with the product term extended by zero past position 5119 (a position no step reaches), so that it is a
plain sum over a range of steps; after five steps it is the whole contraction.
-/

noncomputable section

namespace Cert.Spec

open Idealize.ShloMosaic Idealize.ShloMosaic.ValueIdx
open scoped BigOperators

/-- The product at contracted position k of row r of x and row n of W; zero past the last position. -/
def gateTerm (x : T1024x5120.Idx → EReal) (W : T4096x5120.Idx → EReal) (r : Fin 1024) (n : Fin 4096) (k : ℕ) : EReal :=
  if h : k < 5120 then x (ix2 r ⟨k, h⟩) * W (ix2 n ⟨k, h⟩) else 0

theorem gateTerm_of_lt (x : T1024x5120.Idx → EReal) (W : T4096x5120.Idx → EReal) (r : Fin 1024) (n : Fin 4096) (k : ℕ) (h : k < 5120) :
    gateTerm x W r n k = x (ix2 r ⟨k, h⟩) * W (ix2 n ⟨k, h⟩) := dif_pos h

/-- One reduction step's contribution: the 1024 positions of step j. -/
def gateStep (x : T1024x5120.Idx → EReal) (W : T4096x5120.Idx → EReal) (r : Fin 1024) (n : Fin 4096) (j : ℕ) : EReal :=
  ∑ kk : Fin 1024, gateTerm x W r n (1024 * j + kk.val)

/-- The sum over the first j reduction steps. -/
def gatePartial (x : T1024x5120.Idx → EReal) (W : T4096x5120.Idx → EReal) (r : Fin 1024) (n : Fin 4096) (j : ℕ) : EReal :=
  ∑ i ∈ Finset.range j, gateStep x W r n i

theorem gatePartial_zero (x : T1024x5120.Idx → EReal) (W : T4096x5120.Idx → EReal) (r : Fin 1024) (n : Fin 4096) :
    gatePartial x W r n 0 = 0 := Finset.sum_range_zero _

theorem gatePartial_succ (x : T1024x5120.Idx → EReal) (W : T4096x5120.Idx → EReal) (r : Fin 1024) (n : Fin 4096) (j : ℕ) :
    gatePartial x W r n (j + 1) = gatePartial x W r n j + gateStep x W r n j := Finset.sum_range_succ _ _

/-- After the reset and the first step. -/
theorem gatePartial_one (x : T1024x5120.Idx → EReal) (W : T4096x5120.Idx → EReal) (r : Fin 1024) (n : Fin 4096) :
    gatePartial x W r n 1 = 0 + gateStep x W r n 0 := by
  rw [gatePartial_succ, gatePartial_zero]

/-- After five steps: the whole contraction. -/
theorem gatePartial_five (x : T1024x5120.Idx → EReal) (W : T4096x5120.Idx → EReal) (r : Fin 1024) (n : Fin 4096) :
    gatePartial x W r n 5 = ∑ k : Fin 5120, x (ix2 r k) * W (ix2 n k) := by
  unfold gatePartial gateStep
  rw [Finset.sum_range, Cert.LibBlockSum.sum_blocks (show 5 * 1024 = 5120 from rfl) (fun k : Fin 5120 => x (ix2 r k) * W (ix2 n k))]
  refine Finset.sum_congr rfl fun i _ => Finset.sum_congr rfl fun kk _ => ?_
  exact gateTerm_of_lt x W r n _ (Cert.LibBlockSum.block_index_lt (show 5 * 1024 = 5120 from rfl) i kk)

/-- So a gate's pre-activation is the five steps' sum plus the bias. -/
theorem preX_eq_partial (x : T1024x5120.Idx → EReal) (W : T4096x5120.Idx → EReal) (b : T1x4096.Idx → EReal) (r : Fin 1024) (n : Fin 4096) :
    preX x W b r n = gatePartial x W r n 5 + b (ix2 (0 : Fin 1) n) := by
  unfold preX
  rw [gatePartial_five]

end Cert.Spec

end
-- ==== Proof.KI.R0Acc.lean ====
import proofs.«145808_j60842506715793_1_alg».proof.Proof.KI.R0Pieces
import proofs.«145808_j60842506715793_1_alg».proof.Proof.KI.R0Pay
import proofs.«145808_j60842506715793_1_alg».proof.Proof.KI.R0Blocks
import proofs.«145808_j60842506715793_1_alg».proof.Proof.KI.R0Sum

/-!
# The four accumulators after every point

After the point t = (mb, hb, k) the accumulator of gate g holds at (p, q) the sum, over the reduction steps 0 .. k
and the 1024 positions of each, of x[256 mb + p, .] * W_g[512 hb + q, .]: the first k + 1 steps of the gate's
contraction for the global entry (256 mb + p, 512 hb + q). By induction on the point: a first step starts from the
zero block; every other step adds its 1024 positions to what the point before left, and the point before has the same
(mb, hb) and the step k - 1.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

section Steps
variable {F : FTy → Type} [FloatOps F]
variable (V : (c : Dev nD) → (b : Ref sig .tc) → Buf (Elt F) ((c : Thread nD τ).loc b))

/-! ## One step's updates, over the point's blocks -/

/-- The forget gate's accumulator a after the step at point t. -/
def updF (c : Dev nD) (t : Fin cfg0.N) (a : Vec F S256x512 .f32) : Vec F S256x512 .f32 := k0_pay12 (xBlk V c t) (wfBlk V c t) a
/-- The input gate's. -/
def updI (c : Dev nD) (t : Fin cfg0.N) (a : Vec F S256x512 .f32) : Vec F S256x512 .f32 := k0_pay13 (xBlk V c t) (wiBlk V c t) a
/-- The cell gate's. -/
def updC (c : Dev nD) (t : Fin cfg0.N) (a : Vec F S256x512 .f32) : Vec F S256x512 .f32 := k0_pay1 (k0_pay14 (xBlk V c t) (wcBlk V c t) a)
/-- The output gate's. -/
def updO (c : Dev nD) (t : Fin cfg0.N) (a : Vec F S256x512 .f32) : Vec F S256x512 .f32 := k0_pay2 (k0_pay10 (xBlk V c t)) (k0_pay11 (woBlk V c t)) a

/-! ## What each kind of step leaves, component by component -/

theorem stepA0_acc0 (c : Dev nD) (t : Fin cfg0.N) (h0 : t.val % 5 = 0) (h1 : ¬t.val % 5 = 4) :
    (stepA0 V c t h0 h1).2.1 = updF V c t (k0_pay6 (F := F)) := by
  unfold stepA0 updF
  dsimp only
  exact sout0_A_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
theorem stepA0_acc1 (c : Dev nD) (t : Fin cfg0.N) (h0 : t.val % 5 = 0) (h1 : ¬t.val % 5 = 4) :
    (stepA0 V c t h0 h1).2.2.1 = updI V c t (k0_pay7 (F := F)) := by
  unfold stepA0 updI
  dsimp only
  exact sout0_A_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
theorem stepA0_acc2 (c : Dev nD) (t : Fin cfg0.N) (h0 : t.val % 5 = 0) (h1 : ¬t.val % 5 = 4) :
    (stepA0 V c t h0 h1).2.2.2.1 = updC V c t (k0_pay8 (F := F)) := by
  unfold stepA0 updC
  dsimp only
  exact sout0_A_2_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
theorem stepA0_acc3 (c : Dev nD) (t : Fin cfg0.N) (h0 : t.val % 5 = 0) (h1 : ¬t.val % 5 = 4) :
    (stepA0 V c t h0 h1).2.2.2.2 = updO V c t (k0_pay9 (F := F)) := by
  unfold stepA0 updO
  dsimp only
  exact sout0_A_3_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
theorem stepB0_acc0 (c : Dev nD) (t : Fin cfg0.N) (h0 : ¬t.val % 5 = 0) (h1 : ¬t.val % 5 = 4) (a : Acc0 F) :
    (stepB0 V c t h0 h1 a).2.1 = updF V c t a.1 := by
  unfold stepB0 updF
  dsimp only
  exact sout0_B_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) a.1 a.2.1 a.2.2.1 a.2.2.2
theorem stepB0_acc1 (c : Dev nD) (t : Fin cfg0.N) (h0 : ¬t.val % 5 = 0) (h1 : ¬t.val % 5 = 4) (a : Acc0 F) :
    (stepB0 V c t h0 h1 a).2.2.1 = updI V c t a.2.1 := by
  unfold stepB0 updI
  dsimp only
  exact sout0_B_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) a.1 a.2.1 a.2.2.1 a.2.2.2
theorem stepB0_acc2 (c : Dev nD) (t : Fin cfg0.N) (h0 : ¬t.val % 5 = 0) (h1 : ¬t.val % 5 = 4) (a : Acc0 F) :
    (stepB0 V c t h0 h1 a).2.2.2.1 = updC V c t a.2.2.1 := by
  unfold stepB0 updC
  dsimp only
  exact sout0_B_2_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) a.1 a.2.1 a.2.2.1 a.2.2.2
theorem stepB0_acc3 (c : Dev nD) (t : Fin cfg0.N) (h0 : ¬t.val % 5 = 0) (h1 : ¬t.val % 5 = 4) (a : Acc0 F) :
    (stepB0 V c t h0 h1 a).2.2.2.2 = updO V c t a.2.2.2 := by
  unfold stepB0 updO
  dsimp only
  exact sout0_B_3_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) a.1 a.2.1 a.2.2.1 a.2.2.2
theorem stepC0_acc0 (c : Dev nD) (t : Fin cfg0.N) (h0 : ¬t.val % 5 = 0) (h1 : t.val % 5 = 4) (a : Acc0 F) :
    (stepC0 V c t h0 h1 a).2.1 = updF V c t a.1 := by
  unfold stepC0 updF
  dsimp only
  exact sout0_C_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) a.1 a.2.1 a.2.2.1 a.2.2.2
theorem stepC0_acc1 (c : Dev nD) (t : Fin cfg0.N) (h0 : ¬t.val % 5 = 0) (h1 : t.val % 5 = 4) (a : Acc0 F) :
    (stepC0 V c t h0 h1 a).2.2.1 = updI V c t a.2.1 := by
  unfold stepC0 updI
  dsimp only
  exact sout0_C_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) a.1 a.2.1 a.2.2.1 a.2.2.2
theorem stepC0_acc2 (c : Dev nD) (t : Fin cfg0.N) (h0 : ¬t.val % 5 = 0) (h1 : t.val % 5 = 4) (a : Acc0 F) :
    (stepC0 V c t h0 h1 a).2.2.2.1 = updC V c t a.2.2.1 := by
  unfold stepC0 updC
  dsimp only
  exact sout0_C_2_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) a.1 a.2.1 a.2.2.1 a.2.2.2
theorem stepC0_acc3 (c : Dev nD) (t : Fin cfg0.N) (h0 : ¬t.val % 5 = 0) (h1 : t.val % 5 = 4) (a : Acc0 F) :
    (stepC0 V c t h0 h1 a).2.2.2.2 = updO V c t a.2.2.2 := by
  unfold stepC0 updO
  dsimp only
  exact sout0_C_3_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) a.1 a.2.1 a.2.2.1 a.2.2.2

/-- The input gate's block as the last step stores it. -/
theorem stepC0_out10 (c : Dev nD) (t : Fin cfg0.N) (h0 : ¬t.val % 5 = 0) (h1 : t.val % 5 = 4) (a : Acc0 F) :
    (stepC0 V c t h0 h1 a).1.1 = k0_pay3 (updI V c t a.2.1) (biBlk V c t) := by
  unfold stepC0 updI
  dsimp only
  exact out0_C_10_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) a.1 a.2.1 a.2.2.1 a.2.2.2
/-- The hidden state's block as the last step stores it. -/
theorem stepC0_out11 (c : Dev nD) (t : Fin cfg0.N) (h0 : ¬t.val % 5 = 0) (h1 : t.val % 5 = 4) (a : Acc0 F) :
    (stepC0 V c t h0 h1 a).1.2.1 = k0_pay5 (updF V c t a.1) (bfBlk V c t) (updI V c t a.2.1) (biBlk V c t) (updC V c t a.2.2.1) (bcBlk V c t) (updO V c t a.2.2.2) (boBlk V c t) (cBlk V c t) := by
  unfold stepC0 updF updI updC updO
  dsimp only
  exact out0_C_11_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) a.1 a.2.1 a.2.2.1 a.2.2.2
/-- The cell state's block as the last step stores it. -/
theorem stepC0_out12 (c : Dev nD) (t : Fin cfg0.N) (h0 : ¬t.val % 5 = 0) (h1 : t.val % 5 = 4) (a : Acc0 F) :
    (stepC0 V c t h0 h1 a).1.2.2 = k0_pay4 (updF V c t a.1) (bfBlk V c t) (updI V c t a.2.1) (biBlk V c t) (updC V c t a.2.2.1) (bcBlk V c t) (cBlk V c t) := by
  unfold stepC0 updF updI updC
  dsimp only
  exact out0_C_12_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) a.1 a.2.1 a.2.2.1 a.2.2.2

end Steps

/-! ## On the extended reals -/

section AtIdeal
variable (V : (c : Dev nD) → (b : Ref sig .tc) → Buf (Elt Ideal) ((c : Thread nD τ).loc b))

/-- The step at point t adds to the forget gate's accumulator the step's 1024 positions of the gate's contraction. -/
theorem updF_apply (c : Dev nD) (t : Fin cfg0.N) (a : Vec Ideal S256x512 .f32) (p : Fin 256) (q : Fin 512) :
    updF V c t a (ix2 p q) = a (ix2 p q) + Cert.Spec.gateStep (xArr V c) (wfArr V c) (rowOf t p) (colOf t q) (t.val % 5) := by
  unfold updF
  refine (pay12_apply (xBlk V c t) (wfBlk V c t) a p q).trans ?_
  refine congrArg (a (ix2 p q) + ·) ?_
  unfold Cert.Spec.gateStep
  refine Finset.sum_congr rfl fun kk _ => ?_
  rw [xBlk_apply, wfBlk_apply]
  exact (Cert.Spec.gateTerm_of_lt (xArr V c) (wfArr V c) (rowOf t p) (colOf t q) _ (depthOf t kk).isLt).symm

/-- The step at point t adds to the input gate's accumulator the step's 1024 positions of the gate's contraction. -/
theorem updI_apply (c : Dev nD) (t : Fin cfg0.N) (a : Vec Ideal S256x512 .f32) (p : Fin 256) (q : Fin 512) :
    updI V c t a (ix2 p q) = a (ix2 p q) + Cert.Spec.gateStep (xArr V c) (wiArr V c) (rowOf t p) (colOf t q) (t.val % 5) := by
  unfold updI
  refine (pay13_apply (xBlk V c t) (wiBlk V c t) a p q).trans ?_
  refine congrArg (a (ix2 p q) + ·) ?_
  unfold Cert.Spec.gateStep
  refine Finset.sum_congr rfl fun kk _ => ?_
  rw [xBlk_apply, wiBlk_apply]
  exact (Cert.Spec.gateTerm_of_lt (xArr V c) (wiArr V c) (rowOf t p) (colOf t q) _ (depthOf t kk).isLt).symm

/-- The step at point t adds to the cell gate's accumulator the step's 1024 positions of the gate's contraction. -/
theorem updC_apply (c : Dev nD) (t : Fin cfg0.N) (a : Vec Ideal S256x512 .f32) (p : Fin 256) (q : Fin 512) :
    updC V c t a (ix2 p q) = a (ix2 p q) + Cert.Spec.gateStep (xArr V c) (wcArr V c) (rowOf t p) (colOf t q) (t.val % 5) := by
  unfold updC
  rw [pay1_eq]
  refine (pay14_apply (xBlk V c t) (wcBlk V c t) a p q).trans ?_
  refine congrArg (a (ix2 p q) + ·) ?_
  unfold Cert.Spec.gateStep
  refine Finset.sum_congr rfl fun kk _ => ?_
  rw [xBlk_apply, wcBlk_apply]
  exact (Cert.Spec.gateTerm_of_lt (xArr V c) (wcArr V c) (rowOf t p) (colOf t q) _ (depthOf t kk).isLt).symm

/-- The step at point t adds to the output gate's accumulator the step's 1024 positions of the gate's contraction. -/
theorem updO_apply (c : Dev nD) (t : Fin cfg0.N) (a : Vec Ideal S256x512 .f32) (p : Fin 256) (q : Fin 512) :
    updO V c t a (ix2 p q) = a (ix2 p q) + Cert.Spec.gateStep (xArr V c) (woArr V c) (rowOf t p) (colOf t q) (t.val % 5) := by
  unfold updO
  refine (pay2_apply (xBlk V c t) (woBlk V c t) a p q).trans ?_
  refine congrArg (a (ix2 p q) + ·) ?_
  unfold Cert.Spec.gateStep
  refine Finset.sum_congr rfl fun kk _ => ?_
  rw [xBlk_apply, woBlk_apply]
  exact (Cert.Spec.gateTerm_of_lt (xArr V c) (woArr V c) (rowOf t p) (colOf t q) _ (depthOf t kk).isLt).symm

/-! ## The invariant -/

/-- The point before a step that is not a first one has the same row block, -/
theorem rowOf_pred (n : ℕ) (hn : n + 1 < cfg0.N) (h0 : ¬(n + 1) % 5 = 0) (p : Fin 256) :
    rowOf ⟨n, Nat.lt_of_succ_lt hn⟩ p = rowOf ⟨n + 1, hn⟩ p := Fin.ext (by simp only [rowOf_val]; omega)
/-- and the same column block. -/
theorem colOf_pred (n : ℕ) (hn : n + 1 < cfg0.N) (h0 : ¬(n + 1) % 5 = 0) (q : Fin 512) :
    colOf ⟨n, Nat.lt_of_succ_lt hn⟩ q = colOf ⟨n + 1, hn⟩ q := Fin.ext (by simp only [colOf_val]; omega)

/-- What the four accumulators hold after position n, at (p, q). -/
def AccAt (c : Dev nD) (n : ℕ) (hn : n < cfg0.N) (p : Fin 256) (q : Fin 512) : Prop :=
  (outsAt0 V c n hn).2.1 (ix2 p q) = Cert.Spec.gatePartial (xArr V c) (wfArr V c) (rowOf ⟨n, hn⟩ p) (colOf ⟨n, hn⟩ q) (n % 5 + 1)
  ∧ (outsAt0 V c n hn).2.2.1 (ix2 p q) = Cert.Spec.gatePartial (xArr V c) (wiArr V c) (rowOf ⟨n, hn⟩ p) (colOf ⟨n, hn⟩ q) (n % 5 + 1)
  ∧ (outsAt0 V c n hn).2.2.2.1 (ix2 p q) = Cert.Spec.gatePartial (xArr V c) (wcArr V c) (rowOf ⟨n, hn⟩ p) (colOf ⟨n, hn⟩ q) (n % 5 + 1)
  ∧ (outsAt0 V c n hn).2.2.2.2 (ix2 p q) = Cert.Spec.gatePartial (xArr V c) (woArr V c) (rowOf ⟨n, hn⟩ p) (colOf ⟨n, hn⟩ q) (n % 5 + 1)

/-- A first step: from the zero block. -/
theorem accAt_first (c : Dev nD) (t : Fin cfg0.N) (h0 : t.val % 5 = 0) (h1 : ¬t.val % 5 = 4) (p : Fin 256) (q : Fin 512) :
    AccAt V c t.val t.isLt p q := by
  unfold AccAt
  rw [outsAt0_A V c t h0 h1, stepA0_acc0, stepA0_acc1, stepA0_acc2, stepA0_acc3, updF_apply, updI_apply, updC_apply, updO_apply,
    pay6_apply, pay7_apply, pay8_apply, pay9_apply, h0, Cert.Spec.gatePartial_one, Cert.Spec.gatePartial_one, Cert.Spec.gatePartial_one, Cert.Spec.gatePartial_one]
  exact ⟨rfl, rfl, rfl, rfl⟩

/-- THE ACCUMULATORS AFTER EVERY POINT, by induction on the point. -/
theorem accAt_all (c : Dev nD) : ∀ (n : ℕ) (hn : n < cfg0.N) (p : Fin 256) (q : Fin 512), AccAt V c n hn p q
  | 0, hn, p, q => accAt_first V c ⟨0, hn⟩ (Nat.zero_mod _) (by show ¬(0 % 5 = 4); decide) p q
  | n + 1, hn, p, q => by
    by_cases h0 : (n + 1) % 5 = 0
    · exact accAt_first V c ⟨n + 1, hn⟩ h0 (by dsimp only; omega) p q
    · obtain ⟨i0, i1, i2, i3⟩ := accAt_all c n (Nat.lt_of_succ_lt hn) p q
      rw [rowOf_pred n hn h0, colOf_pred n hn h0, show n % 5 + 1 = (n + 1) % 5 from by omega] at i0 i1 i2 i3
      have e : ∀ h, (outsAt0 V c ((⟨n + 1, hn⟩ : Fin cfg0.N).val - 1) h).2 = (outsAt0 V c n (Nat.lt_of_succ_lt hn)).2 := fun _ => rfl
      unfold AccAt
      by_cases h1 : (n + 1) % 5 = 4
      · rw [outsAt0_C V c ⟨n + 1, hn⟩ h0 h1, stepC0_acc0, stepC0_acc1, stepC0_acc2, stepC0_acc3, e, updF_apply, updI_apply, updC_apply, updO_apply,
          Cert.Spec.gatePartial_succ, Cert.Spec.gatePartial_succ, Cert.Spec.gatePartial_succ, Cert.Spec.gatePartial_succ, i0, i1, i2, i3]
        exact ⟨rfl, rfl, rfl, rfl⟩
      · rw [outsAt0_B V c ⟨n + 1, hn⟩ h0 h1, stepB0_acc0, stepB0_acc1, stepB0_acc2, stepB0_acc3, e, updF_apply, updI_apply, updC_apply, updO_apply,
          Cert.Spec.gatePartial_succ, Cert.Spec.gatePartial_succ, Cert.Spec.gatePartial_succ, Cert.Spec.gatePartial_succ, i0, i1, i2, i3]
        exact ⟨rfl, rfl, rfl, rfl⟩

end AtIdeal

end Cert.KernelIdeal.Fr

end
-- ==== Proof.KI.R0Value.lean ====
import proofs.«145808_j60842506715793_1_alg».proof.Proof.KI.R0Acc
import Idealize.ShloMosaic.Lib.Pipeline.Value

/-!
# What the gate kernel leaves in its three result arrays

At a last reduction step (k = 4) the four accumulators hold the gates' whole contractions for the entries of the
block (mb, hb); the step forms from them, the bias rows and the old cell state the input gate, the cell state and the
hidden state of those entries, and the pipeline writes the three blocks back at (mb, hb). So each written block is
the block of the array the specification names, and since every entry (r, n) lies in the block of the point
((r / 256) * 8 + n / 512) * 5 + 4, the three arrays end holding those arrays.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)
open Idealize.SL Idealize.SL.Sem
open scoped BigOperators

/-! ## A result array's block, read at an entry; which entries a block holds -/

/-- Block (mb, hb) of a 1024 x 4096 array, through result window 10, at (p, q). -/
theorem outBlk10_apply (t : Fin cfg0.N) (G : Vec Ideal S1024x4096 .f32) (p : Fin 256) (q : Fin 512) :
    ((cfg0.win 10).blk t).view.read (Elt Ideal) G (ix2 p q) = G (ix2 (rowOf t p) (colOf t q)) := by
  rw [View.read_apply]
  show G (((cfg0.win 10).blk t).view.emb (ix2 p q)) = G _
  refine congrArg G (funext fun a => Fin.ext ?_)
  match a with
  | ⟨0, _⟩ => show win0_10.index t (0 : Fin 2) * 256 + 1 * p.val = 256 * (t.val / 40) + p.val; rw [(index0_o10 t).1]; omega
  | ⟨1, _⟩ => show win0_10.index t (1 : Fin 2) * 512 + 1 * q.val = 512 * (t.val / 5 % 8) + q.val; rw [(index0_o10 t).2]; omega

/-- An entry of the array is in the point's block of window 10 iff each coordinate is in the block's range. -/
theorem mem_outBlk10 (t : Fin cfg0.N) (i : S1024x4096.Idx) :
    i ∈ ((cfg0.win 10).blk t).view.set ↔ ∀ a : Fin 2, win0_10.index t a * S256x512.size a ≤ (i a).val ∧ (i a).val < win0_10.index t a * S256x512.size a + S256x512.size a := by
  show i ∈ ((View.whole main_v6_0).slice (win0_10.rect t)).set ↔ _
  rw [View.set_slice_whole, Rect.mem_set_unit]
  exact Iff.rfl

/-- Every entry (r, n) is in the block written back at the last step of (r / 256, n / 512). -/
theorem cover0_10 (i : S1024x4096.Idx) :
    ∃ t : Fin cfg0.N, (cfg0.win 10).flush t = true ∧ i ∈ ((cfg0.win 10).blk t).view.set := by
  have hi0 : (i 0).val < 1024 := (i 0).isLt
  have hi1 : (i 1).val < 4096 := (i 1).isLt
  have hN : cfg0.N = 160 := N0_eq
  refine ⟨⟨((i 0).val / 256 * 8 + (i 1).val / 512) * 5 + 4, by omega⟩, (flush0_10 _).mpr (by dsimp only; omega), ?_⟩
  rw [mem_outBlk10]
  intro a
  match a with
  | ⟨0, _⟩ =>
    show win0_10.index _ (0 : Fin 2) * 256 ≤ (i 0).val ∧ (i 0).val < win0_10.index _ (0 : Fin 2) * 256 + 256
    rw [(index0_o10 _).1]; dsimp only; omega
  | ⟨1, _⟩ =>
    show win0_10.index _ (1 : Fin 2) * 512 ≤ (i 1).val ∧ (i 1).val < win0_10.index _ (1 : Fin 2) * 512 + 512
    rw [(index0_o10 _).2]; dsimp only; omega

/-- Block (mb, hb) of a 1024 x 4096 array, through result window 11, at (p, q). -/
theorem outBlk11_apply (t : Fin cfg0.N) (G : Vec Ideal S1024x4096 .f32) (p : Fin 256) (q : Fin 512) :
    ((cfg0.win 11).blk t).view.read (Elt Ideal) G (ix2 p q) = G (ix2 (rowOf t p) (colOf t q)) := by
  rw [View.read_apply]
  show G (((cfg0.win 11).blk t).view.emb (ix2 p q)) = G _
  refine congrArg G (funext fun a => Fin.ext ?_)
  match a with
  | ⟨0, _⟩ => show win0_11.index t (0 : Fin 2) * 256 + 1 * p.val = 256 * (t.val / 40) + p.val; rw [(index0_o11 t).1]; omega
  | ⟨1, _⟩ => show win0_11.index t (1 : Fin 2) * 512 + 1 * q.val = 512 * (t.val / 5 % 8) + q.val; rw [(index0_o11 t).2]; omega

/-- An entry of the array is in the point's block of window 11 iff each coordinate is in the block's range. -/
theorem mem_outBlk11 (t : Fin cfg0.N) (i : S1024x4096.Idx) :
    i ∈ ((cfg0.win 11).blk t).view.set ↔ ∀ a : Fin 2, win0_11.index t a * S256x512.size a ≤ (i a).val ∧ (i a).val < win0_11.index t a * S256x512.size a + S256x512.size a := by
  show i ∈ ((View.whole main_v6_1).slice (win0_11.rect t)).set ↔ _
  rw [View.set_slice_whole, Rect.mem_set_unit]
  exact Iff.rfl

/-- Every entry (r, n) is in the block written back at the last step of (r / 256, n / 512). -/
theorem cover0_11 (i : S1024x4096.Idx) :
    ∃ t : Fin cfg0.N, (cfg0.win 11).flush t = true ∧ i ∈ ((cfg0.win 11).blk t).view.set := by
  have hi0 : (i 0).val < 1024 := (i 0).isLt
  have hi1 : (i 1).val < 4096 := (i 1).isLt
  have hN : cfg0.N = 160 := N0_eq
  refine ⟨⟨((i 0).val / 256 * 8 + (i 1).val / 512) * 5 + 4, by omega⟩, (flush0_11 _).mpr (by dsimp only; omega), ?_⟩
  rw [mem_outBlk11]
  intro a
  match a with
  | ⟨0, _⟩ =>
    show win0_11.index _ (0 : Fin 2) * 256 ≤ (i 0).val ∧ (i 0).val < win0_11.index _ (0 : Fin 2) * 256 + 256
    rw [(index0_o11 _).1]; dsimp only; omega
  | ⟨1, _⟩ =>
    show win0_11.index _ (1 : Fin 2) * 512 ≤ (i 1).val ∧ (i 1).val < win0_11.index _ (1 : Fin 2) * 512 + 512
    rw [(index0_o11 _).2]; dsimp only; omega

/-- Block (mb, hb) of a 1024 x 4096 array, through result window 12, at (p, q). -/
theorem outBlk12_apply (t : Fin cfg0.N) (G : Vec Ideal S1024x4096 .f32) (p : Fin 256) (q : Fin 512) :
    ((cfg0.win 12).blk t).view.read (Elt Ideal) G (ix2 p q) = G (ix2 (rowOf t p) (colOf t q)) := by
  rw [View.read_apply]
  show G (((cfg0.win 12).blk t).view.emb (ix2 p q)) = G _
  refine congrArg G (funext fun a => Fin.ext ?_)
  match a with
  | ⟨0, _⟩ => show win0_12.index t (0 : Fin 2) * 256 + 1 * p.val = 256 * (t.val / 40) + p.val; rw [(index0_o12 t).1]; omega
  | ⟨1, _⟩ => show win0_12.index t (1 : Fin 2) * 512 + 1 * q.val = 512 * (t.val / 5 % 8) + q.val; rw [(index0_o12 t).2]; omega

/-- An entry of the array is in the point's block of window 12 iff each coordinate is in the block's range. -/
theorem mem_outBlk12 (t : Fin cfg0.N) (i : S1024x4096.Idx) :
    i ∈ ((cfg0.win 12).blk t).view.set ↔ ∀ a : Fin 2, win0_12.index t a * S256x512.size a ≤ (i a).val ∧ (i a).val < win0_12.index t a * S256x512.size a + S256x512.size a := by
  show i ∈ ((View.whole main_v6_2).slice (win0_12.rect t)).set ↔ _
  rw [View.set_slice_whole, Rect.mem_set_unit]
  exact Iff.rfl

/-- Every entry (r, n) is in the block written back at the last step of (r / 256, n / 512). -/
theorem cover0_12 (i : S1024x4096.Idx) :
    ∃ t : Fin cfg0.N, (cfg0.win 12).flush t = true ∧ i ∈ ((cfg0.win 12).blk t).view.set := by
  have hi0 : (i 0).val < 1024 := (i 0).isLt
  have hi1 : (i 1).val < 4096 := (i 1).isLt
  have hN : cfg0.N = 160 := N0_eq
  refine ⟨⟨((i 0).val / 256 * 8 + (i 1).val / 512) * 5 + 4, by omega⟩, (flush0_12 _).mpr (by dsimp only; omega), ?_⟩
  rw [mem_outBlk12]
  intro a
  match a with
  | ⟨0, _⟩ =>
    show win0_12.index _ (0 : Fin 2) * 256 ≤ (i 0).val ∧ (i 0).val < win0_12.index _ (0 : Fin 2) * 256 + 256
    rw [(index0_o12 _).1]; dsimp only; omega
  | ⟨1, _⟩ =>
    show win0_12.index _ (1 : Fin 2) * 512 ≤ (i 1).val ∧ (i 1).val < win0_12.index _ (1 : Fin 2) * 512 + 512
    rw [(index0_o12 _).2]; dsimp only; omega

section AtIdeal
variable (V : (c : Dev nD) → (b : Ref sig .tc) → Buf (Elt Ideal) ((c : Thread nD τ).loc b))

/-! ## The finished sums -/

/-- At a last step the four updated accumulators hold, at (p, q), the whole contractions of the four gates for the
    global entry. -/
theorem finished_sums (c : Dev nD) (t : Fin cfg0.N) (h0 : ¬t.val % 5 = 0) (h1 : t.val % 5 = 4) (p : Fin 256) (q : Fin 512) :
    updF V c t (outsAt0 V c (t.val - 1) (Nat.lt_of_le_of_lt (Nat.sub_le _ _) t.isLt)).2.1 (ix2 p q) = Cert.Spec.gatePartial (xArr V c) (wfArr V c) (rowOf t p) (colOf t q) 5
    ∧ updI V c t (outsAt0 V c (t.val - 1) (Nat.lt_of_le_of_lt (Nat.sub_le _ _) t.isLt)).2.2.1 (ix2 p q) = Cert.Spec.gatePartial (xArr V c) (wiArr V c) (rowOf t p) (colOf t q) 5
    ∧ updC V c t (outsAt0 V c (t.val - 1) (Nat.lt_of_le_of_lt (Nat.sub_le _ _) t.isLt)).2.2.2.1 (ix2 p q) = Cert.Spec.gatePartial (xArr V c) (wcArr V c) (rowOf t p) (colOf t q) 5
    ∧ updO V c t (outsAt0 V c (t.val - 1) (Nat.lt_of_le_of_lt (Nat.sub_le _ _) t.isLt)).2.2.2.2 (ix2 p q) = Cert.Spec.gatePartial (xArr V c) (woArr V c) (rowOf t p) (colOf t q) 5 := by
  obtain ⟨i0, i1, i2, i3⟩ := accAt_all V c t.val t.isLt p q
  rw [outsAt0_C V c t h0 h1, h1] at i0 i1 i2 i3
  rw [stepC0_acc0] at i0
  rw [stepC0_acc1] at i1
  rw [stepC0_acc2] at i2
  rw [stepC0_acc3] at i3
  exact ⟨i0, i1, i2, i3⟩

/-! ## What a last step writes back -/

/-- The input gate's block. -/
theorem flushed0_10_eq (c : Dev nD) (t : Fin cfg0.N) (hf : (cfg0.win 10).flush t = true) :
    (dat0 V c).flushed 10 t = ((cfg0.win 10).blk t).view.read (Elt Ideal) (Cert.Spec.itX (xArr V c) (wiArr V c) (biArr V c)) := by
  have h1 : t.val % 5 = 4 := (flush0_10 t).mp hf
  have h0 : ¬t.val % 5 = 0 := by omega
  show (cfg0.win 10).cut (grid0.coords t) ((dat0 V c).after 10 t) = _
  rw [after0_10, outsAt0_C V c t h0 h1, stepC0_out10]
  funext j
  obtain ⟨p, q, rfl⟩ : ∃ (p : Fin 256) (q : Fin 512), j = ix2 (n0 := 256) (n1 := 512) p q := ⟨j 0, j 1, eq_ix2 (n0 := 256) (n1 := 512) j⟩
  obtain ⟨-, s1, -, -⟩ := finished_sums V c t h0 h1 p q
  rw [outBlk10_apply]
  refine (pay3_apply _ (biBlk V c t) p q).trans ?_
  rw [s1, biBlk_apply]
  show _ = Ideal.logistic (Cert.Spec.preX (xArr V c) (wiArr V c) (biArr V c) (rowOf t p) (colOf t q))
  rw [Cert.Spec.preX_eq_partial]

/-- The cell state's block. -/
theorem flushed0_12_eq (c : Dev nD) (t : Fin cfg0.N) (hf : (cfg0.win 12).flush t = true) :
    (dat0 V c).flushed 12 t = ((cfg0.win 12).blk t).view.read (Elt Ideal) (Cert.Spec.ctX (xArr V c) (cArr V c) (wfArr V c) (bfArr V c) (wiArr V c) (biArr V c) (wcArr V c) (bcArr V c)) := by
  have h1 : t.val % 5 = 4 := (flush0_12 t).mp hf
  have h0 : ¬t.val % 5 = 0 := by omega
  show (cfg0.win 12).cut (grid0.coords t) ((dat0 V c).after 12 t) = _
  rw [after0_12, outsAt0_C V c t h0 h1, stepC0_out12]
  funext j
  obtain ⟨p, q, rfl⟩ : ∃ (p : Fin 256) (q : Fin 512), j = ix2 (n0 := 256) (n1 := 512) p q := ⟨j 0, j 1, eq_ix2 (n0 := 256) (n1 := 512) j⟩
  obtain ⟨s0, s1, s2, -⟩ := finished_sums V c t h0 h1 p q
  rw [outBlk12_apply]
  refine (pay4_apply _ (bfBlk V c t) _ (biBlk V c t) _ (bcBlk V c t) (cBlk V c t) p q).trans ?_
  rw [s0, s1, s2, bfBlk_apply, biBlk_apply, bcBlk_apply, cBlk_apply]
  show _ = Ideal.logistic (Cert.Spec.preX (xArr V c) (wfArr V c) (bfArr V c) (rowOf t p) (colOf t q)) * cArr V c (ix2 (rowOf t p) (colOf t q))
    + Ideal.logistic (Cert.Spec.preX (xArr V c) (wiArr V c) (biArr V c) (rowOf t p) (colOf t q)) * Ideal.tanh (Cert.Spec.preX (xArr V c) (wcArr V c) (bcArr V c) (rowOf t p) (colOf t q))
  rw [Cert.Spec.preX_eq_partial, Cert.Spec.preX_eq_partial, Cert.Spec.preX_eq_partial]

/-- The hidden state's block. -/
theorem flushed0_11_eq (c : Dev nD) (t : Fin cfg0.N) (hf : (cfg0.win 11).flush t = true) :
    (dat0 V c).flushed 11 t = ((cfg0.win 11).blk t).view.read (Elt Ideal) (Cert.Spec.htX (xArr V c) (cArr V c) (wfArr V c) (bfArr V c) (wiArr V c) (biArr V c) (wcArr V c) (bcArr V c) (woArr V c) (boArr V c)) := by
  have h1 : t.val % 5 = 4 := (flush0_11 t).mp hf
  have h0 : ¬t.val % 5 = 0 := by omega
  show (cfg0.win 11).cut (grid0.coords t) ((dat0 V c).after 11 t) = _
  rw [after0_11, outsAt0_C V c t h0 h1, stepC0_out11]
  funext j
  obtain ⟨p, q, rfl⟩ : ∃ (p : Fin 256) (q : Fin 512), j = ix2 (n0 := 256) (n1 := 512) p q := ⟨j 0, j 1, eq_ix2 (n0 := 256) (n1 := 512) j⟩
  obtain ⟨s0, s1, s2, s3⟩ := finished_sums V c t h0 h1 p q
  rw [outBlk11_apply]
  refine (pay5_apply _ (bfBlk V c t) _ (biBlk V c t) _ (bcBlk V c t) _ (boBlk V c t) (cBlk V c t) p q).trans ?_
  rw [pay4_apply, s0, s1, s2, s3, bfBlk_apply, biBlk_apply, bcBlk_apply, boBlk_apply, cBlk_apply]
  show _ = Ideal.logistic (Cert.Spec.preX (xArr V c) (woArr V c) (boArr V c) (rowOf t p) (colOf t q))
    * Ideal.tanh (Ideal.logistic (Cert.Spec.preX (xArr V c) (wfArr V c) (bfArr V c) (rowOf t p) (colOf t q)) * cArr V c (ix2 (rowOf t p) (colOf t q))
      + Ideal.logistic (Cert.Spec.preX (xArr V c) (wiArr V c) (biArr V c) (rowOf t p) (colOf t q)) * Ideal.tanh (Cert.Spec.preX (xArr V c) (wcArr V c) (bcArr V c) (rowOf t p) (colOf t q)))
  rw [Cert.Spec.preX_eq_partial, Cert.Spec.preX_eq_partial, Cert.Spec.preX_eq_partial, Cert.Spec.preX_eq_partial]

end AtIdeal

/-! ## The three result arrays after the region -/

/-- The input gate. -/
theorem final0_10 (V : (c : Dev nD) → (b : Ref sig .tc) → Buf (Elt Ideal) ((c : Thread nD τ).loc b)) (c : Dev nD) :
    (dat0 (F := Ideal) V c).arrAt 10 cfg0.N = Cert.Spec.itX (V c main_v0) (V c main_arg5) (V c main_v2) :=
  (dat0 (F := Ideal) V c).arrAt_eq_of_cover 10 (Cert.Spec.itX (xArr V c) (wiArr V c) (biArr V c)) (fun t hf => flushed0_10_eq V c t hf) cover0_10

/-- The hidden state. -/
theorem final0_11 (V : (c : Dev nD) → (b : Ref sig .tc) → Buf (Elt Ideal) ((c : Thread nD τ).loc b)) (c : Dev nD) :
    (dat0 (F := Ideal) V c).arrAt 11 cfg0.N = Cert.Spec.htX (V c main_v0) (V c main_arg2) (V c main_arg3) (V c main_v1) (V c main_arg5) (V c main_v2) (V c main_arg7) (V c main_v3) (V c main_arg9) (V c main_v4) :=
  (dat0 (F := Ideal) V c).arrAt_eq_of_cover 11 (Cert.Spec.htX (xArr V c) (cArr V c) (wfArr V c) (bfArr V c) (wiArr V c) (biArr V c) (wcArr V c) (bcArr V c) (woArr V c) (boArr V c)) (fun t hf => flushed0_11_eq V c t hf) cover0_11

/-- The cell state. -/
theorem final0_12 (V : (c : Dev nD) → (b : Ref sig .tc) → Buf (Elt Ideal) ((c : Thread nD τ).loc b)) (c : Dev nD) :
    (dat0 (F := Ideal) V c).arrAt 12 cfg0.N = Cert.Spec.ctX (V c main_v0) (V c main_arg2) (V c main_arg3) (V c main_v1) (V c main_arg5) (V c main_v2) (V c main_arg7) (V c main_v3) :=
  (dat0 (F := Ideal) V c).arrAt_eq_of_cover 12 (Cert.Spec.ctX (xArr V c) (cArr V c) (wfArr V c) (bfArr V c) (wiArr V c) (biArr V c) (wcArr V c) (bcArr V c)) (fun t hf => flushed0_12_eq V c t hf) cover0_12

end Cert.KernelIdeal.Fr

end
-- ==== Proof.KI.R1Pieces.lean ====
/-
  The output layer's body, case by case, as values: what each case's stores leave in the accumulator and in the output
  block, as the arithmetic of the blocks the case loads.

  A first point of a row block (k = 0) stores the zero block, reads it back and adds the first partial product to it; a
  later point adds its partial product to what the point before left; the last point (k = 7) moreover adds the bias to
  the accumulator it has just stored and stores the rows' log-softmax of that into the output block. Every store covers
  its whole buffer, so what a buffer holds afterwards is the last store's value, and a load after a store of the same
  buffer reads that store's value.
-/
import proofs.«145808_j60842506715793_1_alg».proof.Proof.KI.R1Data
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every store and load of the body starts at the origin of its buffer. -/
theorem origin2 : (![0, 0] : Fin 2 → Nat) = fun _ => 0 := funext fun a => by fin_cases a <;> rfl

/-- A first point leaves in the accumulator the first partial product added to the zero block. -/
theorem sout1_A_0_eq (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : cond1_0 i) (hc1 : ¬cond1_1 i)
    (x0 : Vec F S128x512 .f32) (x1 : Vec F S4096x512 .f32) (x2 : Vec F S1x4096 .f32) :
    sout1_A_0 c i arg2 harg2 arg3 harg3 arg4 harg4 arg5 harg5 arg6 harg6 hc0 hc1 x0 x1 x2 = k1_pay2 x0 x1 k1_pay1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S128x4096) origin2, View.readCov_unit_zero (S := S128x4096) _ origin2]
  simp only [View.readAt_eq_ld, harg2.read_unread, harg3.read_unread, View.ld_unit_zero (S := S128x512) origin2,
    View.ld_unit_zero (S := S4096x512) origin2]

/-- A middle point leaves in the accumulator its partial product added to what the accumulator held. -/
theorem sout1_B_0_eq (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : ¬cond1_1 i)
    (x0 : Vec F S128x512 .f32) (x1 : Vec F S4096x512 .f32) (x2 : Vec F S1x4096 .f32) (xs0 : Vec F S128x4096 .f32) :
    sout1_B_0 c i arg2 harg2 arg3 harg3 arg4 harg4 arg5 harg5 arg6 harg6 hc0 hc1 x0 x1 x2 xs0 = k1_pay2 x0 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero origin2]
  simp only [View.readAt_eq_ld, harg2.read_unread, harg3.read_unread, harg6.read_unread, View.ld_unit_zero (S := S128x512) origin2,
    View.ld_unit_zero (S := S4096x512) origin2, View.ld_unit_zero (S := S128x4096) origin2]

/-- A last point leaves the same in the accumulator. -/
theorem sout1_C_0_eq (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) :
    sout1_C_0 c i arg2 harg2 arg3 harg3 arg4 harg4 arg5 harg5 arg6 harg6 hc0 hc1 x0 x1 x2 xs0 = k1_pay2 x0 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero origin2]
  simp only [View.readAt_eq_ld, harg2.read_unread, harg3.read_unread, harg6.read_unread, View.ld_unit_zero (S := S128x512) origin2,
    View.ld_unit_zero (S := S4096x512) origin2, View.ld_unit_zero (S := S128x4096) origin2]

/-- A last point leaves in the output block the rows' log-softmax of the bias added to the accumulator it has just
    stored. -/
theorem out1_C_3_eq (c : Dev nD) (i : grid1.Coords) (arg2 : Memref sig .tc .vmem S128x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .f32) (harg6 : arg6.IsWhole) (hc0 : ¬cond1_0 i) (hc1 : cond1_1 i)
    (x0 : Vec F S128x512 .f32) (x1 : Vec F S4096x512 .f32) (x2 : Vec F S1x4096 .f32) (xs0 : Vec F S128x4096 .f32) :
    out1_C_3 c i arg2 harg2 arg3 harg3 arg4 harg4 arg5 harg5 arg6 harg6 hc0 hc1 x0 x1 x2 xs0 = k1_pay3 (k1_pay2 x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero origin2]
  simp only [View.readAt_eq_ld, harg2.read_unread, harg3.read_unread, harg4.read_unread, harg6.read_unread,
    View.ld_unit_zero (S := S128x512) origin2, View.ld_unit_zero (S := S4096x512) origin2, View.ld_unit_zero (S := S128x4096) origin2,
    View.ld_unit_zero (S := S1x4096) origin2, View.readCov_unit_zero (S := S128x4096) _ origin2]

end Cert.KernelIdeal.Fr

end
-- ==== Proof.KI.R1Payload.lean ====
/-
  The output layer's three payloads read at an index, on the extended reals.

  The zero block is zero everywhere. The update adds to the accumulator, at (p, q), the sum over the 512 columns kk of
  the hidden-state block at (p, kk) times the weight block at (q, kk): both operands are contracted along their second
  axis, the conversion to bf16 is the identity on the extended reals, and the product is accumulated into a zero splat.
  The epilogue adds the bias row to the accumulator and takes the log-softmax along each row: the row's maximum (the
  fold of max from -infinity) subtracted, then the logarithm of the row's sum of exponentials subtracted.
-/
import proofs.«145808_j60842506715793_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.ValueIdx
open scoped BigOperators

/-! ## The contraction's index maps -/

theorem lhs_out_0 (j : S128x4096.Idx) (k : dot_S128x512_S4096x512_S128x4096_1_1_0_0_n_n.contr.Idx) :
    (dot_S128x512_S4096x512_S128x4096_1_1_0_0_n_n.lhsIdx j k 0).val = (j 0).val := by
  unfold DotDims.lhsIdx
  rw [dif_neg (show ¬(0 : Fin S128x512.rank) ∈ dot_S128x512_S4096x512_S128x4096_1_1_0_0_n_n.lhsBatch by decide), dif_pos (show (0 : Fin S128x512.rank) ∈ dot_S128x512_S4096x512_S128x4096_1_1_0_0_n_n.lhsNonContracting by decide)]
  rfl
theorem lhs_out_1 (j : S128x4096.Idx) (k : dot_S128x512_S4096x512_S128x4096_1_1_0_0_n_n.contr.Idx) :
    (dot_S128x512_S4096x512_S128x4096_1_1_0_0_n_n.lhsIdx j k 1).val = (k ⟨0, by decide⟩).val :=
  dot_S128x512_S4096x512_S128x4096_1_1_0_0_n_n.lhsIdx_val_of_single rfl j k
theorem rhs_out_0 (j : S128x4096.Idx) (k : dot_S128x512_S4096x512_S128x4096_1_1_0_0_n_n.contr.Idx) :
    (dot_S128x512_S4096x512_S128x4096_1_1_0_0_n_n.rhsIdx j k 0).val = (j 1).val := by
  unfold DotDims.rhsIdx
  rw [dif_neg (show ¬(0 : Fin S4096x512.rank) ∈ dot_S128x512_S4096x512_S128x4096_1_1_0_0_n_n.rhsBatch by decide), dif_pos (show (0 : Fin S4096x512.rank) ∈ dot_S128x512_S4096x512_S128x4096_1_1_0_0_n_n.rhsNonContracting by decide)]
  rfl
theorem rhs_out_1 (j : S128x4096.Idx) (k : dot_S128x512_S4096x512_S128x4096_1_1_0_0_n_n.contr.Idx) :
    (dot_S128x512_S4096x512_S128x4096_1_1_0_0_n_n.rhsIdx j k 1).val = (k ⟨0, by decide⟩).val :=
  dot_S128x512_S4096x512_S128x4096_1_1_0_0_n_n.rhsIdx_val_of_single rfl j k

/-! ## The zero block and the update -/

/-- The zero block is zero at every index. -/
theorem zero_block_apply (j : S128x4096.Idx) : k1_pay1 (F := Ideal) j = 0 := by
  unfold k1_pay1
  simp only [shapeCast_self]
  exact Ideal.ofBits_zero_f32

/-- The update at (p, q): the accumulator there plus the 512-term product of row p of the hidden-state block with row q
    of the weight block. -/
theorem update_apply (x0 : Vec Ideal S128x512 .f32) (x1 : Vec Ideal S4096x512 .f32) (acc : Vec Ideal S128x4096 .f32)
    (p : Fin 128) (q : Fin 4096) :
    k1_pay2 (F := Ideal) x0 x1 acc (ix2 p q) = acc (ix2 p q) + ∑ kk : Fin 512, x0 (ix2 p kk) * x1 (ix2 q kk) := by
  unfold k1_pay2
  simp only [shapeCast_self]
  refine congrArg (acc (ix2 p q) + ·) ((Ideal.matmul_constant_zero_apply dot_S128x512_S4096x512_S128x4096_1_1_0_0_n_n none _ _ (ix2 p q)).trans ?_)
  rw [← Equiv.sum_comp (contrEquiv1 dot_S128x512_S4096x512_S128x4096_1_1_0_0_n_n 512 rfl rfl).symm]
  refine Finset.sum_congr rfl fun kk _ => ?_
  have hk := contrEquiv1_symm_val dot_S128x512_S4096x512_S128x4096_1_1_0_0_n_n 512 rfl rfl kk
  have el : dot_S128x512_S4096x512_S128x4096_1_1_0_0_n_n.lhsIdx (ix2 p q) ((contrEquiv1 dot_S128x512_S4096x512_S128x4096_1_1_0_0_n_n 512 rfl rfl).symm kk) = ix2 p kk := funext fun a => Fin.ext (by
    match a with
    | ⟨0, _⟩ => exact lhs_out_0 _ _
    | ⟨1, _⟩ => exact (lhs_out_1 _ _).trans hk)
  have er : dot_S128x512_S4096x512_S128x4096_1_1_0_0_n_n.rhsIdx (ix2 p q) ((contrEquiv1 dot_S128x512_S4096x512_S128x4096_1_1_0_0_n_n 512 rfl rfl).symm kk) = ix2 q kk := funext fun a => Fin.ext (by
    match a with
    | ⟨0, _⟩ => exact rhs_out_0 _ _
    | ⟨1, _⟩ => exact (rhs_out_1 _ _).trans hk)
  rw [el, er]
  rfl

/-! ## The epilogue -/

section Columns
variable {α : Type}

/-- A column [128, 1] broadcast along the rows reads, at (p, q), the column at p. -/
theorem column_broadcast_apply (u : S128x1.Idx → α) (h : S128x1.Broadcasts S128x4096) (p : Fin 128) (q : Fin 4096) :
    broadcastTo S128x4096 u h (ix2 p q) = u (ix2 p (0 : Fin 1)) := by
  refine broadcastTo_apply u h (ix2 p q) (ix2 p (0 : Fin 1)) fun ax => ?_
  match ax with
  | ⟨0, _⟩ => rfl
  | ⟨1, _⟩ => rfl

/-- A vector [128] cast to a column [128, 1] reads, at (p, 0), the vector at p. -/
theorem column_cast_apply (w : S128.Idx → α) (h : S128.ShapeCasts S128x1) (p : Fin 128) (z : Fin 1) :
    shapeCast S128x1 w h (ix2 p z) = w (ix1 p) := by
  refine shapeCast_apply w h (ix2 p z) (ix1 p) ?_
  rw [Shape.rowMajor_val_two, Shape.rowMajor_val_one]
  show p.val = p.val * 1 + z.val
  have := z.isLt
  omega

/-- The index a row reduction reads at row p and column n. -/
theorem row_lift (h : S128x4096.Reduces [1] S128) (p : Fin 128) (n : Fin 4096) : h.lift (ix1 p) n = ix2 p n :=
  funext fun a => Fin.ext (by
    match a with
    | ⟨0, _⟩ => rfl
    | ⟨1, _⟩ => rfl)

end Columns

/-- The f32 pattern of -infinity is the bottom of the extended reals. -/
theorem ofBits_neg_inf_f32 : Ideal.ofBits .f32 0xFF800000#32 = ⊥ := by simp [Ideal.ofBits, Ideal.ieee]

/-- The rows' maxima, as a column broadcast back along the rows: at (p, q) the fold of max from -infinity over row p. -/
theorem row_max_apply (Z : FVec Ideal S128x4096 .f32) (hr : S128x4096.Reduces [1] S128) (hφ : FKind.Formats .f32)
    (hacc : (0xFF800000#32 : BitVec 32) = FKind.maximumf.neutral .f32 hφ) (hc : S128.ShapeCasts S128x1)
    (hb : S128x1.Broadcasts S128x4096) (p : Fin 128) (q : Fin 4096) :
    broadcastTo S128x4096 (shapeCast S128x1 (multiReduction .maximumf [1] S128 Z 0xFF800000#32 hr hφ hacc) hc) hb (ix2 p q)
      = (Finset.univ : Finset (Fin 4096)).fold max ⊥ (fun n => Z (ix2 p n)) := by
  refine (column_broadcast_apply _ hb p q).trans ((column_cast_apply _ hc p 0).trans ?_)
  refine (Ideal.multiReduction_maximumf_single Z _ hr hφ hacc (ix1 p)).trans ?_
  show (Finset.univ : Finset (Fin 4096)).fold max (Ideal.ofBits .f32 0xFF800000#32) (fun n => Z (hr.lift (ix1 p) n)) = _
  rw [ofBits_neg_inf_f32]
  exact congrArg ((Finset.univ : Finset (Fin 4096)).fold max ⊥) (funext fun n => congrArg Z (row_lift hr p n))

/-- The logarithms of the rows' sums, as a column broadcast back along the rows. -/
theorem row_logsum_apply (E : FVec Ideal S128x4096 .f32) (hr : S128x4096.Reduces [1] S128) (hφ : FKind.Formats .f32)
    (hacc : (0x00000000#32 : BitVec 32) = FKind.add.neutral .f32 hφ) (hc : S128.ShapeCasts S128x1)
    (hb : S128x1.Broadcasts S128x4096) (p : Fin 128) (q : Fin 4096) :
    broadcastTo S128x4096 (log (shapeCast S128x1 (multiReduction .add [1] S128 E 0x00000000#32 hr hφ hacc) hc)) hb (ix2 p q)
      = Ideal.log (∑ n : Fin 4096, E (ix2 p n)) := by
  refine (column_broadcast_apply _ hb p q).trans ?_
  show Ideal.log (shapeCast S128x1 (multiReduction .add [1] S128 E 0x00000000#32 hr hφ hacc) hc (ix2 p (0 : Fin 1))) = _
  refine congrArg Ideal.log ((column_cast_apply _ hc p 0).trans ?_)
  refine (Ideal.multiReduction_add_single E _ hr hφ hacc (ix1 p)).trans ?_
  show ∑ n : Fin 4096, E (hr.lift (ix1 p) n) = _
  exact Finset.sum_congr rfl fun n _ => congrArg E (row_lift hr p n)

/-- A row block's logits: the accumulator plus the bias row. -/
def logitBlk (acc : Vec Ideal S128x4096 .f32) (b : Vec Ideal S1x4096 .f32) (p : Fin 128) (n : Fin 4096) : EReal :=
  acc (ix2 p n) + b (ix2 (0 : Fin 1) n)

/-- The maximum of row p of a block: the fold of max from -infinity. -/
def rowMaxBlk (z : Fin 128 → Fin 4096 → EReal) (p : Fin 128) : EReal :=
  (Finset.univ : Finset (Fin 4096)).fold max ⊥ (z p)

/-- The epilogue at (p, q): the log-softmax of row p of the logits, at q. -/
theorem epilogue_apply (acc : Vec Ideal S128x4096 .f32) (b : Vec Ideal S1x4096 .f32) (p : Fin 128) (q : Fin 4096) :
    k1_pay3 (F := Ideal) acc b (ix2 p q)
      = (logitBlk acc b p q - rowMaxBlk (logitBlk acc b) p)
        - Ideal.log (∑ n : Fin 4096, Ideal.exp (logitBlk acc b p n - rowMaxBlk (logitBlk acc b) p)) := by
  unfold k1_pay3
  simp only [shapeCast_self]
  -- the logits, the rows' maxima and the shifted logits, each read along row p
  have hZ : ∀ n : Fin 4096, addf (F := Ideal) (φ := .f32) acc (broadcastTo S128x4096 b broadcasts_S1x4096_S128x4096) (ix2 p n) = logitBlk acc b p n :=
    fun n => congrArg (acc (ix2 p n) + ·) (broadcastTo_1b_ab_apply b broadcasts_S1x4096_S128x4096 p n)
  have hM : ∀ n : Fin 4096, broadcastTo S128x4096 (shapeCast S128x1 (multiReduction (F := Ideal) (φ := .f32) .maximumf [1] S128
        (addf (F := Ideal) (φ := .f32) acc (broadcastTo S128x4096 b broadcasts_S1x4096_S128x4096)) 0xFF800000#32 reduces_S128x4096_S128 (.inl rfl) rfl)
        shapeCasts_S128_S128x1) broadcasts_S128x1_S128x4096 (ix2 p n) = rowMaxBlk (logitBlk acc b) p :=
    fun n => (row_max_apply _ _ _ _ _ _ p n).trans
      (congrArg ((Finset.univ : Finset (Fin 4096)).fold max ⊥) (funext fun m => hZ m))
  refine congrArg₂ (· - ·) (congrArg₂ (· - ·) (hZ q) (hM q)) ((row_logsum_apply _ _ _ _ _ _ p q).trans ?_)
  refine congrArg Ideal.log (Finset.sum_congr rfl fun n _ => ?_)
  exact congrArg Ideal.exp (congrArg₂ (· - ·) (hZ n) (hM n))

end Cert.KernelIdeal.Fr

end
-- ==== Proof.KI.R1Acc.lean ====
/-
  The output layer's accumulator, point by point, on the extended reals.

  The grid is 8 x 8 and the point t is (t / 8, t % 8): the row block and the step along the contraction. At the point t
  the body loads rows 128 (t / 8) ... of the hidden state at columns 512 (t % 8) ..., all 4096 rows of the weight at the
  same columns, and the bias row. By induction on the point, the accumulator after t holds at (p, q) the sum, over the
  column blocks j up to t % 8, of the 512-term products of row 128 (t / 8) + p of the hidden state with row q of the
  weight along the columns of block j. After a last point (t % 8 = 7) the eight blocks are all 4096 columns, so the
  accumulator holds the full products, and the output block holds the log-softmax of the rows' logits.
-/
import proofs.«145808_j60842506715793_1_alg».proof.Proof.KI.R1Pieces
import proofs.«145808_j60842506715793_1_alg».proof.Proof.KI.R1Payload
import proofs.«145808_j60842506715793_1_alg».proof.Proof.SpecK
import proofs.«145808_j60842506715793_1_alg».proof.Proof.LibBlockSum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## The arrays and the blocks, named at their literal types -/

section Blocks
variable {F : FTy → Type} [FloatOps F]
variable (V : (c : Dev nD) → (b : Ref sig .tc) → Buf (Elt F) ((c : Thread nD τ).loc b))

/-- The hidden state as the region finds it. -/
abbrev hidArr (c : Dev nD) : Vec F S1024x4096 .f32 := V c main_v6_1
/-- The output layer's weight. -/
abbrev wgtArr (c : Dev nD) : Vec F S4096x4096 .f32 := V c main_arg11
/-- The output layer's bias, as one row. -/
abbrev biasArr (c : Dev nD) : Vec F S1x4096 .f32 := V c main_v5

/-- The three blocks the body loads at a point. -/
abbrev hidBlk (c : Dev nD) (t : Fin cfg1.N) : Vec F S128x512 .f32 := iblk1 V c 0 t
abbrev wgtBlk (c : Dev nD) (t : Fin cfg1.N) : Vec F S4096x512 .f32 := iblk1 V c 1 t
abbrev biasBlk (c : Dev nD) (t : Fin cfg1.N) : Vec F S1x4096 .f32 := iblk1 V c 2 t

/-- The block indices of the windows at a point, decided over the grid: the point t is (t / 8, t % 8). -/
theorem index1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem index1_1 : ∀ t : Fin cfg1.N, win1_1.index t 0 = 0 ∧ win1_1.index t 1 = t.val % 8 :=
  (by decide +kernel : ∀ t : Fin grid1.N, win1_1.index t 0 = 0 ∧ win1_1.index t 1 = t.val % 8)
theorem index1_2 : ∀ t : Fin cfg1.N, win1_2.index t 0 = 0 ∧ win1_2.index t 1 = 0 :=
  (by decide +kernel : ∀ t : Fin grid1.N, win1_2.index t 0 = 0 ∧ win1_2.index t 1 = 0)
theorem index1_3 : ∀ t : Fin cfg1.N, win1_3.index t 0 = t.val / 8 ∧ win1_3.index t 1 = 0 :=
  (by decide +kernel : ∀ t : Fin grid1.N, win1_3.index t 0 = t.val / 8 ∧ win1_3.index t 1 = 0)

/-- The hidden-state block at t reads rows 128 (t / 8) + p and columns 512 (t % 8) + kk of the array. -/
theorem hidBlk_apply (c : Dev nD) (t : Fin cfg1.N) (p : Fin 128) (kk : Fin 512) (r : Fin 1024) (k : Fin 4096)
    (hr : r.val = 128 * (t.val / 8) + p.val) (hk : k.val = 512 * (t.val % 8) + kk.val) :
    hidBlk V c t (ix2 p kk) = hidArr V c (ix2 r k) := by
  show iblk1 V c 0 t (ix2 p kk) = _
  unfold iblk1
  rw [View.read_apply]
  show V c main_v6_1 _ = V c main_v6_1 _
  congr 1
  funext a
  apply Fin.ext
  match a with
  | ⟨0, _⟩ => show win1_0.index t 0 * 128 + 1 * p.val = r.val; rw [(index1_0 t).1, hr]; omega
  | ⟨1, _⟩ => show win1_0.index t 1 * 512 + 1 * kk.val = k.val; rw [(index1_0 t).2, hk]; omega

/-- The weight block at t reads every row at columns 512 (t % 8) + kk. -/
theorem wgtBlk_apply (c : Dev nD) (t : Fin cfg1.N) (q : Fin 4096) (kk : Fin 512) (k : Fin 4096)
    (hk : k.val = 512 * (t.val % 8) + kk.val) :
    wgtBlk V c t (ix2 q kk) = wgtArr V c (ix2 q k) := by
  show iblk1 V c 1 t (ix2 q kk) = _
  unfold iblk1
  rw [View.read_apply]
  show V c main_arg11 _ = V c main_arg11 _
  congr 1
  funext a
  apply Fin.ext
  match a with
  | ⟨0, _⟩ => show win1_1.index t 0 * 4096 + 1 * q.val = q.val; rw [(index1_1 t).1]; omega
  | ⟨1, _⟩ => show win1_1.index t 1 * 512 + 1 * kk.val = k.val; rw [(index1_1 t).2, hk]; omega

/-- The bias block is the bias row at every point. -/
theorem biasBlk_apply (c : Dev nD) (t : Fin cfg1.N) (z : Fin 1) (n : Fin 4096) :
    biasBlk V c t (ix2 z n) = biasArr V c (ix2 z n) := by
  show iblk1 V c 2 t (ix2 z n) = _
  unfold iblk1
  rw [View.read_apply]
  show V c main_v5 _ = V c main_v5 _
  congr 1
  funext a
  apply Fin.ext
  match a with
  | ⟨0, _⟩ => show win1_2.index t 0 * 1 + 1 * z.val = z.val; rw [(index1_2 t).1]; omega
  | ⟨1, _⟩ => show win1_2.index t 1 * 4096 + 1 * n.val = n.val; rw [(index1_2 t).2]; omega

end Blocks

/-! ## The accumulator -/

/-- The product of row r of the hidden state with row q of the weight along the j-th block of 512 columns. -/
def blockProd (H : Vec Ideal S1024x4096 .f32) (W : Vec Ideal S4096x4096 .f32) (r : Fin 1024) (q : Fin 4096) (j : ℕ) : EReal :=
  if hj : j < 8 then
    ∑ kk : Fin 512, H (ix2 r ⟨512 * j + kk.val, by have := kk.isLt; omega⟩) * W (ix2 q ⟨512 * j + kk.val, by have := kk.isLt; omega⟩)
  else 0

section Acc
variable (V : (c : Dev nD) → (b : Ref sig .tc) → Buf (Elt Ideal) ((c : Thread nD τ).loc b))

/-- The product of the two blocks loaded at t, at (p, q), is the block product of the arrays for the column block t % 8. -/
theorem block_term (c : Dev nD) (t : Fin cfg1.N) (p : Fin 128) (q : Fin 4096) (r : Fin 1024)
    (hr : r.val = 128 * (t.val / 8) + p.val) :
    (∑ kk : Fin 512, hidBlk V c t (ix2 p kk) * wgtBlk V c t (ix2 q kk))
      = blockProd (hidArr V c) (wgtArr V c) r q (t.val % 8) := by
  have h8 : t.val % 8 < 8 := Nat.mod_lt _ (by decide)
  unfold blockProd
  rw [dif_pos h8]
  refine Finset.sum_congr rfl fun kk _ => ?_
  rw [hidBlk_apply V c t p kk r ⟨512 * (t.val % 8) + kk.val, by have := kk.isLt; omega⟩ hr rfl,
    wgtBlk_apply V c t q kk ⟨512 * (t.val % 8) + kk.val, by have := kk.isLt; omega⟩ rfl]

/-- After a first point of a row block the accumulator holds the first block's product (added to zero). -/
theorem first_point_apply (c : Dev nD) (t : Fin cfg1.N) (h0 : t.val % 8 = 0) (h1 : ¬t.val % 8 = 7) (p : Fin 128) (q : Fin 4096) :
    (outsAt1 V c t.val t.isLt).2 (ix2 p q) = 0 + ∑ kk : Fin 512, hidBlk V c t (ix2 p kk) * wgtBlk V c t (ix2 q kk) := by
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) (ix2 p q)).trans ?_
  refine (update_apply (hidBlk V c t) (wgtBlk V c t) (k1_pay1 (F := Ideal)) p q).trans ?_
  rw [zero_block_apply]

/-- After a later point it holds what the point before left plus this point's block product. -/
theorem later_point_apply (c : Dev nD) (t : Fin cfg1.N) (h0 : ¬t.val % 8 = 0) (p : Fin 128) (q : Fin 4096) :
    (outsAt1 V c t.val t.isLt).2 (ix2 p q)
      = (outsAt1 V c (t.val - 1) (Nat.lt_of_le_of_lt (Nat.sub_le _ _) t.isLt)).2 (ix2 p q)
        + ∑ kk : Fin 512, hidBlk V c t (ix2 p kk) * wgtBlk V c t (ix2 q kk) := by
  by_cases h1 : t.val % 8 = 7
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 p q)).trans ?_
    exact update_apply (hidBlk V c t) (wgtBlk V c t) (outsAt1 V c (t.val - 1) (Nat.lt_of_le_of_lt (Nat.sub_le _ _) t.isLt)).2 p q
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) (ix2 p q)).trans ?_
    exact update_apply (hidBlk V c t) (wgtBlk V c t) (outsAt1 V c (t.val - 1) (Nat.lt_of_le_of_lt (Nat.sub_le _ _) t.isLt)).2 p q

/-- THE INVARIANT. After the point n the accumulator holds, at (p, q), the block products of row 128 (n / 8) + p of the
    hidden state with row q of the weight over the column blocks 0, ..., n % 8. -/
theorem acc_eq (c : Dev nD) : ∀ (n : ℕ) (hn : n < cfg1.N) (p : Fin 128) (q : Fin 4096) (r : Fin 1024),
    r.val = 128 * (n / 8) + p.val →
    (outsAt1 V c n hn).2 (ix2 p q) = ∑ j ∈ Finset.range (n % 8 + 1), blockProd (hidArr V c) (wgtArr V c) r q j
  | 0, hn, p, q, r, hr => by
    refine (first_point_apply V c ⟨0, hn⟩ rfl (by dsimp only; omega) p q).trans ?_
    rw [block_term V c ⟨0, hn⟩ p q r hr, zero_add]
    exact (Finset.sum_range_one _).symm
  | n + 1, hn, p, q, r, hr => by
    by_cases h0 : (n + 1) % 8 = 0
    · refine (first_point_apply V c ⟨n + 1, hn⟩ h0 (by dsimp only; omega) p q).trans ?_
      rw [block_term V c ⟨n + 1, hn⟩ p q r hr, zero_add]
      show blockProd (hidArr V c) (wgtArr V c) r q ((n + 1) % 8) = _
      rw [h0]
      exact (Finset.sum_range_one _).symm
    · refine (later_point_apply V c ⟨n + 1, hn⟩ h0 p q).trans ?_
      rw [block_term V c ⟨n + 1, hn⟩ p q r hr]
      show (outsAt1 V c n _).2 (ix2 p q) + blockProd (hidArr V c) (wgtArr V c) r q ((n + 1) % 8) = _
      rw [acc_eq c n (Nat.lt_of_succ_lt hn) p q r (by omega)]
      have e : (n + 1) % 8 = n % 8 + 1 := by omega
      rw [e]
      exact (Finset.sum_range_succ _ _).symm

/-- After a last point of a row block the eight column blocks are all 4096 columns: the accumulator holds the full
    products of row 128 (t / 8) + p of the hidden state with the rows of the weight. -/
theorem full_product (c : Dev nD) (t : Fin cfg1.N) (h7 : t.val % 8 = 7) (p : Fin 128) (q : Fin 4096) (r : Fin 1024)
    (hr : r.val = 128 * (t.val / 8) + p.val) :
    (outsAt1 V c t.val t.isLt).2 (ix2 p q) = ∑ k : Fin 4096, hidArr V c (ix2 r k) * wgtArr V c (ix2 q k) := by
  rw [acc_eq V c t.val t.isLt p q r hr, h7]
  show ∑ j ∈ Finset.range 8, blockProd (hidArr V c) (wgtArr V c) r q j = _
  rw [Finset.sum_range,
    Cert.LibBlockSum.sum_blocks (m := 8) (n := 512) (N := 4096) rfl (fun k => hidArr V c (ix2 r k) * wgtArr V c (ix2 q k))]
  refine Finset.sum_congr rfl fun j _ => ?_
  unfold blockProd
  exact dif_pos j.isLt

/-- So the output block a last point stores holds, at (p, q), the specification's output at row 128 (t / 8) + p. -/
theorem out_block_apply (c : Dev nD) (t : Fin cfg1.N) (h7 : t.val % 8 = 7) (p : Fin 128) (q : Fin 4096) (r : Fin 1024)
    (hr : r.val = 128 * (t.val / 8) + p.val) :
    (outsAt1 V c t.val t.isLt).1 (ix2 p q) = Cert.Spec.outX (hidArr V c) (wgtArr V c) (biasArr V c) (ix2 r q) := by
  have h0 : ¬t.val % 8 = 0 := by omega
  have hacc : (outsAt1 V c t.val t.isLt).2 = k1_pay2 (hidBlk V c t) (wgtBlk V c t) (outsAt1 V c (t.val - 1) (Nat.lt_of_le_of_lt (Nat.sub_le _ _) t.isLt)).2 := by
    rw [outsAt1_C V c t h0 h7]
    dsimp only
    exact sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h7) (iblk1 V c 0 t) (iblk1 V c 1 t) (iblk1 V c 2 t) (outsAt1 V c (t.val - 1) (Nat.lt_of_le_of_lt (Nat.sub_le _ _) t.isLt)).2
  have hout : (outsAt1 V c t.val t.isLt).1 = k1_pay3 (k1_pay2 (hidBlk V c t) (wgtBlk V c t) (outsAt1 V c (t.val - 1) (Nat.lt_of_le_of_lt (Nat.sub_le _ _) t.isLt)).2) (biasBlk V c t) := by
    rw [outsAt1_C V c t h0 h7]
    dsimp only
    exact out1_C_3_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h7) (iblk1 V c 0 t) (iblk1 V c 1 t) (iblk1 V c 2 t) (outsAt1 V c (t.val - 1) (Nat.lt_of_le_of_lt (Nat.sub_le _ _) t.isLt)).2
  rw [hout, ← hacc]
  refine (epilogue_apply (outsAt1 V c t.val t.isLt).2 (biasBlk V c t) p q).trans ?_
  have hrow : logitBlk (outsAt1 V c t.val t.isLt).2 (biasBlk V c t) p
      = Cert.Spec.logitX (hidArr V c) (wgtArr V c) (biasArr V c) r := funext fun n => by
    unfold logitBlk Cert.Spec.logitX
    rw [full_product V c t h7 p n r hr, biasBlk_apply V c t 0 n]
  unfold rowMaxBlk
  rw [hrow]
  rfl

end Acc

end Cert.KernelIdeal.Fr

end
-- ==== Proof.KI.R1Value.lean ====
/-
  The output layer's value: the array the region writes ends holding the specification's output.

  The output window is written back exactly at the last points of the row blocks (t % 8 = 7), and what is written back
  there is the block of rows 128 (t / 8) ... of the specification's output, all 4096 columns. Row r of the array lies
  in the block of the point 8 (r / 128) + 7, so the blocks written back cover the array.
-/
import proofs.«145808_j60842506715793_1_alg».proof.Proof.KI.R1Acc

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

section Value
variable (V : (c : Dev nD) → (b : Ref sig .tc) → Buf (Elt Ideal) ((c : Thread nD τ).loc b))

/-- The specification's output over the arrays the region finds. -/
abbrev outArr (c : Dev nD) : Vec Ideal S1024x4096 .f32 :=
  Cert.Spec.outX (hidArr V c) (wgtArr V c) (biasArr V c)

/-- What a writing-back point writes back is its block of the specification's output. -/
theorem flushed1_3_eq (c : Dev nD) (t : Fin cfg1.N) (hf : (cfg1.win 3).flush t = true) :
    (dat1 V c).flushed 3 t = ((cfg1.win 3).blk t).view.read (Elt Ideal) (outArr V c) := by
  have h7 : t.val % 8 = 7 := (flush1_3 t).mp hf
  have hN : t.val < 64 := lt_of_lt_of_eq t.isLt (show cfg1.N = 64 from N_1)
  show (cfg1.win 3).cut (grid1.coords t) ((dat1 V c).after 3 t) = _
  rw [after1_3]
  funext j
  have hj0 : (j 0).val < 128 := (j 0).isLt
  have hj1 : (j 1).val < 4096 := (j 1).isLt
  rw [View.read_apply]
  show (outsAt1 V c t.val t.isLt).1 ((cfg1.win 3).xinj (grid1.coords t) j) = outArr V c (((cfg1.win 3).blk t).view.emb j)
  have e1 : (cfg1.win 3).xinj (grid1.coords t) j = ix2 (⟨(j 0).val, hj0⟩ : Fin 128) (⟨(j 1).val, hj1⟩ : Fin 4096) :=
    funext fun a => Fin.ext (by
      match a with
      | ⟨0, _⟩ => rfl
      | ⟨1, _⟩ => rfl)
  have e2 : ((cfg1.win 3).blk t).view.emb j
      = ix2 (⟨128 * (t.val / 8) + (j 0).val, by omega⟩ : Fin 1024) (⟨(j 1).val, hj1⟩ : Fin 4096) :=
    funext fun a => Fin.ext (by
      match a with
      | ⟨0, _⟩ => show win1_3.index t 0 * 128 + 1 * (j 0).val = 128 * (t.val / 8) + (j 0).val; rw [(index1_3 t).1]; omega
      | ⟨1, _⟩ => show win1_3.index t 1 * 4096 + 1 * (j 1).val = (j 1).val; rw [(index1_3 t).2]; omega)
  refine (congrArg (outsAt1 V c t.val t.isLt).1 e1).trans ?_
  refine (out_block_apply V c t h7 ⟨(j 0).val, hj0⟩ ⟨(j 1).val, hj1⟩ ⟨128 * (t.val / 8) + (j 0).val, by omega⟩ rfl).trans ?_
  exact (congrArg (outArr V c) e2).symm

/-- An index of the array is in the block of the point t iff each coordinate is in the block's range on its axis. -/
theorem mem_blk1_3 (t : Fin cfg1.N) (i : S1024x4096.Idx) :
    i ∈ ((cfg1.win 3).blk t).view.set ↔ ∀ a : Fin 2, win1_3.index t a * S128x4096.size a ≤ (i a).val ∧ (i a).val < win1_3.index t a * S128x4096.size a + S128x4096.size a := by
  show i ∈ ((View.whole main_v7).slice (win1_3.rect t)).set ↔ _
  rw [View.set_slice_whole, Rect.mem_set_unit]
  exact Iff.rfl

/-- Row r of the array is covered by the last point of its row block. -/
theorem cover1_3 (i : S1024x4096.Idx) :
    ∃ t : Fin cfg1.N, (cfg1.win 3).flush t = true ∧ i ∈ ((cfg1.win 3).blk t).view.set := by
  have hi0 : (i 0).val < 1024 := (i 0).isLt
  have hi1 : (i 1).val < 4096 := (i 1).isLt
  have hN : cfg1.N = 64 := N_1
  refine ⟨⟨8 * ((i 0).val / 128) + 7, by rw [hN]; omega⟩, (flush1_3 _).mpr (by dsimp only; omega), ?_⟩
  rw [mem_blk1_3]
  intro a
  match a with
  | ⟨0, _⟩ =>
    show win1_3.index _ 0 * 128 ≤ (i 0).val ∧ (i 0).val < win1_3.index _ 0 * 128 + 128
    rw [(index1_3 _).1]
    dsimp only
    omega
  | ⟨1, _⟩ =>
    show win1_3.index _ 1 * 4096 ≤ (i 1).val ∧ (i 1).val < win1_3.index _ 1 * 4096 + 4096
    rw [(index1_3 _).2]
    omega

end Value

/-- THE VALUE OF THE OUTPUT LAYER: whatever the buffers hold when the region is entered, the array it writes ends
    holding the log-softmax of the logits of the hidden state, the weight and the bias it finds. -/
theorem final1_3 (V : (c : Dev nD) → (b : Ref sig .tc) → Buf (Elt Ideal) ((c : Thread nD τ).loc b)) (c : Dev nD) :
    (dat1 (F := Ideal) V c).arrAt 3 cfg1.N = Cert.Spec.outX (V c main_v6_1) (V c main_arg11) (V c main_v5) :=
  (dat1 (F := Ideal) V c).arrAt_eq_of_cover 3 (outArr V c) (flushed1_3_eq V c) cover1_3

end Cert.KernelIdeal.Fr

end
-- ==== Proof.KI.Results.lean ====
/-
  The four results of the idealized kernel program, read off its run: the input gate, the hidden state, the cell
  state and the log-softmax output, each as the specification's array of the thirteen arguments.

  The run ends with every unscoped buffer at the last boundary's contents. The three gate results are the gate
  region's arrays (what its write-backs leave: the region's value, over the joined row and the one-row biases, which the
  host lines made of the arguments); the output is the output region's array, over the hidden state the gate region
  left.
-/
import proofs.«145808_j60842506715793_1_alg».proof.Proof.KI.Host
import proofs.«145808_j60842506715793_1_alg».proof.Proof.KI.R0Value
import proofs.«145808_j60842506715793_1_alg».proof.Proof.KI.R1Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The input gate. -/
theorem res_it (c : Dev nD) : W3 m ρ c (Proc.devRef .tc main_v6_0) = Cert.Spec.itArr (m ((c : Thread nD τ).loc main_arg0)) (m ((c : Thread nD τ).loc main_arg1)) (m ((c : Thread nD τ).loc main_arg5)) (m ((c : Thread nD τ).loc main_arg6)) := by
  rw [W3_of_ne m ρ c main_v6_0 (by decide)]
  refine (W2_arr m ρ c 10).trans ((final0_10 (V1 m ρ) c).trans ?_)
  rw [V1_v0, V1_arg5, V1_v2]
  exact itX_eq _ _ _ _

/-- The cell state. -/
theorem res_ct (c : Dev nD) : W3 m ρ c (Proc.devRef .tc main_v6_2)
    = Cert.Spec.ctArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W3_of_ne m ρ c main_v6_2 (by decide)]
  refine (W2_arr m ρ c 12).trans ((final0_12 (V1 m ρ) c).trans ?_)
  rw [V1_v0, V1_arg2, V1_arg3, V1_v1, V1_arg5, V1_v2, V1_arg7, V1_v3]
  exact ctX_eq _ _ _ _ _ _ _ _ _

/-- The hidden state, as the gate region leaves it. -/
theorem gate_ht (c : Dev nD) : (dat0 (V1 m ρ) c).arrAt 11 cfg0.N
    = Cert.Spec.htArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (final0_11 (V1 m ρ) c).trans ?_
  rw [V1_v0, V1_arg2, V1_arg3, V1_v1, V1_arg5, V1_v2, V1_arg7, V1_v3, V1_arg9, V1_v4]
  exact htX_eq _ _ _ _ _ _ _ _ _ _ _

/-- The hidden state. (The output region stages it as an input and leaves it as found.) -/
theorem res_ht (c : Dev nD) : W3 m ρ c (Proc.devRef .tc main_v6_1)
    = Cert.Spec.htArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W3_arr m ρ c 0).trans (((dat1 (V2 m ρ) c).arrAt_in 0 rfl _).trans ((A_eq1 (V2 m ρ) c 0).trans ((V2_v6_1 m ρ c).trans (gate_ht m ρ c))))

/-- The output. -/
theorem res_out (c : Dev nD) : W3 m ρ c (Proc.devRef .tc main_v7)
    = Cert.Spec.outOf (Cert.Spec.htArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) := by
  refine (W3_arr m ρ c 3).trans ((final1_3 (V2 m ρ) c).trans ?_)
  rw [V2_v6_1, gate_ht, V2_arg11, V2_v5]
  exact outX_eq _ _ _

/-- THE VALUE RUN of the idealized kernel program: it terminates, nothing faulting, with its four results at the
    specification's arrays of the arguments and the arguments unchanged. -/
theorem value_run : θ_run defs (onTc (τ := τ) (main (F := Ideal))) ⟨m, fun _ => 0, ρ⟩ (fun r => ∀ c : Dev nD,
      r.2.mem ((c.tc : Thread nD τ).loc main_v6_0) = Cert.Spec.itArr (m ((c : Thread nD τ).loc main_arg0)) (m ((c : Thread nD τ).loc main_arg1)) (m ((c : Thread nD τ).loc main_arg5)) (m ((c : Thread nD τ).loc main_arg6))
      ∧ r.2.mem ((c.tc : Thread nD τ).loc main_v6_1) = Cert.Spec.htArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v6_2) = Cert.Spec.ctArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v7) = Cert.Spec.outOf (Cert.Spec.htArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v6_0 (by decide))).trans (res_it m ρ c),
     (h c _ (mem_uc main_v6_1 (by decide))).trans (res_ht m ρ c),
     (h c _ (mem_uc main_v6_2 (by decide))).trans (res_ct m ρ c),
     (h c _ (mem_uc main_v7 (by decide))).trans (res_out m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c)⟩) (run_all m ρ)

end Cert.KernelIdeal.Fr

end
-- ==== Proof.Ref.RefStack.lean ====
/-
  The reference's three concatenations read at an entry.

  Row r of [i | h] is i's row r followed by h's row r; the four gates' weight matrices stacked along the rows
  give, at row g * 4096 + n, row n of the g-th matrix, and the four biases laid end to end give, at position
  g * 4096 + n, entry n of the g-th bias. The order of the pieces is f, i, c, o.
-/
import proofs.«145808_j60842506715793_1_alg».proof.Proof.Gen.ReferenceIdeal
import Idealize.ShloMosaic.Lib.Pipeline.Value
import Idealize.ShloMosaic.Lib.ValueIdx

noncomputable section

namespace Cert.ReferenceIdeal.RefStack

open Cert.ReferenceIdeal Cert.ReferenceIdeal.Gen Idealize.ShloMosaic Idealize.ShloMosaic.ValueIdx

variable {α : Type}

/-! ## [i | h] -/

/-- Left of column 1024 the joined row is i's row. -/
theorem joinedRow_left (x0 : S1024x1024.Idx → α) (x1 : S1024x4096.Idx → α) (r : Fin 1024) (k : Fin 5120)
    (hk : k.val < 1024) :
    concatenate S1024x5120 1 [⟨S1024x1024, x0⟩, ⟨S1024x4096, x1⟩] concatenates_S1024x1024_S1024x4096_S1024x5120_d1 (ix2 r k)
      = x0 (ix2 r ⟨k.val, hk⟩) :=
  concatenate_pair_apply_left 1 x0 x1 _ (ix2 r k) rfl (ix2 r ⟨k.val, hk⟩) (fun b => match b with
    | ⟨0, _⟩ => rfl
    | ⟨1, _⟩ => rfl)

/-- From column 1024 on it is h's row, the column counted from 1024. -/
theorem joinedRow_right (x0 : S1024x1024.Idx → α) (x1 : S1024x4096.Idx → α) (r : Fin 1024) (k : Fin 5120)
    (hk : ¬ k.val < 1024) :
    concatenate S1024x5120 1 [⟨S1024x1024, x0⟩, ⟨S1024x4096, x1⟩] concatenates_S1024x1024_S1024x4096_S1024x5120_d1 (ix2 r k)
      = x1 (ix2 r ⟨k.val - 1024, by have := k.isLt; omega⟩) :=
  concatenate_pair_apply_right 1 x0 x1 _ (ix2 r k) rfl rfl (ix2 r ⟨k.val - 1024, by have := k.isLt; omega⟩)
    (fun b => match b with
      | ⟨0, _⟩ => fun _ => rfl
      | ⟨1, _⟩ => fun h => absurd rfl h) (by show k.val - 1024 + 1024 = k.val; omega)

/-- Both halves at once: the joined row as a case distinction on the column. -/
theorem joinedRow_apply (x0 : S1024x1024.Idx → α) (x1 : S1024x4096.Idx → α) (r : Fin 1024) (k : Fin 5120) :
    concatenate S1024x5120 1 [⟨S1024x1024, x0⟩, ⟨S1024x4096, x1⟩] concatenates_S1024x1024_S1024x4096_S1024x5120_d1 (ix2 r k)
      = if hk : k.val < 1024 then x0 (ix2 r ⟨k.val, hk⟩) else x1 (ix2 r ⟨k.val - 1024, by have := k.isLt; omega⟩) := by
  by_cases hk : k.val < 1024
  · rw [dif_pos hk]; exact joinedRow_left x0 x1 r k hk
  · rw [dif_neg hk]; exact joinedRow_right x0 x1 r k hk

/-! ## The stacked weights: rows g * 4096 + n -/

theorem stackedWeights_piece0 (x3 x5 x7 x9 : S4096x5120.Idx → α) (n : Fin 4096) (k : Fin 5120) :
    concatenate S16384x5120 0 [⟨S4096x5120, x3⟩, ⟨S4096x5120, x5⟩, ⟨S4096x5120, x7⟩, ⟨S4096x5120, x9⟩]
        concatenates_S4096x5120_S4096x5120_S4096x5120_S4096x5120_S16384x5120_d0
        (ix2 (⟨0 + n.val, by have := n.isLt; omega⟩ : Fin 16384) k)
      = x3 (ix2 n k) :=
  concatenate_apply_piece (t := S16384x5120) 0
    [⟨S4096x5120, x3⟩, ⟨S4096x5120, x5⟩, ⟨S4096x5120, x7⟩, ⟨S4096x5120, x9⟩] _ _ 0 (by simp) S4096x5120 x3 rfl rfl 0 rfl
    (ix2 n k) (fun b => match b with
      | ⟨0, _⟩ => fun h => absurd rfl h
      | ⟨1, _⟩ => fun _ => rfl) rfl

theorem stackedWeights_piece1 (x3 x5 x7 x9 : S4096x5120.Idx → α) (n : Fin 4096) (k : Fin 5120) :
    concatenate S16384x5120 0 [⟨S4096x5120, x3⟩, ⟨S4096x5120, x5⟩, ⟨S4096x5120, x7⟩, ⟨S4096x5120, x9⟩]
        concatenates_S4096x5120_S4096x5120_S4096x5120_S4096x5120_S16384x5120_d0
        (ix2 (⟨4096 + n.val, by have := n.isLt; omega⟩ : Fin 16384) k)
      = x5 (ix2 n k) :=
  concatenate_apply_piece (t := S16384x5120) 0
    [⟨S4096x5120, x3⟩, ⟨S4096x5120, x5⟩, ⟨S4096x5120, x7⟩, ⟨S4096x5120, x9⟩] _ _ 1 (by simp) S4096x5120 x5 rfl rfl 4096 rfl
    (ix2 n k) (fun b => match b with
      | ⟨0, _⟩ => fun h => absurd rfl h
      | ⟨1, _⟩ => fun _ => rfl) rfl

theorem stackedWeights_piece2 (x3 x5 x7 x9 : S4096x5120.Idx → α) (n : Fin 4096) (k : Fin 5120) :
    concatenate S16384x5120 0 [⟨S4096x5120, x3⟩, ⟨S4096x5120, x5⟩, ⟨S4096x5120, x7⟩, ⟨S4096x5120, x9⟩]
        concatenates_S4096x5120_S4096x5120_S4096x5120_S4096x5120_S16384x5120_d0
        (ix2 (⟨8192 + n.val, by have := n.isLt; omega⟩ : Fin 16384) k)
      = x7 (ix2 n k) :=
  concatenate_apply_piece (t := S16384x5120) 0
    [⟨S4096x5120, x3⟩, ⟨S4096x5120, x5⟩, ⟨S4096x5120, x7⟩, ⟨S4096x5120, x9⟩] _ _ 2 (by simp) S4096x5120 x7 rfl rfl 8192 rfl
    (ix2 n k) (fun b => match b with
      | ⟨0, _⟩ => fun h => absurd rfl h
      | ⟨1, _⟩ => fun _ => rfl) rfl

theorem stackedWeights_piece3 (x3 x5 x7 x9 : S4096x5120.Idx → α) (n : Fin 4096) (k : Fin 5120) :
    concatenate S16384x5120 0 [⟨S4096x5120, x3⟩, ⟨S4096x5120, x5⟩, ⟨S4096x5120, x7⟩, ⟨S4096x5120, x9⟩]
        concatenates_S4096x5120_S4096x5120_S4096x5120_S4096x5120_S16384x5120_d0
        (ix2 (⟨12288 + n.val, by have := n.isLt; omega⟩ : Fin 16384) k)
      = x9 (ix2 n k) :=
  concatenate_apply_piece (t := S16384x5120) 0
    [⟨S4096x5120, x3⟩, ⟨S4096x5120, x5⟩, ⟨S4096x5120, x7⟩, ⟨S4096x5120, x9⟩] _ _ 3 (by simp) S4096x5120 x9 rfl rfl 12288 rfl
    (ix2 n k) (fun b => match b with
      | ⟨0, _⟩ => fun h => absurd rfl h
      | ⟨1, _⟩ => fun _ => rfl) rfl

/-! ## The biases laid end to end: positions g * 4096 + n -/

theorem stackedBiases_piece0 (x4 x6 x8 x10 : S4096.Idx → α) (n : Fin 4096) :
    concatenate S16384 0 [⟨S4096, x4⟩, ⟨S4096, x6⟩, ⟨S4096, x8⟩, ⟨S4096, x10⟩]
        concatenates_S4096_S4096_S4096_S4096_S16384_d0 (ix1 (⟨0 + n.val, by have := n.isLt; omega⟩ : Fin 16384))
      = x4 (ix1 n) :=
  concatenate_apply_piece (t := S16384) 0
    [⟨S4096, x4⟩, ⟨S4096, x6⟩, ⟨S4096, x8⟩, ⟨S4096, x10⟩] _ _ 0 (by simp) S4096 x4 rfl rfl 0 rfl
    (ix1 n) (fun b => match b with
      | ⟨0, _⟩ => fun h => absurd rfl h) rfl

theorem stackedBiases_piece1 (x4 x6 x8 x10 : S4096.Idx → α) (n : Fin 4096) :
    concatenate S16384 0 [⟨S4096, x4⟩, ⟨S4096, x6⟩, ⟨S4096, x8⟩, ⟨S4096, x10⟩]
        concatenates_S4096_S4096_S4096_S4096_S16384_d0 (ix1 (⟨4096 + n.val, by have := n.isLt; omega⟩ : Fin 16384))
      = x6 (ix1 n) :=
  concatenate_apply_piece (t := S16384) 0
    [⟨S4096, x4⟩, ⟨S4096, x6⟩, ⟨S4096, x8⟩, ⟨S4096, x10⟩] _ _ 1 (by simp) S4096 x6 rfl rfl 4096 rfl
    (ix1 n) (fun b => match b with
      | ⟨0, _⟩ => fun h => absurd rfl h) rfl

theorem stackedBiases_piece2 (x4 x6 x8 x10 : S4096.Idx → α) (n : Fin 4096) :
    concatenate S16384 0 [⟨S4096, x4⟩, ⟨S4096, x6⟩, ⟨S4096, x8⟩, ⟨S4096, x10⟩]
        concatenates_S4096_S4096_S4096_S4096_S16384_d0 (ix1 (⟨8192 + n.val, by have := n.isLt; omega⟩ : Fin 16384))
      = x8 (ix1 n) :=
  concatenate_apply_piece (t := S16384) 0
    [⟨S4096, x4⟩, ⟨S4096, x6⟩, ⟨S4096, x8⟩, ⟨S4096, x10⟩] _ _ 2 (by simp) S4096 x8 rfl rfl 8192 rfl
    (ix1 n) (fun b => match b with
      | ⟨0, _⟩ => fun h => absurd rfl h) rfl

theorem stackedBiases_piece3 (x4 x6 x8 x10 : S4096.Idx → α) (n : Fin 4096) :
    concatenate S16384 0 [⟨S4096, x4⟩, ⟨S4096, x6⟩, ⟨S4096, x8⟩, ⟨S4096, x10⟩]
        concatenates_S4096_S4096_S4096_S4096_S16384_d0 (ix1 (⟨12288 + n.val, by have := n.isLt; omega⟩ : Fin 16384))
      = x10 (ix1 n) :=
  concatenate_apply_piece (t := S16384) 0
    [⟨S4096, x4⟩, ⟨S4096, x6⟩, ⟨S4096, x8⟩, ⟨S4096, x10⟩] _ _ 3 (by simp) S4096 x10 rfl rfl 12288 rfl
    (ix1 n) (fun b => match b with
      | ⟨0, _⟩ => fun h => absurd rfl h) rfl

end Cert.ReferenceIdeal.RefStack

end
-- ==== Proof.Ref.RefPre.lean ====
/-
  The four gates' pre-activations, read off the reference's one stacked product.

  The reference multiplies [i | h] by the transpose of the four weight matrices stacked along their rows and adds
  the four biases laid end to end, broadcast down the rows. At (r, c) that is the sum over k of [i | h][r, k] times
  the stacked weights' entry (c, k), plus the stacked bias at c. The slice that starts at column g * 4096 therefore
  holds, at (r, n), the g-th gate's pre-activation: row r of [i | h] against row n of the g-th weight matrix, plus
  the g-th bias at n. The order of the gates is f, i, c, o.
-/
import proofs.«145808_j60842506715793_1_alg».proof.Proof.Ref.ReadP
import proofs.«145808_j60842506715793_1_alg».proof.Proof.Ref.RefStack
import proofs.«145808_j60842506715793_1_alg».proof.Proof.Spec

noncomputable section

namespace Cert.ReferenceIdeal.RefPre

open Cert.ReferenceIdeal Cert.ReferenceIdeal.Gen Cert.ReferenceIdeal.ReadP Idealize.ShloMosaic Idealize.ShloMosaic.ValueIdx
open scoped BigOperators

/-- The stacked product plus the stacked bias at (r, c). -/
theorem stacked_apply (x0 : Vec Ideal S1024x1024 .f32) (x1 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (r : Fin 1024) (c : Fin 16384) :
    val_main_v7 (F := Ideal) x0 x1 x3 x4 x5 x6 x7 x8 x9 x10 (ix2 r c)
      = (∑ k : Fin 5120, val_main_v0 (F := Ideal) x0 x1 (ix2 r k) * val_main_v1 (F := Ideal) x3 x5 x7 x9 (ix2 c k))
        + val_main_v2 (F := Ideal) x4 x6 x8 x10 (ix1 c) := by
  have eb : idx_main_v5 (idx_main_v6 (ix2 r c)) = ix1 c :=
    funext fun a => Fin.ext (by match a with | ⟨0, _⟩ => rfl)
  rw [val_main_v7_apply, val_main_v4_apply, val_main_v6_apply, val_main_v5_apply, eb]
  show (∑ k : Fin 5120, _) + _ = _
  refine congrArg (· + _) (Finset.sum_congr rfl fun k _ => ?_)
  have el : lidx_main_v4 (ix2 r c) k = ix2 r k :=
    funext fun a => Fin.ext (by match a with | ⟨0, _⟩ => rfl | ⟨1, _⟩ => rfl)
  have er : idx_main_v3 (ridx_main_v4 (ix2 r c) k) = ix2 c k :=
    funext fun a => Fin.ext (by match a with | ⟨0, _⟩ => rfl | ⟨1, _⟩ => rfl)
  rw [val_main_v3_apply, el, er]

/-- The slice from column 0: the forget gate's pre-activation. -/
theorem pre_f (x0 : Vec Ideal S1024x1024 .f32) (x1 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (r : Fin 1024) (n : Fin 4096) :
    val_main_v8 (F := Ideal) x0 x1 x3 x4 x5 x6 x7 x8 x9 x10 (ix2 r n) = Cert.Spec.pre x0 x1 x3 x4 r n := by
  have e : idx_main_v8 (ix2 r n) = ix2 r (⟨0 + n.val, by have := n.isLt; omega⟩ : Fin 16384) :=
    funext fun a => Fin.ext (by match a with | ⟨0, _⟩ => rfl | ⟨1, _⟩ => exact (Nat.zero_add _).symm)
  rw [val_main_v8_apply, e, stacked_apply]
  unfold Cert.Spec.pre Cert.Spec.xrow val_main_v0 val_main_v1 val_main_v2
  rw [RefStack.stackedBiases_piece0]
  refine congrArg (· + _) (Finset.sum_congr rfl fun k _ => ?_)
  rw [RefStack.joinedRow_apply, RefStack.stackedWeights_piece0]

/-- The slice from column 4096: the input gate's pre-activation. -/
theorem pre_i (x0 : Vec Ideal S1024x1024 .f32) (x1 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (r : Fin 1024) (n : Fin 4096) :
    val_main_v9 (F := Ideal) x0 x1 x3 x4 x5 x6 x7 x8 x9 x10 (ix2 r n) = Cert.Spec.pre x0 x1 x5 x6 r n := by
  have e : idx_main_v9 (ix2 r n) = ix2 r (⟨4096 + n.val, by have := n.isLt; omega⟩ : Fin 16384) :=
    funext fun a => Fin.ext (by match a with | ⟨0, _⟩ => rfl | ⟨1, _⟩ => rfl)
  rw [val_main_v9_apply, e, stacked_apply]
  unfold Cert.Spec.pre Cert.Spec.xrow val_main_v0 val_main_v1 val_main_v2
  rw [RefStack.stackedBiases_piece1]
  refine congrArg (· + _) (Finset.sum_congr rfl fun k _ => ?_)
  rw [RefStack.joinedRow_apply, RefStack.stackedWeights_piece1]

/-- The slice from column 8192: the candidate's pre-activation. -/
theorem pre_c (x0 : Vec Ideal S1024x1024 .f32) (x1 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (r : Fin 1024) (n : Fin 4096) :
    val_main_v10 (F := Ideal) x0 x1 x3 x4 x5 x6 x7 x8 x9 x10 (ix2 r n) = Cert.Spec.pre x0 x1 x7 x8 r n := by
  have e : idx_main_v10 (ix2 r n) = ix2 r (⟨8192 + n.val, by have := n.isLt; omega⟩ : Fin 16384) :=
    funext fun a => Fin.ext (by match a with | ⟨0, _⟩ => rfl | ⟨1, _⟩ => rfl)
  rw [val_main_v10_apply, e, stacked_apply]
  unfold Cert.Spec.pre Cert.Spec.xrow val_main_v0 val_main_v1 val_main_v2
  rw [RefStack.stackedBiases_piece2]
  refine congrArg (· + _) (Finset.sum_congr rfl fun k _ => ?_)
  rw [RefStack.joinedRow_apply, RefStack.stackedWeights_piece2]

/-- The slice from column 12288: the output gate's pre-activation. -/
theorem pre_o (x0 : Vec Ideal S1024x1024 .f32) (x1 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (r : Fin 1024) (n : Fin 4096) :
    val_main_v11 (F := Ideal) x0 x1 x3 x4 x5 x6 x7 x8 x9 x10 (ix2 r n) = Cert.Spec.pre x0 x1 x9 x10 r n := by
  have e : idx_main_v11 (ix2 r n) = ix2 r (⟨12288 + n.val, by have := n.isLt; omega⟩ : Fin 16384) :=
    funext fun a => Fin.ext (by match a with | ⟨0, _⟩ => rfl | ⟨1, _⟩ => rfl)
  rw [val_main_v11_apply, e, stacked_apply]
  unfold Cert.Spec.pre Cert.Spec.xrow val_main_v0 val_main_v1 val_main_v2
  rw [RefStack.stackedBiases_piece3]
  refine congrArg (· + _) (Finset.sum_congr rfl fun k _ => ?_)
  rw [RefStack.joinedRow_apply, RefStack.stackedWeights_piece3]

end Cert.ReferenceIdeal.RefPre

end
-- ==== Proof.Ref.RefScalar.lean ====
/-
  The scalar facts the reference's entries need, on the extended reals: the two float words the program writes
  (1 and -infinity), the logistic function as the reference spells it, 1 / (1 + e^(-x)), and the maximum with
  -infinity.
-/
import Idealize.ShloMosaic.PureOps.Ideal
import Idealize.ShloMosaic.PureOps.Ideal.Laws

noncomputable section

namespace Cert.ReferenceIdeal.RefScalar

open Idealize.ShloMosaic

/-- The word of the float 1 is the extended real 1. -/
theorem word_one : Ideal.ofBits .f32 0x3F800000#32 = 1 := by
  simp [Ideal.ofBits, Ideal.ieee, -EReal.coe_mul]; norm_num

/-- The word of the float -infinity is the bottom element. -/
theorem word_negInf : Ideal.ofBits .f32 0xFF800000#32 = ⊥ := by
  simp [Ideal.ofBits, Ideal.ieee]

/-- The quotient of 1 by 1 + e^(-x), in the host's operations with both ones written as float words, is the
    logistic function of x. -/
theorem logistic_spelled (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = Ideal.logistic x
  rw [word_one]
  rfl

/-- The maximum with -infinity, written as a float word, changes nothing. -/
theorem max_negInf_left (x : Ideal .f32) :
    FloatOps.maximumf (FloatOps.ofBits (F := Ideal) .f32 0xFF800000#32) x = x := by
  show max (Ideal.ofBits .f32 0xFF800000#32) x = x
  rw [word_negInf]
  exact bot_sup_eq x

end Cert.ReferenceIdeal.RefScalar

end
-- ==== Proof.Ref.RefGates.lean ====
/-
  The reference's three gate results, entry by entry, are the specification's.

  Each sigmoid is spelled 1 / (1 + e^(-x)) over a gate's pre-activation: the logistic function of it. Then
  it = sigma(pre_i), ct = sigma(pre_f) * c + sigma(pre_i) * tanh(pre_c), ht = sigma(pre_o) * tanh(ct).
-/
import proofs.«145808_j60842506715793_1_alg».proof.Proof.Ref.RefPre
import proofs.«145808_j60842506715793_1_alg».proof.Proof.Ref.RefScalar

noncomputable section

namespace Cert.ReferenceIdeal.RefGates

open Cert.ReferenceIdeal Cert.ReferenceIdeal.Gen Cert.ReferenceIdeal.ReadP Idealize.ShloMosaic Idealize.ShloMosaic.ValueIdx
open scoped BigOperators

/-! ## The three sigmoids at an entry -/

/-- The forget gate at (r, n). -/
theorem sigma_f_at (x0 : Vec Ideal S1024x1024 .f32) (x1 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (r : Fin 1024) (n : Fin 4096) :
    val_main_v17 (F := Ideal) x0 x1 x3 x4 x5 x6 x7 x8 x9 x10 (ix2 r n) = Ideal.logistic (Cert.Spec.pre x0 x1 x3 x4 r n) := by
  rw [val_main_v17_apply, val_main_v16_apply, val_main_cst_0_apply, val_main_v15_apply, val_main_v14_apply,
    val_main_cst_apply, val_main_v13_apply, val_main_v12_apply, RefPre.pre_f]
  exact RefScalar.logistic_spelled _

/-- The input gate at (r, n). -/
theorem sigma_i_at (x0 : Vec Ideal S1024x1024 .f32) (x1 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (r : Fin 1024) (n : Fin 4096) :
    val_main_v23 (F := Ideal) x0 x1 x3 x4 x5 x6 x7 x8 x9 x10 (ix2 r n) = Ideal.logistic (Cert.Spec.pre x0 x1 x5 x6 r n) := by
  rw [val_main_v23_apply, val_main_v22_apply, val_main_cst_2_apply, val_main_v21_apply, val_main_v20_apply,
    val_main_cst_1_apply, val_main_v19_apply, val_main_v18_apply, RefPre.pre_i]
  exact RefScalar.logistic_spelled _

/-- The output gate at (r, n). -/
theorem sigma_o_at (x0 : Vec Ideal S1024x1024 .f32) (x1 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (r : Fin 1024) (n : Fin 4096) :
    val_main_v33 (F := Ideal) x0 x1 x3 x4 x5 x6 x7 x8 x9 x10 (ix2 r n) = Ideal.logistic (Cert.Spec.pre x0 x1 x9 x10 r n) := by
  rw [val_main_v33_apply, val_main_v32_apply, val_main_cst_4_apply, val_main_v31_apply, val_main_v30_apply,
    val_main_cst_3_apply, val_main_v29_apply, val_main_v28_apply, RefPre.pre_o]
  exact RefScalar.logistic_spelled _

/-! ## The three results at an entry -/

/-- The new cell state at (r, n). -/
theorem ct_at (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (r : Fin 1024) (n : Fin 4096) :
    val_main_v27 (F := Ideal) x0 x1 x2 x3 x4 x5 x6 x7 x8 x9 x10 (ix2 r n) = Cert.Spec.ctAt x0 x1 x2 x3 x4 x5 x6 x7 x8 r n := by
  rw [val_main_v27_apply, val_main_v25_apply, val_main_v26_apply, val_main_v24_apply, sigma_f_at, sigma_i_at, RefPre.pre_c]
  rfl

/-- The new hidden state at (r, n). -/
theorem ht_at (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (r : Fin 1024) (n : Fin 4096) :
    val_main_v35 (F := Ideal) x0 x1 x2 x3 x4 x5 x6 x7 x8 x9 x10 (ix2 r n) = Cert.Spec.htAt x0 x1 x2 x3 x4 x5 x6 x7 x8 x9 x10 r n := by
  rw [val_main_v35_apply, val_main_v34_apply, sigma_o_at, ct_at]
  rfl

/-! ## The three results as arrays -/

/-- The reference's first result is the input gate's array. -/
theorem it_eq (x0 : Vec Ideal S1024x1024 .f32) (x1 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) :
    val_main_v23 (F := Ideal) x0 x1 x3 x4 x5 x6 x7 x8 x9 x10 = Cert.Spec.itArr x0 x1 x5 x6 := by
  funext j
  obtain ⟨r, n, rfl⟩ : ∃ (r : Fin 1024) (n : Fin 4096), j = ix2 r n := ⟨j 0, j 1, eq_ix2 j⟩
  exact sigma_i_at x0 x1 x3 x4 x5 x6 x7 x8 x9 x10 r n

/-- The reference's third result is the new cell state's array. -/
theorem ct_eq (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) :
    val_main_v27 (F := Ideal) x0 x1 x2 x3 x4 x5 x6 x7 x8 x9 x10 = Cert.Spec.ctArr x0 x1 x2 x3 x4 x5 x6 x7 x8 := by
  funext j
  obtain ⟨r, n, rfl⟩ : ∃ (r : Fin 1024) (n : Fin 4096), j = ix2 r n := ⟨j 0, j 1, eq_ix2 j⟩
  exact ct_at x0 x1 x2 x3 x4 x5 x6 x7 x8 x9 x10 r n

/-- The reference's second result is the new hidden state's array. -/
theorem ht_eq (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) :
    val_main_v35 (F := Ideal) x0 x1 x2 x3 x4 x5 x6 x7 x8 x9 x10 = Cert.Spec.htArr x0 x1 x2 x3 x4 x5 x6 x7 x8 x9 x10 := by
  funext j
  obtain ⟨r, n, rfl⟩ : ∃ (r : Fin 1024) (n : Fin 4096), j = ix2 r n := ⟨j 0, j 1, eq_ix2 j⟩
  exact ht_at x0 x1 x2 x3 x4 x5 x6 x7 x8 x9 x10 r n

end Cert.ReferenceIdeal.RefGates

end
-- ==== Proof.Ref.RefOut.lean ====
/-
  The reference's fourth result: the log-softmax, along the rows, of the output layer's logits.

  The logit at (r, n) is row r of the hidden state against row n of Wout, plus bout at n. The called log-softmax takes
  each row's maximum as the fold of max from -infinity (and once more the maximum with -infinity, which changes
  nothing), subtracts it, and subtracts the logarithm of the row's sum of exponentials of the shifted logits, the
  sum taken from 0.
-/
import proofs.«145808_j60842506715793_1_alg».proof.Proof.Ref.RefGates

noncomputable section

namespace Cert.ReferenceIdeal.RefOut

open Cert.ReferenceIdeal Cert.ReferenceIdeal.Gen Cert.ReferenceIdeal.ReadP Idealize.ShloMosaic Idealize.ShloMosaic.ValueIdx
open scoped BigOperators

/-! ## The logits -/

/-- The logit at (r, n), over the reference's own hidden state. -/
theorem logit_at (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (x11 : Vec Ideal S4096x4096 .f32) (x12 : Vec Ideal S4096 .f32) (r : Fin 1024) (n : Fin 4096) :
    val_main_v40 (F := Ideal) x0 x1 x2 x3 x4 x5 x6 x7 x8 x9 x10 x11 x12 (ix2 r n)
      = Cert.Spec.logitAt (fun r k => val_main_v35 (F := Ideal) x0 x1 x2 x3 x4 x5 x6 x7 x8 x9 x10 (ix2 r k)) x11 x12 r n := by
  have eb : idx_main_v38 (idx_main_v39 (ix2 r n)) = ix1 n :=
    funext fun a => Fin.ext (by match a with | ⟨0, _⟩ => rfl)
  rw [val_main_v40_apply, val_main_v37_apply, val_main_v39_apply, val_main_v38_apply, eb]
  unfold Cert.Spec.logitAt
  show (∑ k : Fin 4096, _) + _ = _
  refine congrArg (· + _) (Finset.sum_congr rfl fun k _ => ?_)
  have el : lidx_main_v37 (ix2 r n) k = ix2 r k :=
    funext fun a => Fin.ext (by match a with | ⟨0, _⟩ => rfl | ⟨1, _⟩ => rfl)
  have er : idx_main_v36 (ridx_main_v37 (ix2 r n) k) = ix2 n k :=
    funext fun a => Fin.ext (by match a with | ⟨0, _⟩ => rfl | ⟨1, _⟩ => rfl)
  rw [val_main_v36_apply, el, er]

/-- The logits as a matrix of rows. -/
theorem logits_eq (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (x11 : Vec Ideal S4096x4096 .f32) (x12 : Vec Ideal S4096 .f32) :
    (fun (r : Fin 1024) (k : Fin 4096) => val_main_v40 (F := Ideal) x0 x1 x2 x3 x4 x5 x6 x7 x8 x9 x10 x11 x12 (ix2 r k))
      = Cert.Spec.logitAt (fun r k => val_main_v35 (F := Ideal) x0 x1 x2 x3 x4 x5 x6 x7 x8 x9 x10 (ix2 r k)) x11 x12 :=
  funext fun r => funext fun k => logit_at x0 x1 x2 x3 x4 x5 x6 x7 x8 x9 x10 x11 x12 r k

/-! ## A row's maximum -/

/-- The host's reduction by max from the word of -infinity, over the columns, at row r: the fold of max from the
    bottom element over the row. -/
theorem reduceMax_at (z : FVec Ideal S1024x4096 .f32) (r : Fin 1024) :
    Host.reduce (FloatOps.maximumf (F := Ideal) (φ := .f32)) z (constant (F := Ideal) S_ .f32 0xFF800000#32)
        reducesTo_S1024x4096_S1024_d1 h_S_ (ix1 r)
      = (Finset.univ : Finset (Fin 4096)).fold max ⊥ (fun k => z (ix2 r k)) := by
  have hR : S1024x4096.Reduces [1] S1024 := by decide
  refine (Host.reduce_eq_fold_single (FloatOps.maximumf (F := Ideal) (φ := .f32)) z
    (constant (F := Ideal) S_ .f32 0xFF800000#32) reducesTo_S1024x4096_S1024_d1 hR h_S_ (ix1 r)).trans ?_
  have hf : (z ∘ hR.lift (ix1 r)) = fun k : Fin 4096 => z (ix2 r k) :=
    funext fun k => congrArg z (funext fun a => Fin.ext (by match a with | ⟨0, _⟩ => rfl | ⟨1, _⟩ => rfl))
  refine Eq.trans ?_ (congrArg (fun f => Finset.fold max (⊥ : EReal) f (Finset.univ : Finset (Fin 4096))) hf)
  rw [show constant (F := Ideal) S_ .f32 0xFF800000#32 (Shape.Idx.first h_S_) = (⊥ : EReal) from RefScalar.word_negInf]
  rfl

/-- The maximum the reference subtracts from row r is the row's maximum of the logits. -/
theorem rowMax_at (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (x11 : Vec Ideal S4096x4096 .f32) (x12 : Vec Ideal S4096 .f32) (r : Fin 1024) :
    val_main_call0_v2 (F := Ideal) x0 x1 x2 x3 x4 x5 x6 x7 x8 x9 x10 x11 x12 (ix1 r)
      = Cert.Spec.rowMax (fun r k => val_main_v40 (F := Ideal) x0 x1 x2 x3 x4 x5 x6 x7 x8 x9 x10 x11 x12 (ix2 r k)) r := by
  rw [val_main_call0_v2_apply, val_main_call0_v1_apply, val_main_call0_cst_0_apply, RefScalar.max_negInf_left]
  unfold val_main_call0_v0 val_main_call0_cst
  exact reduceMax_at _ r

/-! ## The shifted logits, their exponentials' sum, and the result -/

/-- The shifted logit at (r, k). -/
theorem shifted_at (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (x11 : Vec Ideal S4096x4096 .f32) (x12 : Vec Ideal S4096 .f32) (r : Fin 1024) (k : Fin 4096) :
    val_main_call0_v5 (F := Ideal) x0 x1 x2 x3 x4 x5 x6 x7 x8 x9 x10 x11 x12 (ix2 r k)
      = val_main_v40 (F := Ideal) x0 x1 x2 x3 x4 x5 x6 x7 x8 x9 x10 x11 x12 (ix2 r k)
        - Cert.Spec.rowMax (fun r k => val_main_v40 (F := Ideal) x0 x1 x2 x3 x4 x5 x6 x7 x8 x9 x10 x11 x12 (ix2 r k)) r := by
  have e : idx_main_call0_v3 (idx_main_call0_v4 (ix2 r k)) = ix1 r :=
    funext fun a => Fin.ext (by match a with | ⟨0, _⟩ => rfl)
  rw [val_main_call0_v5_apply, val_main_call0_v4_apply, val_main_call0_v3_apply, e, rowMax_at]
  rfl

/-- The row's sum of exponentials of the shifted logits. -/
theorem sumExp_at (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (x11 : Vec Ideal S4096x4096 .f32) (x12 : Vec Ideal S4096 .f32) (r : Fin 1024) :
    val_main_call0_v7 (F := Ideal) x0 x1 x2 x3 x4 x5 x6 x7 x8 x9 x10 x11 x12 (ix1 r)
      = ∑ k : Fin 4096, Ideal.exp (val_main_v40 (F := Ideal) x0 x1 x2 x3 x4 x5 x6 x7 x8 x9 x10 x11 x12 (ix2 r k)
          - Cert.Spec.rowMax (fun r k => val_main_v40 (F := Ideal) x0 x1 x2 x3 x4 x5 x6 x7 x8 x9 x10 x11 x12 (ix2 r k)) r) := by
  rw [val_main_call0_v7_apply, val_main_call0_cst_1_apply]
  show Ideal.ofBits .f32 0x00000000#32 + _ = _
  rw [Ideal.ofBits_zero_f32, zero_add]
  refine Finset.sum_congr rfl fun k _ => ?_
  have e : idx_main_call0_v7 (ix1 r) k = ix2 r k :=
    funext fun a => Fin.ext (by match a with | ⟨0, _⟩ => rfl | ⟨1, _⟩ => rfl)
  rw [e, val_main_call0_v6_apply, shifted_at]
  rfl

/-- The fourth result at (r, n): the log-softmax of the logits' row r at n. -/
theorem out_at (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (x11 : Vec Ideal S4096x4096 .f32) (x12 : Vec Ideal S4096 .f32) (r : Fin 1024) (n : Fin 4096) :
    val_main_v41 (F := Ideal) x0 x1 x2 x3 x4 x5 x6 x7 x8 x9 x10 x11 x12 (ix2 r n)
      = Cert.Spec.logSoftmaxAt (fun r k => val_main_v40 (F := Ideal) x0 x1 x2 x3 x4 x5 x6 x7 x8 x9 x10 x11 x12 (ix2 r k)) r n := by
  have e : idx_main_call0_v8 (idx_main_call0_v10 (ix2 r n)) = ix1 r :=
    funext fun a => Fin.ext (by match a with | ⟨0, _⟩ => rfl)
  rw [val_main_v41_apply, shifted_at, val_main_call0_v10_apply, val_main_call0_v9_apply, val_main_call0_v8_apply, e,
    sumExp_at]
  rfl

/-- The reference's fourth result is the specification's output of the reference's own hidden state. -/
theorem out_eq_of_ht (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (x11 : Vec Ideal S4096x4096 .f32) (x12 : Vec Ideal S4096 .f32) :
    val_main_v41 (F := Ideal) x0 x1 x2 x3 x4 x5 x6 x7 x8 x9 x10 x11 x12
      = Cert.Spec.outOf (val_main_v35 (F := Ideal) x0 x1 x2 x3 x4 x5 x6 x7 x8 x9 x10) x11 x12 := by
  funext j
  obtain ⟨r, n, rfl⟩ : ∃ (r : Fin 1024) (n : Fin 4096), j = ix2 r n := ⟨j 0, j 1, eq_ix2 j⟩
  rw [out_at, logits_eq]
  rfl

/-- The reference's fourth result is the specification's output of the specification's hidden state. -/
theorem out_eq (x0 : Vec Ideal S1024x1024 .f32) (x1 x2 : Vec Ideal S1024x4096 .f32) (x3 : Vec Ideal S4096x5120 .f32) (x4 : Vec Ideal S4096 .f32) (x5 : Vec Ideal S4096x5120 .f32) (x6 : Vec Ideal S4096 .f32) (x7 : Vec Ideal S4096x5120 .f32) (x8 : Vec Ideal S4096 .f32) (x9 : Vec Ideal S4096x5120 .f32) (x10 : Vec Ideal S4096 .f32) (x11 : Vec Ideal S4096x4096 .f32) (x12 : Vec Ideal S4096 .f32) :
    val_main_v41 (F := Ideal) x0 x1 x2 x3 x4 x5 x6 x7 x8 x9 x10 x11 x12
      = Cert.Spec.outOf (Cert.Spec.htArr x0 x1 x2 x3 x4 x5 x6 x7 x8 x9 x10) x11 x12 := by
  rw [out_eq_of_ht, RefGates.ht_eq]

end Cert.ReferenceIdeal.RefOut

end
-- ==== Proof.Ref.RefValue.lean ====
/-
  The reference's run ends with its four results at the specification's arrays of its own arguments.

  The reference's run, as generated, ends with each result at the operations' composed term of the arguments; read
  entry by entry those terms are: the input gate, the new hidden state, the new cell state, and the log-softmax of
  the output layer's logits of that hidden state.
-/
import proofs.«145808_j60842506715793_1_alg».proof.Defs
import proofs.«145808_j60842506715793_1_alg».proof.Proof.Ref.RunP
import proofs.«145808_j60842506715793_1_alg».proof.Proof.Ref.ReadP
import proofs.«145808_j60842506715793_1_alg».proof.Proof.Ref.RefGates
import proofs.«145808_j60842506715793_1_alg».proof.Proof.Ref.RefOut
import proofs.«145808_j60842506715793_1_alg».proof.Proof.Spec

noncomputable section

namespace Cert.ReferenceIdeal.RefValue

open Cert.ReferenceIdeal Cert.ReferenceIdeal.Gen Idealize.ShloMosaic Idealize.ShloMosaic.TcCoe Idealize.SL.Sem

/-! ## The four results, as functions of the thirteen argument arrays -/

section Results

variable (a0 : Vec Ideal S1024x1024 .f32) (a1 a2 : Vec Ideal S1024x4096 .f32) (a3 : Vec Ideal S4096x5120 .f32)
  (a4 : Vec Ideal S4096 .f32) (a5 : Vec Ideal S4096x5120 .f32) (a6 : Vec Ideal S4096 .f32) (a7 : Vec Ideal S4096x5120 .f32)
  (a8 : Vec Ideal S4096 .f32) (a9 : Vec Ideal S4096x5120 .f32) (a10 : Vec Ideal S4096 .f32) (a11 : Vec Ideal S4096x4096 .f32)
  (a12 : Vec Ideal S4096 .f32)

/-- The first result: the input gate. -/
theorem result_it :
    ReadP.val_main_v23 (F := Ideal) a0 a1 a3 a4 a5 a6 a7 a8 a9 a10 = Cert.Spec.itArr a0 a1 a5 a6 :=
  RefGates.it_eq a0 a1 a3 a4 a5 a6 a7 a8 a9 a10

/-- The second result: the new hidden state. -/
theorem result_ht :
    ReadP.val_main_v35 (F := Ideal) a0 a1 a2 a3 a4 a5 a6 a7 a8 a9 a10 = Cert.Spec.htArr a0 a1 a2 a3 a4 a5 a6 a7 a8 a9 a10 :=
  RefGates.ht_eq a0 a1 a2 a3 a4 a5 a6 a7 a8 a9 a10

/-- The third result: the new cell state. -/
theorem result_ct :
    ReadP.val_main_v27 (F := Ideal) a0 a1 a2 a3 a4 a5 a6 a7 a8 a9 a10 = Cert.Spec.ctArr a0 a1 a2 a3 a4 a5 a6 a7 a8 :=
  RefGates.ct_eq a0 a1 a2 a3 a4 a5 a6 a7 a8 a9 a10

/-- The fourth result: the log-softmax of the logits of the new hidden state. -/
theorem result_out :
    ReadP.val_main_v41 (F := Ideal) a0 a1 a2 a3 a4 a5 a6 a7 a8 a9 a10 a11 a12
      = Cert.Spec.outOf (Cert.Spec.htArr a0 a1 a2 a3 a4 a5 a6 a7 a8 a9 a10) a11 a12 :=
  RefOut.out_eq a0 a1 a2 a3 a4 a5 a6 a7 a8 a9 a10 a11 a12

end Results

/-! ## The run -/

/-- On every device, from any memory with zero counters, every weakly fair execution of the reference terminates
    with its four results at the specification's arrays of the arguments' launch contents, the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v23) = Cert.Spec.itArr (m' ((c.tc : Thread nD τ).loc main_arg0)) (m' ((c.tc : Thread nD τ).loc main_arg1)) (m' ((c.tc : Thread nD τ).loc main_arg5)) (m' ((c.tc : Thread nD τ).loc main_arg6))
      ∧ r.2.mem ((c.tc : Thread nD τ).loc main_v35) = Cert.Spec.htArr (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))
      ∧ r.2.mem ((c.tc : Thread nD τ).loc main_v27) = Cert.Spec.ctArr (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
      ∧ r.2.mem ((c.tc : Thread nD τ).loc main_v41) = Cert.Spec.outOf (Cert.Spec.htArr (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))) (m' ((c.tc : Thread nD τ).loc main_arg11)) (m' ((c.tc : Thread nD τ).loc main_arg12))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12) :=
  (θ_run defs _ _).mono (fun _ h c => by
    obtain ⟨h23, h35, h27, h41, hargs⟩ := h c
    exact ⟨h23.trans ((ReadP.val_main_v23_eq _ _ _ _ _ _ _ _ _ _).trans (result_it _ _ _ _ _ _ _ _ _ _)),
      h35.trans ((ReadP.val_main_v35_eq m' c).trans (result_ht _ _ _ _ _ _ _ _ _ _ _)),
      h27.trans ((ReadP.val_main_v27_eq _ _ _ _ _ _ _ _ _ _ _).trans (result_ct _ _ _ _ _ _ _ _ _ _ _)),
      h41.trans ((ReadP.val_main_v41_eq m' c).trans (result_out _ _ _ _ _ _ _ _ _ _ _ _ _)),
      hargs⟩)
    (ValueP.run (F := Ideal) m' ρ')

end Cert.ReferenceIdeal.RefValue

end
-- ==== Proof.lean ====
/-
  An LSTM cell step — four gate products sharing one left operand, the gating, and a log-softmax output layer —
  computed by two pipelined kernel regions, against its plain array reference: equal over the extended reals.

  Both sides are proved to end at ONE specification of the four results as functions of the thirteen arguments
  (Proof/Spec.lean): each gate's pre-activation is the row of [i | h] against a row of the gate's weight plus its
  bias; it = sigma(pre_i), ct = sigma(pre_f) * c + it * tanh(pre_c), ht = sigma(pre_o) * tanh(ct); the output is the
  row-wise log-softmax of ht against Wout plus bout.
  The kernel side: the first region walks the 5120-long contraction in five steps of 1024, adding each partial
  product into four accumulators it zeroes at the first step, and at the last step adds the biases and applies the
  gating; the second does the same over eight steps of 512 with one accumulator and finishes with the log-softmax of
  each row. Grouping a sum into blocks, and adding the blocks in order starting from zero, changes nothing on the
  extended reals (addition there is commutative and associative), a change of float format is the identity, the
  logistic function is 1 / (1 + e^(-x)) on both sides by definition, and the row maximum is the same fold of max from
  -infinity; no finiteness of the inputs is used.
  The three frames: each kernel program's run of @main (host lines, gate region, output region) ends with every
  argument as launched — no host line and no region writes one —; the reference's run likewise.
  The idealization rewrote nothing, so the preservation conjunct is trivial.
-/
import proofs.«145808_j60842506715793_1_alg».proof.Defs
import proofs.«145808_j60842506715793_1_alg».proof.Proof.Gen.Kernel
import proofs.«145808_j60842506715793_1_alg».proof.Proof.Gen.KernelIdeal
import proofs.«145808_j60842506715793_1_alg».proof.Proof.Gen.ReferenceIdeal
import proofs.«145808_j60842506715793_1_alg».proof.Proof.Gen.Pre_finite_inputs
import proofs.«145808_j60842506715793_1_alg».proof.Proof.K.Launch
import proofs.«145808_j60842506715793_1_alg».proof.Proof.KI.Results
import proofs.«145808_j60842506715793_1_alg».proof.Proof.Ref.RefValue
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_k : Cert.frame_Kernel := fun m ρ _ => Cert.Kernel.Fr.frame (F := Bits) m ρ

/-- The idealized kernel program likewise. -/
theorem frame_ki : Cert.frame_KernelIdeal := fun m ρ _ => Cert.KernelIdeal.Fr.frame (F := Ideal) m ρ

/-- The reference likewise: its value run with the results dropped. -/
theorem frame_ri : Cert.frame_ReferenceIdeal := fun m ρ _ =>
  (θ_run Cert.ReferenceIdeal.defs _ _).mono (fun _ h c => (h c).2.2.2.2) (Cert.ReferenceIdeal.RefValue.ref_run m ρ)

/-- From memories agreeing on the arguments both idealized programs end with their four results at the
    specification's arrays of those arguments. -/
theorem algebraic : Cert.algebraic_KernelIdeal_ReferenceIdeal := by
  intro m ρ m' ρ' _ hagree
  refine ⟨fun c => Cert.Spec.itArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.htArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Spec.ctArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Spec.outOf (Cert.Spec.htArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Fr.value_run m ρ, ?_⟩
  refine (θ_run Cert.ReferenceIdeal.defs _ _).mono (fun r h c => ?_) (Cert.ReferenceIdeal.RefValue.ref_run m' ρ')
  obtain ⟨e0, e1, e2, e3, e4, e5, e6, e7, e8, e9, e10, e11, e12⟩ := hagree c
  beta_reduce
  rw [← e0, ← e1, ← e2, ← e3, ← e4, ← e5, ← e6, ← e7, ← e8, ← e9, ← e10, ← e11, ← e12]
  exact h c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
